-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v43)) (v1 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_v49) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v46) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x768 : Shape := ⟨2, ![8192, 768]⟩
abbrev S_ : Shape := ⟨0, ![]⟩

class Facts : Prop where
  bcast_S_S8192x768 : S_.BroadcastsInDim S8192x768 (![] : Fin 0 → Fin S8192x768.rank)
  reducesTo_S8192x768_S_d0_1 : S8192x768.ReducesTo [0, 1] S_
  h_S_ : 0 < S_.numel

variable [Facts]

def fn {F : FTy → Type} [FloatOps F] (main_arg0 : FVec F S8192x768 .f32) (main_arg1 : FVec F S8192x768 .f32) : IVec S_ 1 :=
  let main_v0 : FVec F S8192x768 .f32 := Host.absf main_arg0
  let main_cst : FVec F S_ .f32 := constant S_ .f32 0x7F800000#32
  let main_v1 : FVec F S8192x768 .f32 := broadcastInDim S8192x768 ![] bcast_S_S8192x768 main_cst
  let main_v2 : IVec S8192x768 1 := cmpf .olt main_v0 main_v1
  let main_c : IVec S_ 1 := constantI S_ 1 1#1
  let main_v3 : IVec S_ 1 := (fun x v => Host.reduce IntOp.andi x v reducesTo_S8192x768_S_d0_1 h_S_) main_v2 main_c
  let main_v4 : FVec F S8192x768 .f32 := Host.absf main_arg1
  let main_cst_0 : FVec F S_ .f32 := constant S_ .f32 0x7F800000#32
  let main_v5 : FVec F S8192x768 .f32 := broadcastInDim S8192x768 ![] bcast_S_S8192x768 main_cst_0
  let main_v6 : IVec S8192x768 1 := cmpf .olt main_v4 main_v5
  let main_c_1 : IVec S_ 1 := constantI S_ 1 1#1
  let main_v7 : IVec S_ 1 := (fun x v => Host.reduce IntOp.andi x v reducesTo_S8192x768_S_d0_1 h_S_) main_v6 main_c_1
  let main_v8 : IVec S_ 1 := andi main_v3 main_v7
  main_v8
-- ==== Kernel.lean ====
abbrev S8192x768 : Shape := ⟨2, ![8192, 768]⟩
abbrev S_ : Shape := ⟨0, ![]⟩
abbrev S8192 : Shape := ⟨1, ![8192]⟩
abbrev S8192x1 : Shape := ⟨2, ![8192, 1]⟩
abbrev S2048x768 : Shape := ⟨2, ![2048, 768]⟩
abbrev S1024x768 : Shape := ⟨2, ![1024, 768]⟩
abbrev S2048x1 : Shape := ⟨2, ![2048, 1]⟩
abbrev S2048x1024 : Shape := ⟨2, ![2048, 1024]⟩
abbrev S2048 : Shape := ⟨1, ![2048]⟩

abbrev nBuf : Space → Nat
  | .hbm => 80
  | .vmem => 14
  | .smem => 0
  | _ => 0

abbrev bufTy : (tb : Table) → Fin (tcTables nBuf tb) → BufTy
  | .hbm, ⟨0, _⟩ => ⟨S8192x768, .f32⟩
  | .hbm, ⟨1, _⟩ => ⟨S8192x768, .f32⟩
  | .hbm, ⟨2, _⟩ => ⟨S8192x768, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x768, .f32⟩
  | .hbm, ⟨12, _⟩ => ⟨S8192x768, .f32⟩
  | .hbm, ⟨13, _⟩ => ⟨S8192x768, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x768, .f32⟩
  | .hbm, ⟨23, _⟩ => ⟨S8192x768, .f32⟩
  | .hbm, ⟨24, _⟩ => ⟨S8192x768, .bf16⟩
  | .hbm, ⟨25, _⟩ => ⟨S8192x768, .bf16⟩
  | .hbm, ⟨26, _⟩ => ⟨S8192x1, .f32⟩
  | .hbm, ⟨27, _⟩ => ⟨S8192, .f32⟩
  | .hbm, ⟨28, _⟩ => ⟨S8192x1, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S8192, .f32⟩
  | .hbm, ⟨41, _⟩ => ⟨S_, .f32⟩
  | .hbm, ⟨42, _⟩ => ⟨S8192, .f32⟩
  | .hbm, ⟨43, _⟩ => ⟨S8192, .f32⟩
  | .hbm, ⟨44, _⟩ => ⟨S_, .f32⟩
  | .hbm, ⟨45, _⟩ => ⟨S8192, .f32⟩
  | .hbm, ⟨46, _⟩ => ⟨S8192, .f32⟩
  | .hbm, ⟨47, _⟩ => ⟨S_, .f32⟩
  | .hbm, ⟨48, _⟩ => ⟨S8192, .f32⟩
  | .hbm, ⟨49, _⟩ => ⟨S8192, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S8192, .f32⟩
  | .hbm, ⟨58, _⟩ => ⟨S_, .f32⟩
  | .hbm, ⟨59, _⟩ => ⟨S8192, .f32⟩
  | .hbm, ⟨60, _⟩ => ⟨S8192, .f32⟩
  | .hbm, ⟨61, _⟩ => ⟨S_, .f32⟩
  | .hbm, ⟨62, _⟩ => ⟨S8192, .f32⟩
  | .hbm, ⟨63, _⟩ => ⟨S8192, .f32⟩
  | .hbm, ⟨64, _⟩ => ⟨S8192, .f32⟩
  | .hbm, ⟨65, _⟩ => ⟨S_, .f32⟩
  | .hbm, ⟨66, _⟩ => ⟨S8192, .f32⟩
  | .hbm, ⟨67, _⟩ => ⟨S8192, .f32⟩
  | .hbm, ⟨68, _⟩ => ⟨S8192, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S8192, .f32⟩
  | .hbm, ⟨73, _⟩ => ⟨S_, .f32⟩
  | .hbm, ⟨74, _⟩ => ⟨S8192, .f32⟩
  | .hbm, ⟨75, _⟩ => ⟨S8192, .f32⟩
  | .hbm, ⟨76, _⟩ => ⟨S8192, .f32⟩
  | .hbm, ⟨77, _⟩ => ⟨S_, .f32⟩
  | .hbm, ⟨78, _⟩ => ⟨S_, .f32⟩
  | .hbm, ⟨79, _⟩ => ⟨S_, .f32⟩
  | .local _ .vmem, ⟨0, _⟩ => ⟨S2048x768, .bf16⟩
  | .local _ .vmem, ⟨1, _⟩ => ⟨S2048x768, .bf16⟩
  | .local _ .vmem, ⟨2, _⟩ => ⟨S1024x768, .bf16⟩
  | .local _ .vmem, ⟨3, _⟩ => ⟨S1024x768, .bf16⟩
  | .local _ .vmem, ⟨4, _⟩ => ⟨S2048x1, .f32⟩
  | .local _ .vmem, ⟨5, _⟩ => ⟨S2048x1, .f32⟩
  | .local _ .vmem, ⟨6, _⟩ => ⟨S2048x1, .f32⟩
  | .local _ .vmem, ⟨7, _⟩ => ⟨S2048x768, .bf16⟩
  | .local _ .vmem, ⟨8, _⟩ => ⟨S2048x768, .bf16⟩
  | .local _ .vmem, ⟨9, _⟩ => ⟨S1024x768, .bf16⟩
  | .local _ .vmem, ⟨10, _⟩ => ⟨S1024x768, .bf16⟩
  | .local _ .vmem, ⟨11, _⟩ => ⟨S2048x1, .f32⟩
  | .local _ .vmem, ⟨12, _⟩ => ⟨S2048x1, .f32⟩
  | .local _ .vmem, ⟨13, _⟩ => ⟨S2048x1, .f32⟩
  | _, _ => ⟨S8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_call1_v0 : Ref sig .tc := ⟨.hbm, 8, rfl⟩
abbrev main_call1_v1 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call2_v0 : Ref sig .tc := ⟨.hbm, 13, rfl⟩
abbrev main_call2_cst : Ref sig .tc := ⟨.hbm, 14, rfl⟩
abbrev main_call2_v1 : Ref sig .tc := ⟨.hbm, 15, rfl⟩
abbrev main_call2_v2 : Ref sig .tc := ⟨.hbm, 16, rfl⟩
abbrev main_v4 : Ref sig .tc := ⟨.hbm, 17, rfl⟩
abbrev main_cst_0 : Ref sig .tc := ⟨.hbm, 18, rfl⟩
abbrev main_call3_v0 : Ref sig .tc := ⟨.hbm, 19, rfl⟩
abbrev main_call3_v1 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_v15 : Ref sig .tc := ⟨.hbm, 32, rfl⟩
abbrev main_cst_2 : Ref sig .tc := ⟨.hbm, 33, rfl⟩
abbrev main_v16 : Ref sig .tc := ⟨.hbm, 34, rfl⟩
abbrev main_cst_3 : Ref sig .tc := ⟨.hbm, 35, rfl⟩
abbrev main_v17 : Ref sig .tc := ⟨.hbm, 36, rfl⟩
abbrev main_cst_4 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_5 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_6 : Ref sig .tc := ⟨.hbm, 47, rfl⟩
abbrev main_v26 : Ref sig .tc := ⟨.hbm, 48, rfl⟩
abbrev main_v27 : Ref sig .tc := ⟨.hbm, 49, rfl⟩
abbrev main_cst_7 : Ref sig .tc := ⟨.hbm, 50, rfl⟩
abbrev main_v28 : Ref sig .tc := ⟨.hbm, 51, rfl⟩
abbrev main_cst_8 : Ref sig .tc := ⟨.hbm, 52, rfl⟩
abbrev main_v29 : Ref sig .tc := ⟨.hbm, 53, rfl⟩
abbrev main_cst_9 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_10 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_11 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_12 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_13 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_cst_14 : Ref sig .tc := ⟨.hbm, 77, rfl⟩
abbrev main_v48 : Ref sig .tc := ⟨.hbm, 78, rfl⟩
abbrev main_v49 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v15 : BitVec 1 := Scalar.cmpi .eq arg1 c7_i32
  let v16 : BitVec 32 := Scalar.extui v15
  let c0_i32_9 : BitVec 32 := 0#32
  let v17 : BitVec 1 := Scalar.cmpi .ne v16 c0_i32_9
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![4, 8], ![false, false]⟩

def k1_cond2 (i : grid1.Coords) : BitVec 1 :=
  let arg1 : BitVec 32 := BitVec.ofNat 32 (i 1).val
  let c7_i32 : BitVec 32 := 7#32
  let v15 : BitVec 1 := Scalar.cmpi .eq arg1 c7_i32
  let v16 : BitVec 32 := Scalar.extui v15
  let c0_i32_9 : BitVec 32 := 0#32
  let v17 : BitVec 1 := Scalar.cmpi .ne v16 c0_i32_9
  v17

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x768 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x768 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  reducesTo_S8192x768_S8192_d1 : S8192x768.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x768_0_1 : S8192x1.BroadcastsInDim S8192x768 (![0, 1] : Fin 2 → Fin S8192x768.rank)
  bitsLt_bf16_f32 : FTy.bits .bf16 < FTy.bits .f32
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x768_S2048x768_0_0 : ∀ a, (![0, 0] : Fin 2 → Nat) a + S2048x768.size a ≤ S2048x768.size a
  h_S2048x768 : 0 < S2048x768.numel
  shapeCasts_S2048x768_S2048x768 : S2048x768.ShapeCasts S2048x768
  inb_S1024x768_S1024x768_0_0 : ∀ a, (![0, 0] : Fin 2 → Nat) a + S1024x768.size a ≤ S1024x768.size a
  h_S1024x768 : 0 < S1024x768.numel
  shapeCasts_S1024x768_S1024x768 : S1024x768.ShapeCasts S1024x768
  reduces_S2048x1024_S2048 : S2048x1024.Reduces [1] S2048
  shapeCasts_S2048_S2048x1 : S2048.ShapeCasts S2048x1
  shapeCasts_S8192x1_S8192 : S8192x1.ShapeCasts S8192
  bcast_S_S8192 : S_.BroadcastsInDim S8192 (![] : Fin 0 → Fin S8192.rank)
  reducesTo_S8192_S_d0 : S8192.ReducesTo [0] S_
  dot_S2048x768_S1024x768_S2048x1024_1_1_0_0_n_n_wf : DotDims.WF S2048x768 S1024x768 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x768.size a ≤ S8192x768.size a
  hwx0_0 : ∀ i : grid0.Coords, EltTy.bits .bf16 = 32 ∨ (Rect.block (s := S8192x768) S2048x768.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x768.size a ≤ S8192x768.size a
  hwx0_1 : ∀ i : grid0.Coords, EltTy.bits .bf16 = 32 ∨ (Rect.block (s := S8192x768) S1024x768.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S8192x1.size a
  hwx0_2 : ∀ i : grid0.Coords, EltTy.bits .f32 = 32 ∨ (Rect.block (s := S8192x1) S2048x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x768.size a ≤ S8192x768.size a
  hwx1_0 : ∀ i : grid1.Coords, EltTy.bits .bf16 = 32 ∨ (Rect.block (s := S8192x768) S2048x768.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x768.size a ≤ S8192x768.size a
  hwx1_1 : ∀ i : grid1.Coords, EltTy.bits .bf16 = 32 ∨ (Rect.block (s := S8192x768) S1024x768.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x1.size a ≤ S8192x1.size a
  hwx1_2 : ∀ i : grid1.Coords, EltTy.bits .f32 = 32 ∨ (Rect.block (s := S8192x1) S2048x1.size (cc1_transform_2 i) (hinb1_2 i)).WholeWords (EltTy.packing .f32)

variable [Facts₀]

def dot_S2048x768_S1024x768_S2048x1024_1_1_0_0_n_n : DotDims S2048x768 S1024x768 S2048x1024 where
  lhsContracting := [1]
  rhsContracting := [1]
  lhsNonContracting := [0]
  rhsNonContracting := [0]
  lhsBatch := []
  rhsBatch := []
  wf := dot_S2048x768_S1024x768_S2048x1024_1_1_0_0_n_n_wf

abbrev win0_0 : Pipeline.Window sig grid0 :=
  Pipeline.Window.ofSpec (Memref.whole main_v8) S2048x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S1024x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S2048x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v9) S2048x768.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S1024x768.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S2048x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S8192x768 : Shape := ⟨2, ![8192, 768]⟩
abbrev S_ : Shape := ⟨0, ![]⟩
abbrev S8192 : Shape := ⟨1, ![8192]⟩
abbrev S8192x1 : Shape := ⟨2, ![8192, 1]⟩
abbrev S8192x8192 : Shape := ⟨2, ![8192, 8192]⟩

abbrev nBuf : Space → Nat
  | .hbm => 79
  | .vmem => 0
  | .smem => 0
  | _ => 0

abbrev bufTy : (tb : Table) → Fin (tcTables nBuf tb) → BufTy
  | .hbm, ⟨0, _⟩ => ⟨S8192x768, .f32⟩
  | .hbm, ⟨1, _⟩ => ⟨S8192x768, .f32⟩
  | .hbm, ⟨2, _⟩ => ⟨S8192x768, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x768, .f32⟩
  | .hbm, ⟨12, _⟩ => ⟨S8192x768, .f32⟩
  | .hbm, ⟨13, _⟩ => ⟨S8192x768, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x768, .f32⟩
  | .hbm, ⟨23, _⟩ => ⟨S8192x768, .f32⟩
  | .hbm, ⟨24, _⟩ => ⟨S8192x8192, .f32⟩
  | .hbm, ⟨25, _⟩ => ⟨S_, .f32⟩
  | .hbm, ⟨26, _⟩ => ⟨S8192, .f32⟩
  | .hbm, ⟨27, _⟩ => ⟨S_, .f32⟩
  | .hbm, ⟨28, _⟩ => ⟨S8192, .f32⟩
  | .hbm, ⟨29, _⟩ => ⟨S_, .f32⟩
  | .hbm, ⟨30, _⟩ => ⟨S8192, .f32⟩
  | .hbm, ⟨31, _⟩ => ⟨S8192, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S8192, .f32⟩
  | .hbm, ⟨40, _⟩ => ⟨S_, .f32⟩
  | .hbm, ⟨41, _⟩ => ⟨S8192, .f32⟩
  | .hbm, ⟨42, _⟩ => ⟨S8192, .f32⟩
  | .hbm, ⟨43, _⟩ => ⟨S_, .f32⟩
  | .hbm, ⟨44, _⟩ => ⟨S8192, .f32⟩
  | .hbm, ⟨45, _⟩ => ⟨S8192, .f32⟩
  | .hbm, ⟨46, _⟩ => ⟨S_, .f32⟩
  | .hbm, ⟨47, _⟩ => ⟨S8192, .f32⟩
  | .hbm, ⟨48, _⟩ => ⟨S8192, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S8192, .f32⟩
  | .hbm, ⟨57, _⟩ => ⟨S_, .f32⟩
  | .hbm, ⟨58, _⟩ => ⟨S8192, .f32⟩
  | .hbm, ⟨59, _⟩ => ⟨S8192, .f32⟩
  | .hbm, ⟨60, _⟩ => ⟨S_, .f32⟩
  | .hbm, ⟨61, _⟩ => ⟨S8192, .f32⟩
  | .hbm, ⟨62, _⟩ => ⟨S8192, .f32⟩
  | .hbm, ⟨63, _⟩ => ⟨S8192, .f32⟩
  | .hbm, ⟨64, _⟩ => ⟨S_, .f32⟩
  | .hbm, ⟨65, _⟩ => ⟨S8192, .f32⟩
  | .hbm, ⟨66, _⟩ => ⟨S8192, .f32⟩
  | .hbm, ⟨67, _⟩ => ⟨S8192, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S8192, .f32⟩
  | .hbm, ⟨72, _⟩ => ⟨S_, .f32⟩
  | .hbm, ⟨73, _⟩ => ⟨S8192, .f32⟩
  | .hbm, ⟨74, _⟩ => ⟨S8192, .f32⟩
  | .hbm, ⟨75, _⟩ => ⟨S8192, .f32⟩
  | .hbm, ⟨76, _⟩ => ⟨S_, .f32⟩
  | .hbm, ⟨77, _⟩ => ⟨S_, .f32⟩
  | .hbm, ⟨78, _⟩ => ⟨S_, .f32⟩
  | _, _ => ⟨S8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_call1_v0 : Ref sig .tc := ⟨.hbm, 8, rfl⟩
abbrev main_call1_v1 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call2_v0 : Ref sig .tc := ⟨.hbm, 13, rfl⟩
abbrev main_call2_cst : Ref sig .tc := ⟨.hbm, 14, rfl⟩
abbrev main_call2_v1 : Ref sig .tc := ⟨.hbm, 15, rfl⟩
abbrev main_call2_v2 : Ref sig .tc := ⟨.hbm, 16, rfl⟩
abbrev main_v4 : Ref sig .tc := ⟨.hbm, 17, rfl⟩
abbrev main_cst_0 : Ref sig .tc := ⟨.hbm, 18, rfl⟩
abbrev main_call3_v0 : Ref sig .tc := ⟨.hbm, 19, rfl⟩
abbrev main_call3_v1 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst_1 : Ref sig .tc := ⟨.hbm, 25, rfl⟩
abbrev main_v9 : Ref sig .tc := ⟨.hbm, 26, rfl⟩
abbrev main_cst_2 : Ref sig .tc := ⟨.hbm, 27, rfl⟩
abbrev main_v10 : Ref sig .tc := ⟨.hbm, 28, rfl⟩
abbrev main_cst_3 : Ref sig .tc := ⟨.hbm, 29, rfl⟩
abbrev main_v11 : Ref sig .tc := ⟨.hbm, 30, rfl⟩
abbrev main_v12 : Ref sig .tc := ⟨.hbm, 31, rfl⟩
abbrev main_cst_4 : Ref sig .tc := ⟨.hbm, 32, rfl⟩
abbrev main_v13 : Ref sig .tc := ⟨.hbm, 33, rfl⟩
abbrev main_cst_5 : Ref sig .tc := ⟨.hbm, 34, rfl⟩
abbrev main_v14 : Ref sig .tc := ⟨.hbm, 35, rfl⟩
abbrev main_cst_6 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_cst_7 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst_8 : Ref sig .tc := ⟨.hbm, 46, rfl⟩
abbrev main_v23 : Ref sig .tc := ⟨.hbm, 47, rfl⟩
abbrev main_v24 : Ref sig .tc := ⟨.hbm, 48, rfl⟩
abbrev main_cst_9 : Ref sig .tc := ⟨.hbm, 49, rfl⟩
abbrev main_v25 : Ref sig .tc := ⟨.hbm, 50, rfl⟩
abbrev main_cst_10 : Ref sig .tc := ⟨.hbm, 51, rfl⟩
abbrev main_v26 : Ref sig .tc := ⟨.hbm, 52, rfl⟩
abbrev main_cst_11 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_cst_12 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_cst_13 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_cst_14 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_cst_15 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_cst_16 : Ref sig .tc := ⟨.hbm, 76, rfl⟩
abbrev main_v45 : Ref sig .tc := ⟨.hbm, 77, rfl⟩
abbrev main_v46 : Ref sig .tc := ⟨.hbm, 78, rfl⟩

abbrev nD : Nat := 1
abbrev τ : Topo := Topo.v7x

variable {F : FTy → Type} [FloatOps F]

class Facts₀ : Prop where
  reducesTo_S8192x768_S8192_d1 : S8192x768.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x768_0_1 : S8192x1.BroadcastsInDim S8192x768 (![0, 1] : Fin 2 → Fin S8192x768.rank)
  reducesTo_S8192x8192_S8192_d1 : S8192x8192.ReducesTo [1] S8192
  reducesTo_S8192x8192_S8192_d0 : S8192x8192.ReducesTo [0] S8192
  bcast_S_S8192 : S_.BroadcastsInDim S8192 (![] : Fin 0 → Fin S8192.rank)
  reducesTo_S8192_S_d0 : S8192.ReducesTo [0] S_
  dot_S8192x768_S8192x768_S8192x8192_1_1_0_0_n_n_wf : DotDims.WF S8192x768 S8192x768 S8192x8192 [1] [1] [0] [0] [] []

variable [Facts₀]

def dot_S8192x768_S8192x768_S8192x8192_1_1_0_0_n_n : DotDims S8192x768 S8192x768 S8192x8192 where
  lhsContracting := [1]
  rhsContracting := [1]
  lhsNonContracting := [0]
  rhsNonContracting := [0]
  lhsBatch := []
  rhsBatch := []
  wf := dot_S8192x768_S8192x768_S8192x8192_1_1_0_0_n_n_wf

class Facts : Prop extends Facts₀ where

variable [Facts]
-- ==== Proof.BitsR0Base.lean ====
/-
  One region of the program (one launch of the row-maximum kernel): what the three cases of its body share.

  The grid is 4 × 8, point t = 8·i + j. Row block i of the left operand (2048 rows) stays in its buffer while the
  eight column blocks j of the right operand (1024 rows each) stream by. The body keeps a running row maximum in a
  scratch column: reset to −∞ at j = 0, updated at every j, and copied to the output block at j = 7. So a point is in
  one of three cases, decided by t mod 8: first (0), middle (1 … 6), last (7).
-/
import proofs.«171457_j18339510354596_1_alg».proof.Proof.Gen.Kernel.Launch
import proofs.«171457_j18339510354596_1_alg».proof.Proof.Gen.Kernel.Skeleton
import proofs.«171457_j18339510354596_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.RowMax

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the TensorCore's buffer contents when the region is entered
variable (V : (c : Dev nD) → (b : Ref sig .tc) → Buf (Elt F) ((c : Thread nD τ).loc b))

/-- Window `w`'s block at point `t`, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left operand's buffer holds row block i at every point of the row, fetched there or not. -/
theorem before0_lhs_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- The right operand's buffer holds column block j at every point. -/
theorem before0_rhs_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

end

/-! ## The two branch conditions, decided over the grid -/

/-- "j = 0": the accumulator is reset. -/
abbrev isFirst0 (i : grid0.Coords) : Prop := (Scalar.cmpi .ne (Scalar.extui (Scalar.cmpi .eq (BitVec.ofNat 32 (i 1).val) 0#32)) 0#32) = 1#1
theorem isFirst0_iff : ∀ t : Fin cfg0.N, isFirst0 (grid0.coords t) ↔ t.val % 8 = 0 :=
  (by decide +kernel : ∀ t : Fin grid0.N, isFirst0 (grid0.coords t) ↔ t.val % 8 = 0)

/-- "j = 7": the accumulator is copied out. -/
abbrev isLast0 (i : grid0.Coords) : Prop := k0_cond2 i = 1#1
theorem isLast0_iff : ∀ t : Fin cfg0.N, isLast0 (grid0.coords t) ↔ t.val % 8 = 7 :=
  (by decide +kernel : ∀ t : Fin grid0.N, isLast0 (grid0.coords t) ↔ t.val % 8 = 7)

/-! ## Where the windows are idle -/

theorem live0_lhs : ∀ t : Fin cfg0.N, cfg0.idle 0 (grid0.coords t) = false := by decide +kernel
theorem live0_rhs : ∀ t : Fin cfg0.N, cfg0.idle 1 (grid0.coords t) = false := by decide +kernel
/-- Away from j = 7 the output block is neither stored into nor written back. -/
theorem idle0_out : ∀ t : Fin cfg0.N, ¬isLast0 (grid0.coords t) → cfg0.idle 2 (grid0.coords t) = true := by decide +kernel
theorem noFlush0_out : ∀ t : Fin cfg0.N, ¬isLast0 (grid0.coords t) → (cfg0.win 2).flush t = false := by decide +kernel
theorem live0_out : ∀ t : Fin cfg0.N, isLast0 (grid0.coords t) → cfg0.idle 2 (grid0.coords t) = false := by decide +kernel

/-! ## The memrefs the body is called with -/

abbrev lhsM0 (t : Fin cfg0.N) : Memref sig .tc .vmem S2048x768 .bf16 := win0_0.stage (cfg0.slots t 0)
abbrev lhsW0 (t : Fin cfg0.N) : (lhsM0 t).IsWhole := hstage0_0 ((cfg0.slots t 0).cast nbuf0_0)
abbrev rhsM0 (t : Fin cfg0.N) : Memref sig .tc .vmem S1024x768 .bf16 := win0_1.stage (cfg0.slots t 1)
abbrev rhsW0 (t : Fin cfg0.N) : (rhsM0 t).IsWhole := hstage0_1 ((cfg0.slots t 1).cast nbuf0_1)
abbrev outM0 (t : Fin cfg0.N) : Memref sig .tc .vmem S2048x1 .f32 := win0_2.stage (cfg0.slots t 2)
abbrev outW0 (t : Fin cfg0.N) : (outM0 t).IsWhole := hstage0_2 ((cfg0.slots t 2).cast nbuf0_2)
/-- The scratch column that carries the running maximum. -/
abbrev accM0 : Memref sig .tc .vmem S2048x1 .f32 := Memref.whole cc0_scratch0
/-- Views through which a buffer's contents after the body's stores are stated. -/
abbrev accV0 : View sig .tc .vmem S2048x1 .f32 := accM0.view
abbrev outV0 : View sig .tc .vmem S2048x1 .f32 := (Memref.whole cc0_stg2_0 : Memref sig .tc .vmem S2048x1 .f32).view

/-- The scoped buffers of the core that this launch neither stages through nor uses: the other launch's. -/
def idleScoped0 (c : Dev nD) : sProp 𝕄 :=
  iprop((∃ d, owns (c : Thread nD τ) (Memref.whole cc1_stg0_0) fullShare d) ∗ (∃ d, owns (c : Thread nD τ) (Memref.whole cc1_stg0_1) fullShare d)
    ∗ (∃ d, owns (c : Thread nD τ) (Memref.whole cc1_stg1_0) fullShare d) ∗ (∃ d, owns (c : Thread nD τ) (Memref.whole cc1_stg1_1) fullShare d)
    ∗ (∃ d, owns (c : Thread nD τ) (Memref.whole cc1_stg2_0) fullShare d) ∗ (∃ d, owns (c : Thread nD τ) (Memref.whole cc1_stg2_1) fullShare d)
    ∗ (∃ d, owns (c : Thread nD τ) (Memref.whole cc1_scratch0) fullShare d))

end Cert.Kernel.RowMax

end
-- ==== Proof.BitsR0Rest.lean ====
/-
  Region 0's resting invariant (the core's scoped buffers that are no staging buffer of the region, each at some
  contents, and the generator register) taken apart into the scratch column, region 1's buffers and the register,
  and put together again.
-/
import proofs.«171457_j18339510354596_1_alg».proof.Proof.BitsR0Base

set_option maxRecDepth 16384

noncomputable section

namespace Cert.Kernel.RowMax

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem rest0_open (c : Dev nD) :
    (Pipeline.ΦA spec0 c : sProp 𝕄)
      ⊢ iprop(iprop((∃ d, owns (c : Thread nD τ) accM0 fullShare d) ∗ idleScoped0 c) ∗ (∃ r, prngReg c r)) := by
  unfold Pipeline.ΦA idleScoped0; rw [scopedRest0_eq]; simp only [accM0, owns_whole]
  iintro ⟨⟨HS, H1, H2, H3, H4, H5, H6, H7⟩, Hg⟩
  isplitl [HS H1 H2 H3 H4 H5 H6 H7]
  · isplitl [HS]; · iexact HS
    isplitl [H1]; · iexact H1
    isplitl [H2]; · iexact H2
    isplitl [H3]; · iexact H3
    isplitl [H4]; · iexact H4
    isplitl [H5]; · iexact H5
    isplitl [H6]; · iexact H6
    iexact H7
  iexact Hg

theorem rest0_close (c : Dev nD) :
    (iprop(iprop((∃ d, owns (c : Thread nD τ) accM0 fullShare d) ∗ idleScoped0 c) ∗ (∃ r, prngReg c r)) : sProp 𝕄)
      ⊢ Pipeline.ΦA spec0 c := by
  unfold Pipeline.ΦA idleScoped0; rw [scopedRest0_eq]; simp only [accM0, owns_whole]
  iintro ⟨⟨HS, H1, H2, H3, H4, H5, H6, H7⟩, Hg⟩
  isplitl [HS H1 H2 H3 H4 H5 H6 H7]
  · isplitl [HS]; · iexact HS
    isplitl [H1]; · iexact H1
    isplitl [H2]; · iexact H2
    isplitl [H3]; · iexact H3
    isplitl [H4]; · iexact H4
    isplitl [H5]; · iexact H5
    isplitl [H6]; · iexact H6
    iexact H7
  iexact Hg

end Cert.Kernel.RowMax

end
-- ==== Proof.BitsR0First.lean ====
/-
  First point of a row (j = 0): the body resets the scratch column to −∞, then folds the first column
  block in. The output block is not touched. The stores the body leaves in the scratch column are found by running it.
-/
import proofs.«171457_j18339510354596_1_alg».proof.Proof.BitsR0Base

set_option maxRecDepth 16384

noncomputable section

namespace Cert.Kernel.RowMax

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave (last first) in the output buffer (none) and in the scratch column, with the
    body's triple: the operand blocks and the untouched output buffer come back as they were. -/
noncomputable def bodyFirst0 (c : Dev nD) (i : grid0.Coords) (arg2 : Memref sig .tc .vmem S2048x768 .bf16) (harg2 : arg2.IsWhole) (arg3 : Memref sig .tc .vmem S1024x768 .bf16) (harg3 : arg3.IsWhole) (arg4 : Memref sig .tc .vmem S2048x1 .f32) (harg4 : arg4.IsWhole) (arg5 : Memref sig .tc .vmem S2048x1 .f32) (harg5 : arg5.IsWhole) (hf : isFirst0 i) (hl : ¬isLast0 i)
    (x0 : Vec F S2048x768 .bf16) (x1 : Vec F S1024x768 .bf16) :
    Σ' (LO : List (View.Piece (Elt F) S2048x1 .f32)), { LS : List (View.Piece (Elt F) S2048x1 .f32) //
      ∀ (xo : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare xo ∗ (∃ d, owns (c : Thread nD τ) arg5 fullShare d)
            ∗ (iprop(owns (c : Thread nD τ) arg2 fullShare x0 ∗ owns (c : Thread nD τ) arg3 fullShare x1 ∗ owns (c : Thread nD τ) arg4 fullShare xo ∗ (∃ f, arg5.view.loc (c : Thread nD τ) ↦[arg5.view.set]{fullShare} arg5.view.writes (Elt F) f LS)) -∗ K ⟨⟩))
          ⊢ wp frame (wpE (defs₀ (F := F)) Variants.none c none) E (cc0__rowmax_kernel i arg2 harg2 arg3 harg3 arg4 harg4 arg5 harg5) K } := by
  refine ⟨[], ?_, fun xo E K => ?run⟩
  case run =>
    simp only [cc0__rowmax_kernel_eq_skeleton]; unfold cc0__rowmax_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.Kernel.RowMax

end
-- ==== Proof.BitsR0Mid.lean ====
/-
  A middle point of a row (0 < j < 7): the body folds column block j into the scratch column, which holds
  what the point before left. The output block is not touched.
-/
import proofs.«171457_j18339510354596_1_alg».proof.Proof.BitsR0Base

set_option maxRecDepth 16384

noncomputable section

namespace Cert.Kernel.RowMax

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def bodyMid0 (c : Dev nD) (i : grid0.Coords) (arg2 : Memref sig .tc .vmem S2048x768 .bf16) (harg2 : arg2.IsWhole) (arg3 : Memref sig .tc .vmem S1024x768 .bf16) (harg3 : arg3.IsWhole) (arg4 : Memref sig .tc .vmem S2048x1 .f32) (harg4 : arg4.IsWhole) (arg5 : Memref sig .tc .vmem S2048x1 .f32) (harg5 : arg5.IsWhole) (hf : ¬isFirst0 i) (hl : ¬isLast0 i)
    (x0 : Vec F S2048x768 .bf16) (x1 : Vec F S1024x768 .bf16) (xs : Vec F S2048x1 .f32) :
    Σ' (LO : List (View.Piece (Elt F) S2048x1 .f32)), { LS : List (View.Piece (Elt F) S2048x1 .f32) //
      ∀ (xo : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare xo ∗ owns (c : Thread nD τ) arg5 fullShare xs
            ∗ (iprop(owns (c : Thread nD τ) arg2 fullShare x0 ∗ owns (c : Thread nD τ) arg3 fullShare x1 ∗ owns (c : Thread nD τ) arg4 fullShare xo ∗ (∃ f, arg5.view.loc (c : Thread nD τ) ↦[arg5.view.set]{fullShare} arg5.view.writes (Elt F) f LS)) -∗ K ⟨⟩))
          ⊢ wp frame (wpE (defs₀ (F := F)) Variants.none c none) E (cc0__rowmax_kernel i arg2 harg2 arg3 harg3 arg4 harg4 arg5 harg5) K } := by
  refine ⟨[], ?_, fun xo E K => ?run⟩
  case run =>
    simp only [cc0__rowmax_kernel_eq_skeleton]; unfold cc0__rowmax_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.Kernel.RowMax

end
-- ==== Proof.BitsR0Last.lean ====
/-
  Last point of a row (j = 7): the body folds the last column block into the scratch column and copies the
  column to the output block.
-/
import proofs.«171457_j18339510354596_1_alg».proof.Proof.BitsR0Base

set_option maxRecDepth 16384

noncomputable section

namespace Cert.Kernel.RowMax

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def bodyLast0 (c : Dev nD) (i : grid0.Coords) (arg2 : Memref sig .tc .vmem S2048x768 .bf16) (harg2 : arg2.IsWhole) (arg3 : Memref sig .tc .vmem S1024x768 .bf16) (harg3 : arg3.IsWhole) (arg4 : Memref sig .tc .vmem S2048x1 .f32) (harg4 : arg4.IsWhole) (arg5 : Memref sig .tc .vmem S2048x1 .f32) (harg5 : arg5.IsWhole) (hf : ¬isFirst0 i) (hl : isLast0 i)
    (x0 : Vec F S2048x768 .bf16) (x1 : Vec F S1024x768 .bf16) (xs : Vec F S2048x1 .f32) :
    Σ' (LO : List (View.Piece (Elt F) S2048x1 .f32)), { LS : List (View.Piece (Elt F) S2048x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f LO) ∗ (∃ f, arg5.view.loc (c : Thread nD τ) ↦[arg5.view.set]{fullShare} arg5.view.writes (Elt F) f LS)) -∗ K ⟨⟩))
          ⊢ wp frame (wpE (defs₀ (F := F)) Variants.none c none) E (cc0__rowmax_kernel i arg2 harg2 arg3 harg3 arg4 harg4 arg5 harg5) K } := by
  refine ⟨?_, ?_, fun E K => ?run⟩
  case run =>
    simp only [cc0__rowmax_kernel_eq_skeleton]; unfold cc0__rowmax_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.Kernel.RowMax

end
-- ==== Proof.BitsR0Frame.lean ====
/-
  One region of the program (one launch of the row-maximum kernel): what the scratch column and the output block hold after each point, the proof data of the pipeline, and
  the body obligation.

  After point t = 8·i + j the scratch column holds the running row maximum over column blocks 0 … j of row block i
  (by recursion on the point: the first point of a row starts from the reset, every other point from what
  the point before left). The region's invariant carries the column at exactly that value; the output block is stored
  only at j = 7, where it receives the column.
-/
import proofs.«171457_j18339510354596_1_alg».proof.Proof.BitsR0Rest
import proofs.«171457_j18339510354596_1_alg».proof.Proof.BitsR0First
import proofs.«171457_j18339510354596_1_alg».proof.Proof.BitsR0Mid
import proofs.«171457_j18339510354596_1_alg».proof.Proof.BitsR0Last

set_option maxRecDepth 16384

noncomputable section

namespace Cert.Kernel.RowMax

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

theorem accCover_first0 (c : Dev nD) (i : grid0.Coords) (arg2 : Memref sig .tc .vmem S2048x768 .bf16) (harg2 : arg2.IsWhole) (arg3 : Memref sig .tc .vmem S1024x768 .bf16) (harg3 : arg3.IsWhole) (arg4 : Memref sig .tc .vmem S2048x1 .f32) (harg4 : arg4.IsWhole) (arg5 : Memref sig .tc .vmem S2048x1 .f32) (harg5 : arg5.IsWhole) (hf : isFirst0 i) (hl : ¬isLast0 i)
    (x0 : Vec F S2048x768 .bf16) (x1 : Vec F S1024x768 .bf16) (y : S2048x1.Idx) :
    ∃ pc ∈ (bodyFirst0 c i arg2 harg2 arg3 harg3 arg4 harg4 arg5 harg5 hf hl x0 x1).2.1, y ∈ pc.1.set :=
  View.cover_of_tiledL (bodyFirst0 c i arg2 harg2 arg3 harg3 arg4 harg4 arg5 harg5 hf hl x0 x1).2.1 S2048x1.size (by sl_kernel_rfl) y

/-- The scratch column after a first point: the stores read back. -/
def accFirst0 (c : Dev nD) (i : grid0.Coords) (arg2 : Memref sig .tc .vmem S2048x768 .bf16) (harg2 : arg2.IsWhole) (arg3 : Memref sig .tc .vmem S1024x768 .bf16) (harg3 : arg3.IsWhole) (arg4 : Memref sig .tc .vmem S2048x1 .f32) (harg4 : arg4.IsWhole) (arg5 : Memref sig .tc .vmem S2048x1 .f32) (harg5 : arg5.IsWhole) (hf : isFirst0 i) (hl : ¬isLast0 i)
    (x0 : Vec F S2048x768 .bf16) (x1 : Vec F S1024x768 .bf16) : Vec F S2048x1 .f32 :=
  accV0.read (Elt F) (accV0.writes (Elt F) accV0.junk (bodyFirst0 c i arg2 harg2 arg3 harg3 arg4 harg4 arg5 harg5 hf hl x0 x1).2.1)

theorem accCover_mid0 (c : Dev nD) (i : grid0.Coords) (arg2 : Memref sig .tc .vmem S2048x768 .bf16) (harg2 : arg2.IsWhole) (arg3 : Memref sig .tc .vmem S1024x768 .bf16) (harg3 : arg3.IsWhole) (arg4 : Memref sig .tc .vmem S2048x1 .f32) (harg4 : arg4.IsWhole) (arg5 : Memref sig .tc .vmem S2048x1 .f32) (harg5 : arg5.IsWhole) (hf : ¬isFirst0 i) (hl : ¬isLast0 i)
    (x0 : Vec F S2048x768 .bf16) (x1 : Vec F S1024x768 .bf16) (xs : Vec F S2048x1 .f32) (y : S2048x1.Idx) :
    ∃ pc ∈ (bodyMid0 c i arg2 harg2 arg3 harg3 arg4 harg4 arg5 harg5 hf hl x0 x1 xs).2.1, y ∈ pc.1.set :=
  View.cover_of_tiledL (bodyMid0 c i arg2 harg2 arg3 harg3 arg4 harg4 arg5 harg5 hf hl x0 x1 xs).2.1 S2048x1.size (by sl_kernel_rfl) y

/-- The scratch column after a middle point, from what the point before left in it. -/
def accMid0 (c : Dev nD) (i : grid0.Coords) (arg2 : Memref sig .tc .vmem S2048x768 .bf16) (harg2 : arg2.IsWhole) (arg3 : Memref sig .tc .vmem S1024x768 .bf16) (harg3 : arg3.IsWhole) (arg4 : Memref sig .tc .vmem S2048x1 .f32) (harg4 : arg4.IsWhole) (arg5 : Memref sig .tc .vmem S2048x1 .f32) (harg5 : arg5.IsWhole) (hf : ¬isFirst0 i) (hl : ¬isLast0 i)
    (x0 : Vec F S2048x768 .bf16) (x1 : Vec F S1024x768 .bf16) (xs : Vec F S2048x1 .f32) : Vec F S2048x1 .f32 :=
  accV0.read (Elt F) (accV0.writes (Elt F) accV0.junk (bodyMid0 c i arg2 harg2 arg3 harg3 arg4 harg4 arg5 harg5 hf hl x0 x1 xs).2.1)

theorem accCover_last0 (c : Dev nD) (i : grid0.Coords) (arg2 : Memref sig .tc .vmem S2048x768 .bf16) (harg2 : arg2.IsWhole) (arg3 : Memref sig .tc .vmem S1024x768 .bf16) (harg3 : arg3.IsWhole) (arg4 : Memref sig .tc .vmem S2048x1 .f32) (harg4 : arg4.IsWhole) (arg5 : Memref sig .tc .vmem S2048x1 .f32) (harg5 : arg5.IsWhole) (hf : ¬isFirst0 i) (hl : isLast0 i)
    (x0 : Vec F S2048x768 .bf16) (x1 : Vec F S1024x768 .bf16) (xs : Vec F S2048x1 .f32) (y : S2048x1.Idx) :
    ∃ pc ∈ (bodyLast0 c i arg2 harg2 arg3 harg3 arg4 harg4 arg5 harg5 hf hl x0 x1 xs).2.1, y ∈ pc.1.set :=
  View.cover_of_tiledL (bodyLast0 c i arg2 harg2 arg3 harg3 arg4 harg4 arg5 harg5 hf hl x0 x1 xs).2.1 S2048x1.size (by sl_kernel_rfl) y

/-- The scratch column after a last point. -/
def accLast0 (c : Dev nD) (i : grid0.Coords) (arg2 : Memref sig .tc .vmem S2048x768 .bf16) (harg2 : arg2.IsWhole) (arg3 : Memref sig .tc .vmem S1024x768 .bf16) (harg3 : arg3.IsWhole) (arg4 : Memref sig .tc .vmem S2048x1 .f32) (harg4 : arg4.IsWhole) (arg5 : Memref sig .tc .vmem S2048x1 .f32) (harg5 : arg5.IsWhole) (hf : ¬isFirst0 i) (hl : isLast0 i)
    (x0 : Vec F S2048x768 .bf16) (x1 : Vec F S1024x768 .bf16) (xs : Vec F S2048x1 .f32) : Vec F S2048x1 .f32 :=
  accV0.read (Elt F) (accV0.writes (Elt F) accV0.junk (bodyLast0 c i arg2 harg2 arg3 harg3 arg4 harg4 arg5 harg5 hf hl x0 x1 xs).2.1)

theorem outCover_last0 (c : Dev nD) (i : grid0.Coords) (arg2 : Memref sig .tc .vmem S2048x768 .bf16) (harg2 : arg2.IsWhole) (arg3 : Memref sig .tc .vmem S1024x768 .bf16) (harg3 : arg3.IsWhole) (arg4 : Memref sig .tc .vmem S2048x1 .f32) (harg4 : arg4.IsWhole) (arg5 : Memref sig .tc .vmem S2048x1 .f32) (harg5 : arg5.IsWhole) (hf : ¬isFirst0 i) (hl : isLast0 i)
    (x0 : Vec F S2048x768 .bf16) (x1 : Vec F S1024x768 .bf16) (xs : Vec F S2048x1 .f32) (y : S2048x1.Idx) :
    ∃ pc ∈ (bodyLast0 c i arg2 harg2 arg3 harg3 arg4 harg4 arg5 harg5 hf hl x0 x1 xs).1, y ∈ pc.1.set :=
  View.cover_of_tiledL (bodyLast0 c i arg2 harg2 arg3 harg3 arg4 harg4 arg5 harg5 hf hl x0 x1 xs).1 S2048x1.size (by sl_kernel_rfl) y

/-- The output block after a last point. -/
def outLast0 (c : Dev nD) (i : grid0.Coords) (arg2 : Memref sig .tc .vmem S2048x768 .bf16) (harg2 : arg2.IsWhole) (arg3 : Memref sig .tc .vmem S1024x768 .bf16) (harg3 : arg3.IsWhole) (arg4 : Memref sig .tc .vmem S2048x1 .f32) (harg4 : arg4.IsWhole) (arg5 : Memref sig .tc .vmem S2048x1 .f32) (harg5 : arg5.IsWhole) (hf : ¬isFirst0 i) (hl : isLast0 i)
    (x0 : Vec F S2048x768 .bf16) (x1 : Vec F S1024x768 .bf16) (xs : Vec F S2048x1 .f32) : Vec F S2048x1 .f32 :=
  outV0.read (Elt F) (outV0.writes (Elt F) outV0.junk (bodyLast0 c i arg2 harg2 arg3 harg3 arg4 harg4 arg5 harg5 hf hl x0 x1 xs).1)

/-! ## The same at a grid point, on the point's memrefs and operand blocks -/

theorem first_of_mod0 {t : Fin cfg0.N} (h0 : t.val % 8 = 0) : isFirst0 (grid0.coords t) := (isFirst0_iff t).mpr h0
theorem notFirst_of_mod0 {t : Fin cfg0.N} (h0 : ¬t.val % 8 = 0) : ¬isFirst0 (grid0.coords t) := fun h => h0 ((isFirst0_iff t).mp h)
theorem last_of_mod0 {t : Fin cfg0.N} (h7 : t.val % 8 = 7) : isLast0 (grid0.coords t) := (isLast0_iff t).mpr h7
theorem notLast_of_mod0 {t : Fin cfg0.N} (h7 : ¬t.val % 8 = 7) : ¬isLast0 (grid0.coords t) := fun h => h7 ((isLast0_iff t).mp h)
theorem notLast_of_first0 {t : Fin cfg0.N} (h0 : t.val % 8 = 0) : ¬isLast0 (grid0.coords t) := fun h => by have := (isLast0_iff t).mp h; omega

def accFirstAt0 (c : Dev nD) (t : Fin cfg0.N) (h0 : t.val % 8 = 0) : Vec F S2048x1 .f32 :=
  accFirst0 c (grid0.coords t) (lhsM0 t) (lhsW0 t) (rhsM0 t) (rhsW0 t) (outM0 t) (outW0 t) accM0 (Memref.isWhole_whole _) (first_of_mod0 h0) (notLast_of_first0 h0) (blk0 V c 0 t) (blk0 V c 1 t)
def accMidAt0 (c : Dev nD) (t : Fin cfg0.N) (h0 : ¬t.val % 8 = 0) (h7 : ¬t.val % 8 = 7) (xs : Vec F S2048x1 .f32) : Vec F S2048x1 .f32 :=
  accMid0 c (grid0.coords t) (lhsM0 t) (lhsW0 t) (rhsM0 t) (rhsW0 t) (outM0 t) (outW0 t) accM0 (Memref.isWhole_whole _) (notFirst_of_mod0 h0) (notLast_of_mod0 h7) (blk0 V c 0 t) (blk0 V c 1 t) xs
def accLastAt0 (c : Dev nD) (t : Fin cfg0.N) (h0 : ¬t.val % 8 = 0) (h7 : t.val % 8 = 7) (xs : Vec F S2048x1 .f32) : Vec F S2048x1 .f32 :=
  accLast0 c (grid0.coords t) (lhsM0 t) (lhsW0 t) (rhsM0 t) (rhsW0 t) (outM0 t) (outW0 t) accM0 (Memref.isWhole_whole _) (notFirst_of_mod0 h0) (last_of_mod0 h7) (blk0 V c 0 t) (blk0 V c 1 t) xs
def outLastAt0 (c : Dev nD) (t : Fin cfg0.N) (h0 : ¬t.val % 8 = 0) (h7 : t.val % 8 = 7) (xs : Vec F S2048x1 .f32) : Vec F S2048x1 .f32 :=
  outLast0 c (grid0.coords t) (lhsM0 t) (lhsW0 t) (rhsM0 t) (rhsW0 t) (outM0 t) (outW0 t) accM0 (Memref.isWhole_whole _) (notFirst_of_mod0 h0) (last_of_mod0 h7) (blk0 V c 0 t) (blk0 V c 1 t) xs

/-! ## The running maximum, point by point -/

/-- What the scratch column holds after the point at position `n`. -/
def accAt0 (c : Dev nD) : (n : ℕ) → n < cfg0.N → Vec F S2048x1 .f32
  | 0, hn => accFirstAt0 V c ⟨0, hn⟩ (Nat.zero_mod _)
  | n + 1, hn =>
    if h0 : (n + 1) % 8 = 0 then accFirstAt0 V c ⟨n + 1, hn⟩ h0
    else if h7 : (n + 1) % 8 = 7 then accLastAt0 V c ⟨n + 1, hn⟩ h0 h7 (accAt0 c n (Nat.lt_of_succ_lt hn))
    else accMidAt0 V c ⟨n + 1, hn⟩ h0 h7 (accAt0 c n (Nat.lt_of_succ_lt hn))

theorem prev_lt0 (t : Fin cfg0.N) : t.val - 1 < cfg0.N := Nat.lt_of_le_of_lt (Nat.sub_le _ _) t.isLt

theorem accAt0_first (c : Dev nD) (t : Fin cfg0.N) (h0 : t.val % 8 = 0) :
    accAt0 V c t.val t.isLt = accFirstAt0 V c t h0 := by
  obtain ⟨n, hn⟩ := t
  cases n with
  | zero => exact rfl
  | succ n => exact (dif_pos h0).trans rfl

theorem accAt0_mid (c : Dev nD) (t : Fin cfg0.N) (h0 : ¬t.val % 8 = 0) (h7 : ¬t.val % 8 = 7) :
    accAt0 V c t.val t.isLt = accMidAt0 V c t h0 h7 (accAt0 V c (t.val - 1) (prev_lt0 t)) := by
  obtain ⟨n, hn⟩ := t
  cases n with
  | zero => exact (by exfalso; (try dsimp only at h0); exact absurd (Nat.zero_mod _) h0)
  | succ n => exact (dif_neg h0).trans ((dif_neg h7).trans rfl)

theorem accAt0_last (c : Dev nD) (t : Fin cfg0.N) (h0 : ¬t.val % 8 = 0) (h7 : t.val % 8 = 7) :
    accAt0 V c t.val t.isLt = accLastAt0 V c t h0 h7 (accAt0 V c (t.val - 1) (prev_lt0 t)) := by
  obtain ⟨n, hn⟩ := t
  cases n with
  | zero => exact (by exfalso; (try dsimp only at h0); exact absurd (Nat.zero_mod _) h0)
  | succ n => exact (dif_neg h0).trans ((dif_pos h7).trans rfl)

/-- What the output block's buffer holds after point `t`: at a last point the copy of the column; elsewhere the
    body does not store into it and the pipeline does not write it back, so the value is never consulted. -/
def outAt0 (c : Dev nD) (t : Fin cfg0.N) : Vec F S2048x1 .f32 :=
  if h7 : t.val % 8 = 7 then outLastAt0 V c t (by omega) h7 (accAt0 V c (t.val - 1) (prev_lt0 t))
  else outV0.read (Elt F) outV0.junk

theorem outAt0_last (c : Dev nD) (t : Fin cfg0.N) (h0 : ¬t.val % 8 = 0) (h7 : t.val % 8 = 7) :
    outAt0 V c t = outLastAt0 V c t h0 h7 (accAt0 V c (t.val - 1) (prev_lt0 t)) := dif_pos h7

/-! ## The region's invariant -/

/-- Before the point at position `n`: before the first point the resting invariant (the scratch column at anything);
    afterwards the column at what the point before left, the other launch's buffers and the generator register untouched. -/
def inv0 (c : Dev nD) : (n : ℕ) → n ≤ cfg0.N → sProp 𝕄
  | 0, _ => Pipeline.ΦA spec0 c
  | n + 1, hn => iprop(iprop(owns (c : Thread nD τ) accM0 fullShare (accAt0 V c n hn) ∗ idleScoped0 c) ∗ (∃ r, prngReg c r))

theorem inv0_zero (c : Dev nD) (n : ℕ) (h : n ≤ cfg0.N) (hz : n = 0) : inv0 V c n h = Pipeline.ΦA spec0 c := by
  subst hz; rfl

theorem inv0_succ (c : Dev nD) (n : ℕ) (hn : n < cfg0.N) :
    inv0 V c (n + 1) hn = iprop(iprop(owns (c : Thread nD τ) accM0 fullShare (accAt0 V c n hn) ∗ idleScoped0 c) ∗ (∃ r, prngReg c r)) := rfl

theorem inv0_pos (c : Dev nD) (n : ℕ) (h : n ≤ cfg0.N) (hz : n ≠ 0) :
    inv0 V c n h = iprop(iprop(owns (c : Thread nD τ) accM0 fullShare (accAt0 V c (n - 1) (by omega)) ∗ idleScoped0 c) ∗ (∃ r, prngReg c r)) := by
  cases n with
  | zero => exact absurd rfl hz
  | succ n => rfl

/-! ## The pipeline's proof data -/

def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => outAt0 V c t
  Φ t := inv0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem inv0_castSucc (c : Dev nD) (t : Fin cfg0.N) :
    (dat0 V c).Φ t.castSucc = inv0 V c t.val (Nat.le_of_lt t.isLt) := by
  dsimp only [dat0]; simp only [Fin.coe_castSucc]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = outAt0 V c t := by dsimp only [dat0]

theorem before0_0 (c : Dev nD) (t : Fin cfg0.N) (d) : (dat0 V c).before 0 t d = blk0 V c 0 t :=
  before0_lhs_of V (dat0 V c) (A_eq0 V c 0) (after0_0 V c) t d
theorem before0_1 (c : Dev nD) (t : Fin cfg0.N) (d) : (dat0 V c).before 1 t d = blk0 V c 1 t :=
  before0_rhs_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (lhsM0 t) fullShare ((dat0 V c).before 0 t d))
    ∗ (∃ d, owns (c : Thread nD τ) (rhsM0 t) fullShare ((dat0 V c).before 1 t d))
    ∗ (∃ d, owns (c : Thread nD τ) (outM0 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = inv0 V c (t.val + 1) t.isLt from rfl, inv0_succ]
  rw [show (dat0 V c).leavesExact 0 t = owns (c : Thread nD τ) (lhsM0 t) fullShare ((dat0 V c).after 0 t) from by
    unfold Dat.leavesExact; rw [live0_lhs t], after0_0]
  rw [show (dat0 V c).leavesExact 1 t = owns (c : Thread nD τ) (rhsM0 t) fullShare ((dat0 V c).after 1 t) from by
    unfold Dat.leavesExact; rw [live0_rhs t], after0_1]
  have hN : t.val < 32 := lt_of_lt_of_eq t.isLt (show cfg0.N = 32 from N_0)
  have hopen := rest0_open (F := F) c
  by_cases h0 : t.val % 8 = 0
  · have hnl := notLast_of_first0 h0
    rw [Dat.leavesExact_idle (dat0 V c) 2 t (idle0_out t hnl) (noFlush0_out t hnl)]
    rw [accAt0_first V c t h0]
    unfold accFirstAt0 accFirst0; (try dsimp only)
    by_cases hz : t.val = 0
    · rw [inv0_castSucc V c t, inv0_zero V c _ _ hz]
      iintro ⟨HI, Ho, ⟨%d0, H0⟩, ⟨%d1, H1⟩, ⟨%d2, H2⟩⟩
      ihave HR := hopen $$ HI
      icases HR with ⟨⟨HS, Hi⟩, Hg⟩
      iapply ((bodyFirst0 c (grid0.coords t) _ _ _ _ _ _ _ _ (first_of_mod0 h0) (notLast_of_first0 h0) (blk0 V c 0 t) (blk0 V c 1 t)).2.2 _ Set.univ _)
      isplitl [H0]; · iexact H0
      isplitl [H1]; · iexact H1
      isplitl [H2]; · iexact H2
      isplitl [HS]; · iexact HS
      iintro ⟨H0, H1, H2, ⟨%es, HS⟩⟩
      isplitl [HS Hi Hg]
      · isplitl [HS Hi]
        · isplitl [HS]
          · unfold owns; iexists _; isplitr
            swap; · iexact HS
            ipureintro; exact View.read_writes_of_cover _ _ _ _ _ (accCover_first0 c _ _ _ _ _ _ _ _ _ _ _ _ _)
          iexact Hi
        iexact Hg
      isplitl [Ho]; · iexact Ho
      isplitl [H0]; · iexact H0
      isplitl [H1]; · iexact H1
      iexists _; iexact H2
    · rw [inv0_castSucc V c t, inv0_pos V c _ _ hz]
      iintro ⟨⟨⟨HS, Hi⟩, Hg⟩, Ho, ⟨%d0, H0⟩, ⟨%d1, H1⟩, ⟨%d2, H2⟩⟩
      iapply ((bodyFirst0 c (grid0.coords t) _ _ _ _ _ _ _ _ (first_of_mod0 h0) (notLast_of_first0 h0) (blk0 V c 0 t) (blk0 V c 1 t)).2.2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS Hi Hg]
      · isplitl [HS Hi]
        · isplitl [HS]
          · unfold owns; iexists _; isplitr
            swap; · iexact HS
            ipureintro; exact View.read_writes_of_cover _ _ _ _ _ (accCover_first0 c _ _ _ _ _ _ _ _ _ _ _ _ _)
          iexact Hi
        iexact Hg
      isplitl [Ho]; · iexact Ho
      isplitl [H0]; · iexact H0
      isplitl [H1]; · iexact H1
      iexists _; iexact H2
  · have hz : t.val ≠ 0 := fun e => h0 (by rw [e])
    by_cases h7 : t.val % 8 = 7
    · rw [show (dat0 V c).leavesExact 2 t = owns (c : Thread nD τ) (outM0 t) fullShare ((dat0 V c).after 2 t) from by
        unfold Dat.leavesExact; rw [live0_out t (last_of_mod0 h7)], after0_2]
      rw [accAt0_last V c t h0 h7, outAt0_last V c t h0 h7]
      unfold accLastAt0 accLast0 outLastAt0 outLast0; (try dsimp only)
      rw [inv0_castSucc V c t, inv0_pos V c _ _ hz]
      iintro ⟨⟨⟨HS, Hi⟩, Hg⟩, Ho, ⟨%d0, H0⟩, ⟨%d1, H1⟩, ⟨%d2, H2⟩⟩
      iapply ((bodyLast0 c (grid0.coords t) _ _ _ _ _ _ _ _ (notFirst_of_mod0 h0) (last_of_mod0 h7) (blk0 V c 0 t) (blk0 V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hi Hg]
      · isplitl [HS Hi]
        · isplitl [HS]
          · unfold owns; iexists _; isplitr
            swap; · iexact HS
            ipureintro; exact View.read_writes_of_cover _ _ _ _ _ (accCover_last0 c _ _ _ _ _ _ _ _ _ _ _ _ _ _)
          iexact Hi
        iexact Hg
      isplitl [Ho]; · iexact Ho
      isplitl [H0]; · iexact H0
      isplitl [H1]; · iexact H1
      unfold owns; iexists _; isplitr
      swap; · iexact H2
      ipureintro; exact View.read_writes_of_cover _ _ _ _ _ (outCover_last0 c _ _ _ _ _ _ _ _ _ _ _ _ _ _)
    · have hnl := notLast_of_mod0 h7
      rw [Dat.leavesExact_idle (dat0 V c) 2 t (idle0_out t hnl) (noFlush0_out t hnl)]
      rw [accAt0_mid V c t h0 h7]
      unfold accMidAt0 accMid0; (try dsimp only)
      rw [inv0_castSucc V c t, inv0_pos V c _ _ hz]
      iintro ⟨⟨⟨HS, Hi⟩, Hg⟩, Ho, ⟨%d0, H0⟩, ⟨%d1, H1⟩, ⟨%d2, H2⟩⟩
      iapply ((bodyMid0 c (grid0.coords t) _ _ _ _ _ _ _ _ (notFirst_of_mod0 h0) (notLast_of_mod0 h7) (blk0 V c 0 t) (blk0 V c 1 t) _).2.2 _ Set.univ _)
      isplitl [H0]; · iexact H0
      isplitl [H1]; · iexact H1
      isplitl [H2]; · iexact H2
      isplitl [HS]; · iexact HS
      iintro ⟨H0, H1, H2, ⟨%es, HS⟩⟩
      isplitl [HS Hi Hg]
      · isplitl [HS Hi]
        · isplitl [HS]
          · unfold owns; iexists _; isplitr
            swap; · iexact HS
            ipureintro; exact View.read_writes_of_cover _ _ _ _ _ (accCover_mid0 c _ _ _ _ _ _ _ _ _ _ _ _ _ _)
          iexact Hi
        iexact Hg
      isplitl [Ho]; · iexact Ho
      isplitl [H0]; · iexact H0
      isplitl [H1]; · iexact H1
      iexists _; iexact H2

theorem body_obligation0 (c : Dev nD) : BodyObligation (dat0 (F := F) V c) (defs₀ (F := F)) Variants.none () Set.univ := fun t => by
  rw [bigSep_W0, bigSep_W0]
  exact sound_body0 V c t

/-- The resting invariant is the region's invariant before the first point, -/
theorem enter0 (c : Dev nD) : Pipeline.ΦA spec0 c ⊢ (dat0 V c).Φ 0 := by
  rw [show (dat0 V c).Φ 0 = inv0 V c 0 (Nat.zero_le _) from rfl, inv0_zero V c 0 _ rfl]
  try exact Idealize.SL.BI.Entails.refl _

/-- and after the last point the invariant gives it back, the column's contents forgotten. -/
theorem leave0 (c : Dev nD) : (dat0 V c).Φ (Fin.last cfg0.N) ⊢ Pipeline.ΦA spec0 c := by
  have hne : (Fin.last cfg0.N).val ≠ 0 := by rw [Fin.val_last]; have : cfg0.N = 32 := N_0; omega
  rw [show (dat0 V c).Φ (Fin.last cfg0.N) = inv0 V c (Fin.last cfg0.N).val (Nat.le_of_lt_succ (Fin.last cfg0.N).isLt) from rfl,
    inv0_pos V c _ _ hne]
  have hforget : ∀ x : Vec F S2048x1 .f32, (iprop(iprop(owns (c : Thread nD τ) accM0 fullShare x ∗ idleScoped0 c) ∗ (∃ r, prngReg c r)) : sProp 𝕄)
      ⊢ iprop(iprop((∃ d, owns (c : Thread nD τ) accM0 fullShare d) ∗ idleScoped0 c) ∗ (∃ r, prngReg c r)) := by
    intro x
    iintro ⟨⟨HS, Hi⟩, Hg⟩
    isplitl [HS Hi]
    · isplitl [HS]
      · iexists _; iexact HS
      iexact Hi
    iexact Hg
  exact (hforget _).trans (rest0_close (F := F) c)

end Cert.Kernel.RowMax

end
-- ==== Proof.BitsR1Base.lean ====
/-
  One region of the program (one launch of the row-maximum kernel): what the three cases of its body share.

  The grid is 4 × 8, point t = 8·i + j. Row block i of the left operand (2048 rows) stays in its buffer while the
  eight column blocks j of the right operand (1024 rows each) stream by. The body keeps a running row maximum in a
  scratch column: reset to −∞ at j = 0, updated at every j, and copied to the output block at j = 7. So a point is in
  one of three cases, decided by t mod 8: first (0), middle (1 … 6), last (7).
-/
import proofs.«171457_j18339510354596_1_alg».proof.Proof.Gen.Kernel.Launch
import proofs.«171457_j18339510354596_1_alg».proof.Proof.Gen.Kernel.Skeleton
import proofs.«171457_j18339510354596_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.RowMax

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the TensorCore's buffer contents when the region is entered
variable (V : (c : Dev nD) → (b : Ref sig .tc) → Buf (Elt F) ((c : Thread nD τ).loc b))

/-- Window `w`'s block at point `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The left operand's buffer holds row block i at every point of the row, fetched there or not. -/
theorem before1_lhs_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- The right operand's buffer holds column block j at every point. -/
theorem before1_rhs_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

end

/-! ## The two branch conditions, decided over the grid -/

/-- "j = 0": the accumulator is reset. -/
abbrev isFirst1 (i : grid1.Coords) : Prop := (Scalar.cmpi .ne (Scalar.extui (Scalar.cmpi .eq (BitVec.ofNat 32 (i 1).val) 0#32)) 0#32) = 1#1
theorem isFirst1_iff : ∀ t : Fin cfg1.N, isFirst1 (grid1.coords t) ↔ t.val % 8 = 0 :=
  (by decide +kernel : ∀ t : Fin grid1.N, isFirst1 (grid1.coords t) ↔ t.val % 8 = 0)

/-- "j = 7": the accumulator is copied out. -/
abbrev isLast1 (i : grid1.Coords) : Prop := k1_cond2 i = 1#1
theorem isLast1_iff : ∀ t : Fin cfg1.N, isLast1 (grid1.coords t) ↔ t.val % 8 = 7 :=
  (by decide +kernel : ∀ t : Fin grid1.N, isLast1 (grid1.coords t) ↔ t.val % 8 = 7)

/-! ## Where the windows are idle -/

theorem live1_lhs : ∀ t : Fin cfg1.N, cfg1.idle 0 (grid1.coords t) = false := by decide +kernel
theorem live1_rhs : ∀ t : Fin cfg1.N, cfg1.idle 1 (grid1.coords t) = false := by decide +kernel
/-- Away from j = 7 the output block is neither stored into nor written back. -/
theorem idle1_out : ∀ t : Fin cfg1.N, ¬isLast1 (grid1.coords t) → cfg1.idle 2 (grid1.coords t) = true := by decide +kernel
theorem noFlush1_out : ∀ t : Fin cfg1.N, ¬isLast1 (grid1.coords t) → (cfg1.win 2).flush t = false := by decide +kernel
theorem live1_out : ∀ t : Fin cfg1.N, isLast1 (grid1.coords t) → cfg1.idle 2 (grid1.coords t) = false := by decide +kernel

/-! ## The memrefs the body is called with -/

abbrev lhsM1 (t : Fin cfg1.N) : Memref sig .tc .vmem S2048x768 .bf16 := win1_0.stage (cfg1.slots t 0)
abbrev lhsW1 (t : Fin cfg1.N) : (lhsM1 t).IsWhole := hstage1_0 ((cfg1.slots t 0).cast nbuf1_0)
abbrev rhsM1 (t : Fin cfg1.N) : Memref sig .tc .vmem S1024x768 .bf16 := win1_1.stage (cfg1.slots t 1)
abbrev rhsW1 (t : Fin cfg1.N) : (rhsM1 t).IsWhole := hstage1_1 ((cfg1.slots t 1).cast nbuf1_1)
abbrev outM1 (t : Fin cfg1.N) : Memref sig .tc .vmem S2048x1 .f32 := win1_2.stage (cfg1.slots t 2)
abbrev outW1 (t : Fin cfg1.N) : (outM1 t).IsWhole := hstage1_2 ((cfg1.slots t 2).cast nbuf1_2)
/-- The scratch column that carries the running maximum. -/
abbrev accM1 : Memref sig .tc .vmem S2048x1 .f32 := Memref.whole cc1_scratch0
/-- Views through which a buffer's contents after the body's stores are stated. -/
abbrev accV1 : View sig .tc .vmem S2048x1 .f32 := accM1.view
abbrev outV1 : View sig .tc .vmem S2048x1 .f32 := (Memref.whole cc1_stg2_0 : Memref sig .tc .vmem S2048x1 .f32).view

/-- The scoped buffers of the core that this launch neither stages through nor uses: the other launch's. -/
def idleScoped1 (c : Dev nD) : sProp 𝕄 :=
  iprop((∃ d, owns (c : Thread nD τ) (Memref.whole cc0_stg0_0) fullShare d) ∗ (∃ d, owns (c : Thread nD τ) (Memref.whole cc0_stg0_1) fullShare d)
    ∗ (∃ d, owns (c : Thread nD τ) (Memref.whole cc0_stg1_0) fullShare d) ∗ (∃ d, owns (c : Thread nD τ) (Memref.whole cc0_stg1_1) fullShare d)
    ∗ (∃ d, owns (c : Thread nD τ) (Memref.whole cc0_stg2_0) fullShare d) ∗ (∃ d, owns (c : Thread nD τ) (Memref.whole cc0_stg2_1) fullShare d)
    ∗ (∃ d, owns (c : Thread nD τ) (Memref.whole cc0_scratch0) fullShare d))

end Cert.Kernel.RowMax

end
-- ==== Proof.BitsR1Rest.lean ====
/-
  The second launch's resting invariant (the core's scoped buffers that are no staging buffer of this launch, each at
  some contents, and the generator register) taken apart into the scratch column, the first launch's buffers and the
  register, and put together again. Here the scratch column comes last among the buffers.
-/
import proofs.«171457_j18339510354596_1_alg».proof.Proof.BitsR1Base

set_option maxRecDepth 16384

noncomputable section

namespace Cert.Kernel.RowMax

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem rest1_open (c : Dev nD) :
    (Pipeline.ΦA spec1 c : sProp 𝕄)
      ⊢ iprop(iprop((∃ d, owns (c : Thread nD τ) accM1 fullShare d) ∗ idleScoped1 c) ∗ (∃ r, prngReg c r)) := by
  unfold Pipeline.ΦA idleScoped1; rw [scopedRest1_eq]; simp only [accM1, owns_whole]
  iintro ⟨⟨H1, H2, H3, H4, H5, H6, H7, HS⟩, Hg⟩
  isplitl [HS H1 H2 H3 H4 H5 H6 H7]
  · isplitl [HS]; · iexact HS
    isplitl [H1]; · iexact H1
    isplitl [H2]; · iexact H2
    isplitl [H3]; · iexact H3
    isplitl [H4]; · iexact H4
    isplitl [H5]; · iexact H5
    isplitl [H6]; · iexact H6
    iexact H7
  iexact Hg

theorem rest1_close (c : Dev nD) :
    (iprop(iprop((∃ d, owns (c : Thread nD τ) accM1 fullShare d) ∗ idleScoped1 c) ∗ (∃ r, prngReg c r)) : sProp 𝕄)
      ⊢ Pipeline.ΦA spec1 c := by
  unfold Pipeline.ΦA idleScoped1; rw [scopedRest1_eq]; simp only [accM1, owns_whole]
  iintro ⟨⟨HS, H1, H2, H3, H4, H5, H6, H7⟩, Hg⟩
  isplitl [HS H1 H2 H3 H4 H5 H6 H7]
  · isplitl [H1]; · iexact H1
    isplitl [H2]; · iexact H2
    isplitl [H3]; · iexact H3
    isplitl [H4]; · iexact H4
    isplitl [H5]; · iexact H5
    isplitl [H6]; · iexact H6
    isplitl [H7]; · iexact H7
    iexact HS
  iexact Hg

end Cert.Kernel.RowMax

end
-- ==== Proof.BitsR1First.lean ====
/-
  First point of a row (j = 0): the body resets the scratch column to −∞, then folds the first column
  block in. The output block is not touched. The stores the body leaves in the scratch column are found by running it.
-/
import proofs.«171457_j18339510354596_1_alg».proof.Proof.BitsR1Base

set_option maxRecDepth 16384

noncomputable section

namespace Cert.Kernel.RowMax

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave (last first) in the output buffer (none) and in the scratch column, with the
    body's triple: the operand blocks and the untouched output buffer come back as they were. -/
noncomputable def bodyFirst1 (c : Dev nD) (i : grid1.Coords) (arg2 : Memref sig .tc .vmem S2048x768 .bf16) (harg2 : arg2.IsWhole) (arg3 : Memref sig .tc .vmem S1024x768 .bf16) (harg3 : arg3.IsWhole) (arg4 : Memref sig .tc .vmem S2048x1 .f32) (harg4 : arg4.IsWhole) (arg5 : Memref sig .tc .vmem S2048x1 .f32) (harg5 : arg5.IsWhole) (hf : isFirst1 i) (hl : ¬isLast1 i)
    (x0 : Vec F S2048x768 .bf16) (x1 : Vec F S1024x768 .bf16) :
    Σ' (LO : List (View.Piece (Elt F) S2048x1 .f32)), { LS : List (View.Piece (Elt F) S2048x1 .f32) //
      ∀ (xo : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare xo ∗ (∃ d, owns (c : Thread nD τ) arg5 fullShare d)
            ∗ (iprop(owns (c : Thread nD τ) arg2 fullShare x0 ∗ owns (c : Thread nD τ) arg3 fullShare x1 ∗ owns (c : Thread nD τ) arg4 fullShare xo ∗ (∃ f, arg5.view.loc (c : Thread nD τ) ↦[arg5.view.set]{fullShare} arg5.view.writes (Elt F) f LS)) -∗ K ⟨⟩))
          ⊢ wp frame (wpE (defs₀ (F := F)) Variants.none c none) E (cc1__rowmax_kernel i arg2 harg2 arg3 harg3 arg4 harg4 arg5 harg5) K } := by
  refine ⟨[], ?_, fun xo E K => ?run⟩
  case run =>
    simp only [cc1__rowmax_kernel_eq_skeleton]; unfold cc1__rowmax_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.Kernel.RowMax

end
-- ==== Proof.BitsR1Mid.lean ====
/-
  A middle point of a row (0 < j < 7): the body folds column block j into the scratch column, which holds
  what the point before left. The output block is not touched.
-/
import proofs.«171457_j18339510354596_1_alg».proof.Proof.BitsR1Base

set_option maxRecDepth 16384

noncomputable section

namespace Cert.Kernel.RowMax

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def bodyMid1 (c : Dev nD) (i : grid1.Coords) (arg2 : Memref sig .tc .vmem S2048x768 .bf16) (harg2 : arg2.IsWhole) (arg3 : Memref sig .tc .vmem S1024x768 .bf16) (harg3 : arg3.IsWhole) (arg4 : Memref sig .tc .vmem S2048x1 .f32) (harg4 : arg4.IsWhole) (arg5 : Memref sig .tc .vmem S2048x1 .f32) (harg5 : arg5.IsWhole) (hf : ¬isFirst1 i) (hl : ¬isLast1 i)
    (x0 : Vec F S2048x768 .bf16) (x1 : Vec F S1024x768 .bf16) (xs : Vec F S2048x1 .f32) :
    Σ' (LO : List (View.Piece (Elt F) S2048x1 .f32)), { LS : List (View.Piece (Elt F) S2048x1 .f32) //
      ∀ (xo : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare xo ∗ owns (c : Thread nD τ) arg5 fullShare xs
            ∗ (iprop(owns (c : Thread nD τ) arg2 fullShare x0 ∗ owns (c : Thread nD τ) arg3 fullShare x1 ∗ owns (c : Thread nD τ) arg4 fullShare xo ∗ (∃ f, arg5.view.loc (c : Thread nD τ) ↦[arg5.view.set]{fullShare} arg5.view.writes (Elt F) f LS)) -∗ K ⟨⟩))
          ⊢ wp frame (wpE (defs₀ (F := F)) Variants.none c none) E (cc1__rowmax_kernel i arg2 harg2 arg3 harg3 arg4 harg4 arg5 harg5) K } := by
  refine ⟨[], ?_, fun xo E K => ?run⟩
  case run =>
    simp only [cc1__rowmax_kernel_eq_skeleton]; unfold cc1__rowmax_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.Kernel.RowMax

end
-- ==== Proof.BitsR1Last.lean ====
/-
  Last point of a row (j = 7): the body folds the last column block into the scratch column and copies the
  column to the output block.
-/
import proofs.«171457_j18339510354596_1_alg».proof.Proof.BitsR1Base

set_option maxRecDepth 16384

noncomputable section

namespace Cert.Kernel.RowMax

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def bodyLast1 (c : Dev nD) (i : grid1.Coords) (arg2 : Memref sig .tc .vmem S2048x768 .bf16) (harg2 : arg2.IsWhole) (arg3 : Memref sig .tc .vmem S1024x768 .bf16) (harg3 : arg3.IsWhole) (arg4 : Memref sig .tc .vmem S2048x1 .f32) (harg4 : arg4.IsWhole) (arg5 : Memref sig .tc .vmem S2048x1 .f32) (harg5 : arg5.IsWhole) (hf : ¬isFirst1 i) (hl : isLast1 i)
    (x0 : Vec F S2048x768 .bf16) (x1 : Vec F S1024x768 .bf16) (xs : Vec F S2048x1 .f32) :
    Σ' (LO : List (View.Piece (Elt F) S2048x1 .f32)), { LS : List (View.Piece (Elt F) S2048x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f LO) ∗ (∃ f, arg5.view.loc (c : Thread nD τ) ↦[arg5.view.set]{fullShare} arg5.view.writes (Elt F) f LS)) -∗ K ⟨⟩))
          ⊢ wp frame (wpE (defs₀ (F := F)) Variants.none c none) E (cc1__rowmax_kernel i arg2 harg2 arg3 harg3 arg4 harg4 arg5 harg5) K } := by
  refine ⟨?_, ?_, fun E K => ?run⟩
  case run =>
    simp only [cc1__rowmax_kernel_eq_skeleton]; unfold cc1__rowmax_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.Kernel.RowMax

end
-- ==== Proof.BitsR1Frame.lean ====
/-
  One region of the program (one launch of the row-maximum kernel): what the scratch column and the output block hold after each point, the proof data of the pipeline, and
  the body obligation.

  After point t = 8·i + j the scratch column holds the running row maximum over column blocks 0 … j of row block i
  (by recursion on the point: the first point of a row starts from the reset, every other point from what
  the point before left). The region's invariant carries the column at exactly that value; the output block is stored
  only at j = 7, where it receives the column.
-/
import proofs.«171457_j18339510354596_1_alg».proof.Proof.BitsR1Rest
import proofs.«171457_j18339510354596_1_alg».proof.Proof.BitsR1First
import proofs.«171457_j18339510354596_1_alg».proof.Proof.BitsR1Mid
import proofs.«171457_j18339510354596_1_alg».proof.Proof.BitsR1Last

set_option maxRecDepth 16384

noncomputable section

namespace Cert.Kernel.RowMax

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

theorem accCover_first1 (c : Dev nD) (i : grid1.Coords) (arg2 : Memref sig .tc .vmem S2048x768 .bf16) (harg2 : arg2.IsWhole) (arg3 : Memref sig .tc .vmem S1024x768 .bf16) (harg3 : arg3.IsWhole) (arg4 : Memref sig .tc .vmem S2048x1 .f32) (harg4 : arg4.IsWhole) (arg5 : Memref sig .tc .vmem S2048x1 .f32) (harg5 : arg5.IsWhole) (hf : isFirst1 i) (hl : ¬isLast1 i)
    (x0 : Vec F S2048x768 .bf16) (x1 : Vec F S1024x768 .bf16) (y : S2048x1.Idx) :
    ∃ pc ∈ (bodyFirst1 c i arg2 harg2 arg3 harg3 arg4 harg4 arg5 harg5 hf hl x0 x1).2.1, y ∈ pc.1.set :=
  View.cover_of_tiledL (bodyFirst1 c i arg2 harg2 arg3 harg3 arg4 harg4 arg5 harg5 hf hl x0 x1).2.1 S2048x1.size (by sl_kernel_rfl) y

/-- The scratch column after a first point: the stores read back. -/
def accFirst1 (c : Dev nD) (i : grid1.Coords) (arg2 : Memref sig .tc .vmem S2048x768 .bf16) (harg2 : arg2.IsWhole) (arg3 : Memref sig .tc .vmem S1024x768 .bf16) (harg3 : arg3.IsWhole) (arg4 : Memref sig .tc .vmem S2048x1 .f32) (harg4 : arg4.IsWhole) (arg5 : Memref sig .tc .vmem S2048x1 .f32) (harg5 : arg5.IsWhole) (hf : isFirst1 i) (hl : ¬isLast1 i)
    (x0 : Vec F S2048x768 .bf16) (x1 : Vec F S1024x768 .bf16) : Vec F S2048x1 .f32 :=
  accV1.read (Elt F) (accV1.writes (Elt F) accV1.junk (bodyFirst1 c i arg2 harg2 arg3 harg3 arg4 harg4 arg5 harg5 hf hl x0 x1).2.1)

theorem accCover_mid1 (c : Dev nD) (i : grid1.Coords) (arg2 : Memref sig .tc .vmem S2048x768 .bf16) (harg2 : arg2.IsWhole) (arg3 : Memref sig .tc .vmem S1024x768 .bf16) (harg3 : arg3.IsWhole) (arg4 : Memref sig .tc .vmem S2048x1 .f32) (harg4 : arg4.IsWhole) (arg5 : Memref sig .tc .vmem S2048x1 .f32) (harg5 : arg5.IsWhole) (hf : ¬isFirst1 i) (hl : ¬isLast1 i)
    (x0 : Vec F S2048x768 .bf16) (x1 : Vec F S1024x768 .bf16) (xs : Vec F S2048x1 .f32) (y : S2048x1.Idx) :
    ∃ pc ∈ (bodyMid1 c i arg2 harg2 arg3 harg3 arg4 harg4 arg5 harg5 hf hl x0 x1 xs).2.1, y ∈ pc.1.set :=
  View.cover_of_tiledL (bodyMid1 c i arg2 harg2 arg3 harg3 arg4 harg4 arg5 harg5 hf hl x0 x1 xs).2.1 S2048x1.size (by sl_kernel_rfl) y

/-- The scratch column after a middle point, from what the point before left in it. -/
def accMid1 (c : Dev nD) (i : grid1.Coords) (arg2 : Memref sig .tc .vmem S2048x768 .bf16) (harg2 : arg2.IsWhole) (arg3 : Memref sig .tc .vmem S1024x768 .bf16) (harg3 : arg3.IsWhole) (arg4 : Memref sig .tc .vmem S2048x1 .f32) (harg4 : arg4.IsWhole) (arg5 : Memref sig .tc .vmem S2048x1 .f32) (harg5 : arg5.IsWhole) (hf : ¬isFirst1 i) (hl : ¬isLast1 i)
    (x0 : Vec F S2048x768 .bf16) (x1 : Vec F S1024x768 .bf16) (xs : Vec F S2048x1 .f32) : Vec F S2048x1 .f32 :=
  accV1.read (Elt F) (accV1.writes (Elt F) accV1.junk (bodyMid1 c i arg2 harg2 arg3 harg3 arg4 harg4 arg5 harg5 hf hl x0 x1 xs).2.1)

theorem accCover_last1 (c : Dev nD) (i : grid1.Coords) (arg2 : Memref sig .tc .vmem S2048x768 .bf16) (harg2 : arg2.IsWhole) (arg3 : Memref sig .tc .vmem S1024x768 .bf16) (harg3 : arg3.IsWhole) (arg4 : Memref sig .tc .vmem S2048x1 .f32) (harg4 : arg4.IsWhole) (arg5 : Memref sig .tc .vmem S2048x1 .f32) (harg5 : arg5.IsWhole) (hf : ¬isFirst1 i) (hl : isLast1 i)
    (x0 : Vec F S2048x768 .bf16) (x1 : Vec F S1024x768 .bf16) (xs : Vec F S2048x1 .f32) (y : S2048x1.Idx) :
    ∃ pc ∈ (bodyLast1 c i arg2 harg2 arg3 harg3 arg4 harg4 arg5 harg5 hf hl x0 x1 xs).2.1, y ∈ pc.1.set :=
  View.cover_of_tiledL (bodyLast1 c i arg2 harg2 arg3 harg3 arg4 harg4 arg5 harg5 hf hl x0 x1 xs).2.1 S2048x1.size (by sl_kernel_rfl) y

/-- The scratch column after a last point. -/
def accLast1 (c : Dev nD) (i : grid1.Coords) (arg2 : Memref sig .tc .vmem S2048x768 .bf16) (harg2 : arg2.IsWhole) (arg3 : Memref sig .tc .vmem S1024x768 .bf16) (harg3 : arg3.IsWhole) (arg4 : Memref sig .tc .vmem S2048x1 .f32) (harg4 : arg4.IsWhole) (arg5 : Memref sig .tc .vmem S2048x1 .f32) (harg5 : arg5.IsWhole) (hf : ¬isFirst1 i) (hl : isLast1 i)
    (x0 : Vec F S2048x768 .bf16) (x1 : Vec F S1024x768 .bf16) (xs : Vec F S2048x1 .f32) : Vec F S2048x1 .f32 :=
  accV1.read (Elt F) (accV1.writes (Elt F) accV1.junk (bodyLast1 c i arg2 harg2 arg3 harg3 arg4 harg4 arg5 harg5 hf hl x0 x1 xs).2.1)

theorem outCover_last1 (c : Dev nD) (i : grid1.Coords) (arg2 : Memref sig .tc .vmem S2048x768 .bf16) (harg2 : arg2.IsWhole) (arg3 : Memref sig .tc .vmem S1024x768 .bf16) (harg3 : arg3.IsWhole) (arg4 : Memref sig .tc .vmem S2048x1 .f32) (harg4 : arg4.IsWhole) (arg5 : Memref sig .tc .vmem S2048x1 .f32) (harg5 : arg5.IsWhole) (hf : ¬isFirst1 i) (hl : isLast1 i)
    (x0 : Vec F S2048x768 .bf16) (x1 : Vec F S1024x768 .bf16) (xs : Vec F S2048x1 .f32) (y : S2048x1.Idx) :
    ∃ pc ∈ (bodyLast1 c i arg2 harg2 arg3 harg3 arg4 harg4 arg5 harg5 hf hl x0 x1 xs).1, y ∈ pc.1.set :=
  View.cover_of_tiledL (bodyLast1 c i arg2 harg2 arg3 harg3 arg4 harg4 arg5 harg5 hf hl x0 x1 xs).1 S2048x1.size (by sl_kernel_rfl) y

/-- The output block after a last point. -/
def outLast1 (c : Dev nD) (i : grid1.Coords) (arg2 : Memref sig .tc .vmem S2048x768 .bf16) (harg2 : arg2.IsWhole) (arg3 : Memref sig .tc .vmem S1024x768 .bf16) (harg3 : arg3.IsWhole) (arg4 : Memref sig .tc .vmem S2048x1 .f32) (harg4 : arg4.IsWhole) (arg5 : Memref sig .tc .vmem S2048x1 .f32) (harg5 : arg5.IsWhole) (hf : ¬isFirst1 i) (hl : isLast1 i)
    (x0 : Vec F S2048x768 .bf16) (x1 : Vec F S1024x768 .bf16) (xs : Vec F S2048x1 .f32) : Vec F S2048x1 .f32 :=
  outV1.read (Elt F) (outV1.writes (Elt F) outV1.junk (bodyLast1 c i arg2 harg2 arg3 harg3 arg4 harg4 arg5 harg5 hf hl x0 x1 xs).1)

/-! ## The same at a grid point, on the point's memrefs and operand blocks -/

theorem first_of_mod1 {t : Fin cfg1.N} (h0 : t.val % 8 = 0) : isFirst1 (grid1.coords t) := (isFirst1_iff t).mpr h0
theorem notFirst_of_mod1 {t : Fin cfg1.N} (h0 : ¬t.val % 8 = 0) : ¬isFirst1 (grid1.coords t) := fun h => h0 ((isFirst1_iff t).mp h)
theorem last_of_mod1 {t : Fin cfg1.N} (h7 : t.val % 8 = 7) : isLast1 (grid1.coords t) := (isLast1_iff t).mpr h7
theorem notLast_of_mod1 {t : Fin cfg1.N} (h7 : ¬t.val % 8 = 7) : ¬isLast1 (grid1.coords t) := fun h => h7 ((isLast1_iff t).mp h)
theorem notLast_of_first1 {t : Fin cfg1.N} (h0 : t.val % 8 = 0) : ¬isLast1 (grid1.coords t) := fun h => by have := (isLast1_iff t).mp h; omega

def accFirstAt1 (c : Dev nD) (t : Fin cfg1.N) (h0 : t.val % 8 = 0) : Vec F S2048x1 .f32 :=
  accFirst1 c (grid1.coords t) (lhsM1 t) (lhsW1 t) (rhsM1 t) (rhsW1 t) (outM1 t) (outW1 t) accM1 (Memref.isWhole_whole _) (first_of_mod1 h0) (notLast_of_first1 h0) (blk1 V c 0 t) (blk1 V c 1 t)
def accMidAt1 (c : Dev nD) (t : Fin cfg1.N) (h0 : ¬t.val % 8 = 0) (h7 : ¬t.val % 8 = 7) (xs : Vec F S2048x1 .f32) : Vec F S2048x1 .f32 :=
  accMid1 c (grid1.coords t) (lhsM1 t) (lhsW1 t) (rhsM1 t) (rhsW1 t) (outM1 t) (outW1 t) accM1 (Memref.isWhole_whole _) (notFirst_of_mod1 h0) (notLast_of_mod1 h7) (blk1 V c 0 t) (blk1 V c 1 t) xs
def accLastAt1 (c : Dev nD) (t : Fin cfg1.N) (h0 : ¬t.val % 8 = 0) (h7 : t.val % 8 = 7) (xs : Vec F S2048x1 .f32) : Vec F S2048x1 .f32 :=
  accLast1 c (grid1.coords t) (lhsM1 t) (lhsW1 t) (rhsM1 t) (rhsW1 t) (outM1 t) (outW1 t) accM1 (Memref.isWhole_whole _) (notFirst_of_mod1 h0) (last_of_mod1 h7) (blk1 V c 0 t) (blk1 V c 1 t) xs
def outLastAt1 (c : Dev nD) (t : Fin cfg1.N) (h0 : ¬t.val % 8 = 0) (h7 : t.val % 8 = 7) (xs : Vec F S2048x1 .f32) : Vec F S2048x1 .f32 :=
  outLast1 c (grid1.coords t) (lhsM1 t) (lhsW1 t) (rhsM1 t) (rhsW1 t) (outM1 t) (outW1 t) accM1 (Memref.isWhole_whole _) (notFirst_of_mod1 h0) (last_of_mod1 h7) (blk1 V c 0 t) (blk1 V c 1 t) xs

/-! ## The running maximum, point by point -/

/-- What the scratch column holds after the point at position `n`. -/
def accAt1 (c : Dev nD) : (n : ℕ) → n < cfg1.N → Vec F S2048x1 .f32
  | 0, hn => accFirstAt1 V c ⟨0, hn⟩ (Nat.zero_mod _)
  | n + 1, hn =>
    if h0 : (n + 1) % 8 = 0 then accFirstAt1 V c ⟨n + 1, hn⟩ h0
    else if h7 : (n + 1) % 8 = 7 then accLastAt1 V c ⟨n + 1, hn⟩ h0 h7 (accAt1 c n (Nat.lt_of_succ_lt hn))
    else accMidAt1 V c ⟨n + 1, hn⟩ h0 h7 (accAt1 c n (Nat.lt_of_succ_lt hn))

theorem prev_lt1 (t : Fin cfg1.N) : t.val - 1 < cfg1.N := Nat.lt_of_le_of_lt (Nat.sub_le _ _) t.isLt

theorem accAt1_first (c : Dev nD) (t : Fin cfg1.N) (h0 : t.val % 8 = 0) :
    accAt1 V c t.val t.isLt = accFirstAt1 V c t h0 := by
  obtain ⟨n, hn⟩ := t
  cases n with
  | zero => exact rfl
  | succ n => exact (dif_pos h0).trans rfl

theorem accAt1_mid (c : Dev nD) (t : Fin cfg1.N) (h0 : ¬t.val % 8 = 0) (h7 : ¬t.val % 8 = 7) :
    accAt1 V c t.val t.isLt = accMidAt1 V c t h0 h7 (accAt1 V c (t.val - 1) (prev_lt1 t)) := by
  obtain ⟨n, hn⟩ := t
  cases n with
  | zero => exact (by exfalso; (try dsimp only at h0); exact absurd (Nat.zero_mod _) h0)
  | succ n => exact (dif_neg h0).trans ((dif_neg h7).trans rfl)

theorem accAt1_last (c : Dev nD) (t : Fin cfg1.N) (h0 : ¬t.val % 8 = 0) (h7 : t.val % 8 = 7) :
    accAt1 V c t.val t.isLt = accLastAt1 V c t h0 h7 (accAt1 V c (t.val - 1) (prev_lt1 t)) := by
  obtain ⟨n, hn⟩ := t
  cases n with
  | zero => exact (by exfalso; (try dsimp only at h0); exact absurd (Nat.zero_mod _) h0)
  | succ n => exact (dif_neg h0).trans ((dif_pos h7).trans rfl)

/-- What the output block's buffer holds after point `t`: at a last point the copy of the column; elsewhere the
    body does not store into it and the pipeline does not write it back, so the value is never consulted. -/
def outAt1 (c : Dev nD) (t : Fin cfg1.N) : Vec F S2048x1 .f32 :=
  if h7 : t.val % 8 = 7 then outLastAt1 V c t (by omega) h7 (accAt1 V c (t.val - 1) (prev_lt1 t))
  else outV1.read (Elt F) outV1.junk

theorem outAt1_last (c : Dev nD) (t : Fin cfg1.N) (h0 : ¬t.val % 8 = 0) (h7 : t.val % 8 = 7) :
    outAt1 V c t = outLastAt1 V c t h0 h7 (accAt1 V c (t.val - 1) (prev_lt1 t)) := dif_pos h7

/-! ## The region's invariant -/

/-- Before the point at position `n`: before the first point the resting invariant (the scratch column at anything);
    afterwards the column at what the point before left, the other launch's buffers and the generator register untouched. -/
def inv1 (c : Dev nD) : (n : ℕ) → n ≤ cfg1.N → sProp 𝕄
  | 0, _ => Pipeline.ΦA spec1 c
  | n + 1, hn => iprop(iprop(owns (c : Thread nD τ) accM1 fullShare (accAt1 V c n hn) ∗ idleScoped1 c) ∗ (∃ r, prngReg c r))

theorem inv1_zero (c : Dev nD) (n : ℕ) (h : n ≤ cfg1.N) (hz : n = 0) : inv1 V c n h = Pipeline.ΦA spec1 c := by
  subst hz; rfl

theorem inv1_succ (c : Dev nD) (n : ℕ) (hn : n < cfg1.N) :
    inv1 V c (n + 1) hn = iprop(iprop(owns (c : Thread nD τ) accM1 fullShare (accAt1 V c n hn) ∗ idleScoped1 c) ∗ (∃ r, prngReg c r)) := rfl

theorem inv1_pos (c : Dev nD) (n : ℕ) (h : n ≤ cfg1.N) (hz : n ≠ 0) :
    inv1 V c n h = iprop(iprop(owns (c : Thread nD τ) accM1 fullShare (accAt1 V c (n - 1) (by omega)) ∗ idleScoped1 c) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => outAt1 V c t
  Φ t := inv1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem inv1_castSucc (c : Dev nD) (t : Fin cfg1.N) :
    (dat1 V c).Φ t.castSucc = inv1 V c t.val (Nat.le_of_lt t.isLt) := by
  dsimp only [dat1]; simp only [Fin.coe_castSucc]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = outAt1 V c t := by dsimp only [dat1]

theorem before1_0 (c : Dev nD) (t : Fin cfg1.N) (d) : (dat1 V c).before 0 t d = blk1 V c 0 t :=
  before1_lhs_of V (dat1 V c) (A_eq1 V c 0) (after1_0 V c) t d
theorem before1_1 (c : Dev nD) (t : Fin cfg1.N) (d) : (dat1 V c).before 1 t d = blk1 V c 1 t :=
  before1_rhs_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (lhsM1 t) fullShare ((dat1 V c).before 0 t d))
    ∗ (∃ d, owns (c : Thread nD τ) (rhsM1 t) fullShare ((dat1 V c).before 1 t d))
    ∗ (∃ d, owns (c : Thread nD τ) (outM1 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = inv1 V c (t.val + 1) t.isLt from rfl, inv1_succ]
  rw [show (dat1 V c).leavesExact 0 t = owns (c : Thread nD τ) (lhsM1 t) fullShare ((dat1 V c).after 0 t) from by
    unfold Dat.leavesExact; rw [live1_lhs t], after1_0]
  rw [show (dat1 V c).leavesExact 1 t = owns (c : Thread nD τ) (rhsM1 t) fullShare ((dat1 V c).after 1 t) from by
    unfold Dat.leavesExact; rw [live1_rhs t], after1_1]
  have hN : t.val < 32 := lt_of_lt_of_eq t.isLt (show cfg1.N = 32 from N_1)
  have hopen := rest1_open (F := F) c
  by_cases h0 : t.val % 8 = 0
  · have hnl := notLast_of_first1 h0
    rw [Dat.leavesExact_idle (dat1 V c) 2 t (idle1_out t hnl) (noFlush1_out t hnl)]
    rw [accAt1_first V c t h0]
    unfold accFirstAt1 accFirst1; (try dsimp only)
    by_cases hz : t.val = 0
    · rw [inv1_castSucc V c t, inv1_zero V c _ _ hz]
      iintro ⟨HI, Ho, ⟨%d0, H0⟩, ⟨%d1, H1⟩, ⟨%d2, H2⟩⟩
      ihave HR := hopen $$ HI
      icases HR with ⟨⟨HS, Hi⟩, Hg⟩
      iapply ((bodyFirst1 c (grid1.coords t) _ _ _ _ _ _ _ _ (first_of_mod1 h0) (notLast_of_first1 h0) (blk1 V c 0 t) (blk1 V c 1 t)).2.2 _ Set.univ _)
      isplitl [H0]; · iexact H0
      isplitl [H1]; · iexact H1
      isplitl [H2]; · iexact H2
      isplitl [HS]; · iexact HS
      iintro ⟨H0, H1, H2, ⟨%es, HS⟩⟩
      isplitl [HS Hi Hg]
      · isplitl [HS Hi]
        · isplitl [HS]
          · unfold owns; iexists _; isplitr
            swap; · iexact HS
            ipureintro; exact View.read_writes_of_cover _ _ _ _ _ (accCover_first1 c _ _ _ _ _ _ _ _ _ _ _ _ _)
          iexact Hi
        iexact Hg
      isplitl [Ho]; · iexact Ho
      isplitl [H0]; · iexact H0
      isplitl [H1]; · iexact H1
      iexists _; iexact H2
    · rw [inv1_castSucc V c t, inv1_pos V c _ _ hz]
      iintro ⟨⟨⟨HS, Hi⟩, Hg⟩, Ho, ⟨%d0, H0⟩, ⟨%d1, H1⟩, ⟨%d2, H2⟩⟩
      iapply ((bodyFirst1 c (grid1.coords t) _ _ _ _ _ _ _ _ (first_of_mod1 h0) (notLast_of_first1 h0) (blk1 V c 0 t) (blk1 V c 1 t)).2.2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS Hi Hg]
      · isplitl [HS Hi]
        · isplitl [HS]
          · unfold owns; iexists _; isplitr
            swap; · iexact HS
            ipureintro; exact View.read_writes_of_cover _ _ _ _ _ (accCover_first1 c _ _ _ _ _ _ _ _ _ _ _ _ _)
          iexact Hi
        iexact Hg
      isplitl [Ho]; · iexact Ho
      isplitl [H0]; · iexact H0
      isplitl [H1]; · iexact H1
      iexists _; iexact H2
  · have hz : t.val ≠ 0 := fun e => h0 (by rw [e])
    by_cases h7 : t.val % 8 = 7
    · rw [show (dat1 V c).leavesExact 2 t = owns (c : Thread nD τ) (outM1 t) fullShare ((dat1 V c).after 2 t) from by
        unfold Dat.leavesExact; rw [live1_out t (last_of_mod1 h7)], after1_2]
      rw [accAt1_last V c t h0 h7, outAt1_last V c t h0 h7]
      unfold accLastAt1 accLast1 outLastAt1 outLast1; (try dsimp only)
      rw [inv1_castSucc V c t, inv1_pos V c _ _ hz]
      iintro ⟨⟨⟨HS, Hi⟩, Hg⟩, Ho, ⟨%d0, H0⟩, ⟨%d1, H1⟩, ⟨%d2, H2⟩⟩
      iapply ((bodyLast1 c (grid1.coords t) _ _ _ _ _ _ _ _ (notFirst_of_mod1 h0) (last_of_mod1 h7) (blk1 V c 0 t) (blk1 V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hi Hg]
      · isplitl [HS Hi]
        · isplitl [HS]
          · unfold owns; iexists _; isplitr
            swap; · iexact HS
            ipureintro; exact View.read_writes_of_cover _ _ _ _ _ (accCover_last1 c _ _ _ _ _ _ _ _ _ _ _ _ _ _)
          iexact Hi
        iexact Hg
      isplitl [Ho]; · iexact Ho
      isplitl [H0]; · iexact H0
      isplitl [H1]; · iexact H1
      unfold owns; iexists _; isplitr
      swap; · iexact H2
      ipureintro; exact View.read_writes_of_cover _ _ _ _ _ (outCover_last1 c _ _ _ _ _ _ _ _ _ _ _ _ _ _)
    · have hnl := notLast_of_mod1 h7
      rw [Dat.leavesExact_idle (dat1 V c) 2 t (idle1_out t hnl) (noFlush1_out t hnl)]
      rw [accAt1_mid V c t h0 h7]
      unfold accMidAt1 accMid1; (try dsimp only)
      rw [inv1_castSucc V c t, inv1_pos V c _ _ hz]
      iintro ⟨⟨⟨HS, Hi⟩, Hg⟩, Ho, ⟨%d0, H0⟩, ⟨%d1, H1⟩, ⟨%d2, H2⟩⟩
      iapply ((bodyMid1 c (grid1.coords t) _ _ _ _ _ _ _ _ (notFirst_of_mod1 h0) (notLast_of_mod1 h7) (blk1 V c 0 t) (blk1 V c 1 t) _).2.2 _ Set.univ _)
      isplitl [H0]; · iexact H0
      isplitl [H1]; · iexact H1
      isplitl [H2]; · iexact H2
      isplitl [HS]; · iexact HS
      iintro ⟨H0, H1, H2, ⟨%es, HS⟩⟩
      isplitl [HS Hi Hg]
      · isplitl [HS Hi]
        · isplitl [HS]
          · unfold owns; iexists _; isplitr
            swap; · iexact HS
            ipureintro; exact View.read_writes_of_cover _ _ _ _ _ (accCover_mid1 c _ _ _ _ _ _ _ _ _ _ _ _ _ _)
          iexact Hi
        iexact Hg
      isplitl [Ho]; · iexact Ho
      isplitl [H0]; · iexact H0
      isplitl [H1]; · iexact H1
      iexists _; iexact H2

theorem body_obligation1 (c : Dev nD) : BodyObligation (dat1 (F := F) V c) (defs₀ (F := F)) Variants.none () Set.univ := fun t => by
  rw [bigSep_W1, bigSep_W1]
  exact sound_body1 V c t

/-- The resting invariant is the region's invariant before the first point, -/
theorem enter1 (c : Dev nD) : Pipeline.ΦA spec1 c ⊢ (dat1 V c).Φ 0 := by
  rw [show (dat1 V c).Φ 0 = inv1 V c 0 (Nat.zero_le _) from rfl, inv1_zero V c 0 _ rfl]
  try exact Idealize.SL.BI.Entails.refl _

/-- and after the last point the invariant gives it back, the column's contents forgotten. -/
theorem leave1 (c : Dev nD) : (dat1 V c).Φ (Fin.last cfg1.N) ⊢ Pipeline.ΦA spec1 c := by
  have hne : (Fin.last cfg1.N).val ≠ 0 := by rw [Fin.val_last]; have : cfg1.N = 32 := N_1; omega
  rw [show (dat1 V c).Φ (Fin.last cfg1.N) = inv1 V c (Fin.last cfg1.N).val (Nat.le_of_lt_succ (Fin.last cfg1.N).isLt) from rfl,
    inv1_pos V c _ _ hne]
  have hforget : ∀ x : Vec F S2048x1 .f32, (iprop(iprop(owns (c : Thread nD τ) accM1 fullShare x ∗ idleScoped1 c) ∗ (∃ r, prngReg c r)) : sProp 𝕄)
      ⊢ iprop(iprop((∃ d, owns (c : Thread nD τ) accM1 fullShare d) ∗ idleScoped1 c) ∗ (∃ r, prngReg c r)) := by
    intro x
    iintro ⟨⟨HS, Hi⟩, Hg⟩
    isplitl [HS Hi]
    · isplitl [HS]
      · iexists _; iexact HS
      iexact Hi
    iexact Hg
  exact (hforget _).trans (rest1_close (F := F) c)

end Cert.Kernel.RowMax

end
-- ==== Proof.BitsFold.lean ====
/-
  The program's buffers between its items: the contents of every TensorCore buffer at each boundary of @main — the
  launch memory, then each stretch of host operations applied in order, then at each launch of the row-maximum kernel
  the launch's arrays at what its write-backs leave. The argument arrays reach the end as launched.
-/
import proofs.«171457_j18339510354596_1_alg».proof.Proof.BitsR0Frame
import proofs.«171457_j18339510354596_1_alg».proof.Proof.BitsR1Frame
import proofs.«171457_j18339510354596_1_alg».proof.Proof.Gen.Kernel.Regions

set_option maxRecDepth 16384

noncomputable section

namespace Cert.Kernel.RowMax

open Cert.Kernel
open Cert.Kernel.Gen hiding V0 V1 V2 V3 V4 V5 V6 V7 V8 V9 V10 V11 V12 adm segs
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After each stretch of host operations before the first launch: the two row normalisations and the two casts. -/
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
abbrev W4 : Dev nD → Valuation τ sig (Elt F) := fun c => StableHlo.after hostOps0_3 (W3 m ρ c)
abbrev W5 : Dev nD → Valuation τ sig (Elt F) := fun c => StableHlo.after hostOps0_4 (W4 m ρ c)
abbrev W6 : Dev nD → Valuation τ sig (Elt F) := fun c => StableHlo.after hostOps0_5 (W5 m ρ c)
abbrev W7 : Dev nD → Valuation τ sig (Elt F) := fun c => StableHlo.after hostOps0_6 (W6 m ρ c)
abbrev W8 : Dev nD → Valuation τ sig (Elt F) := fun c => StableHlo.after hostOps0_7 (W7 m ρ c)
/-- The same read at the TensorCore's references: what the first launch finds. -/
abbrev E0 : (c : Dev nD) → (b : Ref sig .tc) → Buf (Elt F) ((c : Thread nD τ).loc b) := fun c b => W8 m ρ c b
/-- At the first launch's exit: its arrays at what the pipeline leaves, every other buffer as entered. -/
def W9 (c : Dev nD) : Valuation τ sig (Elt F) :=
  Pipeline.withArrays spec0 c (W8 m ρ c) fun w => (dat0 (E0 m ρ) c).arrAt w cfg0.N
theorem W9_arr (c : Dev nD) (w : Fin cfg0.W) :
    W9 m ρ c (Proc.devRef .tc (Pipeline.arrRef spec0 w)) = (dat0 (E0 m ρ) c).arrAt w cfg0.N := by
  unfold W9; exact Pipeline.withArrays_arr spec0 launch0.win.arr_inj c _ _ w
theorem W9_of_ne (c : Dev nD) (b : Ref sig .tc) (hb : ∀ w, Pipeline.arrRef spec0 w ≠ b) :
    W9 m ρ c (Proc.devRef .tc b) = W8 m ρ c (Proc.devRef .tc b) := by
  unfold W9; exact Pipeline.withArrays_of_ne spec0 c _ _ b hb
abbrev X0 : (c : Dev nD) → (b : Ref sig .tc) → Buf (Elt F) ((c : Thread nD τ).loc b) := fun c b => W9 m ρ c b
theorem exitArr0 (c : Dev nD) (w : Fin cfg0.W) : (dat0 (E0 m ρ) c).arrAt w cfg0.N = X0 m ρ c (Pipeline.arrRef spec0 w) :=
  (W9_arr m ρ c w).symm
theorem exitRest0 (c : Dev nD) : ∀ b, b ∉ Finset.univ.image (Pipeline.arrRef spec0) → X0 m ρ c b = E0 m ρ c b :=
  fun b hb => W9_of_ne m ρ c b fun w e => hb (Finset.mem_image.mpr ⟨w, Finset.mem_univ _, e⟩)

/-- After the reshape of the first launch's result. -/
abbrev W10 : Dev nD → Valuation τ sig (Elt F) := fun c => StableHlo.after hostOps1 (W9 m ρ c)
/-- What the second launch finds. -/
abbrev E1 : (c : Dev nD) → (b : Ref sig .tc) → Buf (Elt F) ((c : Thread nD τ).loc b) := fun c b => W10 m ρ c b
/-- At the second launch's exit. -/
def W11 (c : Dev nD) : Valuation τ sig (Elt F) :=
  Pipeline.withArrays spec1 c (W10 m ρ c) fun w => (dat1 (E1 m ρ) c).arrAt w cfg1.N
theorem W11_arr (c : Dev nD) (w : Fin cfg1.W) :
    W11 m ρ c (Proc.devRef .tc (Pipeline.arrRef spec1 w)) = (dat1 (E1 m ρ) c).arrAt w cfg1.N := by
  unfold W11; exact Pipeline.withArrays_arr spec1 launch1.win.arr_inj c _ _ w
theorem W11_of_ne (c : Dev nD) (b : Ref sig .tc) (hb : ∀ w, Pipeline.arrRef spec1 w ≠ b) :
    W11 m ρ c (Proc.devRef .tc b) = W10 m ρ c (Proc.devRef .tc b) := by
  unfold W11; exact Pipeline.withArrays_of_ne spec1 c _ _ b hb
abbrev X1 : (c : Dev nD) → (b : Ref sig .tc) → Buf (Elt F) ((c : Thread nD τ).loc b) := fun c b => W11 m ρ c b
theorem exitArr1 (c : Dev nD) (w : Fin cfg1.W) : (dat1 (E1 m ρ) c).arrAt w cfg1.N = X1 m ρ c (Pipeline.arrRef spec1 w) :=
  (W11_arr m ρ c w).symm
theorem exitRest1 (c : Dev nD) : ∀ b, b ∉ Finset.univ.image (Pipeline.arrRef spec1) → X1 m ρ c b = E1 m ρ c b :=
  fun b hb => W11_of_ne m ρ c b fun w e => hb (Finset.mem_image.mpr ⟨w, Finset.mem_univ _, e⟩)

/-- After the closing stretch: the two entropy sums. -/
abbrev W12 : Dev nD → Valuation τ sig (Elt F) := fun c => StableHlo.after hostOps2 (W11 m ρ c)

/-! ## What a stretch does not write it leaves alone -/

theorem W8_keep (c : Dev nD) (r : Ref sig .tc) (h0 : r ∉ hostOps0_W) (h1 : r ∉ hostOps0_1_W) (h2 : r ∉ hostOps0_2_W) (h3 : r ∉ hostOps0_3_W)
    (h4 : r ∉ hostOps0_4_W) (h5 : r ∉ hostOps0_5_W) (h6 : r ∉ hostOps0_6_W) (h7 : r ∉ hostOps0_7_W) :
    W8 m ρ c (Proc.devRef .tc r) = W0 m ρ c (Proc.devRef .tc r) :=
  (StableHlo.after_of_writes_sub hostOps0_7 _ hostOps0_7_writes h7).trans <|
  (StableHlo.after_of_writes_sub hostOps0_6 _ hostOps0_6_writes h6).trans <|
  (StableHlo.after_of_writes_sub hostOps0_5 _ hostOps0_5_writes h5).trans <|
  (StableHlo.after_of_writes_sub hostOps0_4 _ hostOps0_4_writes h4).trans <|
  (StableHlo.after_of_writes_sub hostOps0_3 _ hostOps0_3_writes h3).trans <|
  (StableHlo.after_of_writes_sub hostOps0_2 _ hostOps0_2_writes h2).trans <|
  (StableHlo.after_of_writes_sub hostOps0_1 _ hostOps0_1_writes h1).trans <|
  (StableHlo.after_of_writes_sub hostOps0 _ hostOps0_writes h0)

theorem W12_keep (c : Dev nD) (r : Ref sig .tc) (h0 : r ∉ hostOps0_W) (h1 : r ∉ hostOps0_1_W) (h2 : r ∉ hostOps0_2_W) (h3 : r ∉ hostOps0_3_W)
    (h4 : r ∉ hostOps0_4_W) (h5 : r ∉ hostOps0_5_W) (h6 : r ∉ hostOps0_6_W) (h7 : r ∉ hostOps0_7_W)
    (ha0 : ∀ w, Pipeline.arrRef spec0 w ≠ r) (h8 : r ∉ hostOps1_W) (ha1 : ∀ w, Pipeline.arrRef spec1 w ≠ r) (h9 : r ∉ hostOps2_W) :
    W12 m ρ c (Proc.devRef .tc r) = m ((c : Thread nD τ).loc r) :=
  (StableHlo.after_of_writes_sub hostOps2 _ hostOps2_writes h9).trans <|
  (W11_of_ne m ρ c r ha1).trans <|
  (StableHlo.after_of_writes_sub hostOps1 _ hostOps1_writes h8).trans <|
  (W9_of_ne m ρ c r ha0).trans <|
  (W8_keep m ρ c r h0 h1 h2 h3 h4 h5 h6 h7).trans rfl

theorem W12_main_arg0 (c : Dev nD) : W12 m ρ c (Proc.devRef .tc main_arg0) = m ((c : Thread nD τ).loc main_arg0) :=
  W12_keep m ρ c main_arg0 (by decide) (by decide) (by decide) (by decide) (by decide) (by decide) (by decide) (by decide)
    (by decide) (by decide) (by decide) (by decide)
theorem W12_main_arg1 (c : Dev nD) : W12 m ρ c (Proc.devRef .tc main_arg1) = m ((c : Thread nD τ).loc main_arg1) :=
  W12_keep m ρ c main_arg1 (by decide) (by decide) (by decide) (by decide) (by decide) (by decide) (by decide) (by decide)
    (by decide) (by decide) (by decide) (by decide)

end Cert.Kernel.RowMax

end
-- ==== Proof.BitsWhole.lean ====
/-
  The run of the whole program: @main as its twelve items — eight stretches of host operations (the row norms, the
  clips, the quotients, the casts), the first launch of the row-maximum kernel, a reshape, the second launch, and the
  closing stretch (the two entropy sums) — each entered from the buffer contents the item before left. Every weakly fair
  execution terminates, and at the end every unscoped buffer holds what the last boundary's contents say.
-/
import proofs.«171457_j18339510354596_1_alg».proof.Proof.BitsFold

set_option maxRecDepth 16384

noncomputable section

namespace Cert.Kernel.RowMax

open Cert.Kernel
open Cert.Kernel.Gen hiding V0 V1 V2 V3 V4 V5 V6 V7 V8 V9 V10 V11 V12 adm segs
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No launch has a prefetched table. -/
abbrev noTables : (p : Fin 2) → (pcfgs (F := F) p).Adm := fun p => (cfgs p).toPCfg_adm

/-- Each launch's proof data at the contents the launch finds. -/
def pdats : (p : Fin 2) → (c : Dev nD) → Dat τ (Elt F) Unit ℕ (UR sig nD τ) ℕ (Pipeline.pin (pcfgs (F := F)) noTables p) c
  | ⟨0, _⟩ => fun c => dat0 (E0 m ρ) c
  | ⟨1, _⟩ => fun c => dat1 (E1 m ρ) c

abbrev noVariants : Variants := Variants.none
/-- No core owes another anything. -/
abbrev noPairs : GSem nD τ sig → Finset Unit := fun _ => ∅
abbrev noLevel : GSem nD τ sig → Unit → ℕ := fun _ _ => 0
/-- What rides beside the buffers through every item: the generator register at some state, nothing owed. -/
abbrev beside (c : Dev nD) : sProp 𝕄 := iprop((∃ r, prngReg c r) ∗ ∃ W, owes (c : Thread nD τ) (0 : CellTallies nD τ sig Unit) W)

/-- A stretch of host operations as an item, from the contents `W`. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVariants noPairs noLevel :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W beside

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last boundary: every unscoped buffer at the final contents, the generator register at some state. -/
abbrev atEnd (c : Dev nD) : sProp 𝕄 := iprop(StableHlo.held (c : Thread nD τ) (Pipeline.ucRefs τ sig) (W12 m ρ c) ∗ ∃ r, prngReg c r)

set_option backward.isDefEq.respectTransparency.types false in
/-- The first launch as an item: entered with every unscoped buffer at `W8`, left at `W9`. Its arrays are split out
    of the unscoped buffers and put back at their exit contents; the scratch column and the generator register go into the
    launch's invariant and come back. -/
def launchItem0 : Pipeline.RegionSeg (pcfgs (F := F)) noTables (pdats m ρ) () defs₀ noVariants noPairs noLevel 0 where
  win := launch0.win.to₀
  block_pos := launch0.block_pos
  stage_whole := launch0.stage_whole
  K := PEmpty
  osem k := k.elim
  ho := Pipeline.OwnSemFacts.none _
  hbody c := (body_obligation0 (E0 m ρ) c).loose
  hwaits := Pipeline.hwaits_of_owed_zero _ _ _ _ noPairs noLevel 0 fun _ _ => rfl
  pre c := iprop(StableHlo.held (c : Thread nD τ) (Pipeline.ucRefs τ sig) (W8 m ρ c) ∗ beside c)
  post c := iprop(StableHlo.held (c : Thread nD τ) (Pipeline.ucRefs τ sig) (W9 m ρ c) ∗ beside c)
  X c := iprop(∃ r, prngReg c r)
  Y c := iprop(∃ r, prngReg c r)
  Z c := Pipeline.unscopedRest (Ix := Unit) (Name := ℕ) (U := UR sig nD τ) (Lvl := ℕ) spec0 c (E0 m ρ c)
  hentry c := by
    rw [Pipeline.ownSems0_none]
    have hsplit := Pipeline.arrays_of_unscopedBufs (p := 0) (pcfgs (F := F)) noTables (pdats m ρ) launch0.win launch0.arr_whole c
      ((pdats m ρ 0 c).share_full fun _ => rfl) (E0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (dat0 (E0 m ρ) c).Φ 0 from rfl]
    have hA : (iprop(iprop(∃ r, prngReg c r) ∗ Pipeline.prefHeld (pcfgs (F := F) 0).pre c (fun _ => fullShare) (noTables (F := F) 0).1 ∗ Pipeline.scopedRest (Pipeline.pin (pcfgs (F := F)) noTables 0).spec c) : sProp 𝕄)
        ⊢ Pipeline.ΦA spec0 c := by
      unfold Pipeline.ΦA
      iintro ⟨Hp, -, Hr⟩
      isplitl [Hr]; · iexact Hr
      iexact Hp
    exact hA.trans (enter0 (E0 m ρ) c)
  hout c := by
    rw [Pipeline.ownSems0_none, show (pdats m ρ 0 c).Φ (Fin.last _) = (dat0 (E0 m ρ) c).Φ (Fin.last cfg0.N) from rfl]
    have hB : (Pipeline.ΦA spec0 c : sProp 𝕄)
        ⊢ iprop(iprop(∃ r, prngReg c r) ∗ BI.emp ∗ Pipeline.scopedRest (Pipeline.pin (pcfgs (F := F)) noTables 0).spec c) := by
      unfold Pipeline.ΦA
      iintro ⟨Hr, Hp⟩
      isplitl [Hp]; · iexact Hp
      isplitr; · iempintro
      iexact Hr
    exact (leave0 (E0 m ρ) c).trans hB
  hexit c := by
    have hjoin := Pipeline.unscopedBufs_of_arrays (p := 0) (pcfgs (F := F)) noTables (Ix := Unit) (Name := ℕ) (U := UR sig nD τ) (Lvl := ℕ)
      launch0.win launch0.arr_whole c (pdats m ρ) ((pdats m ρ 0 c).share_full fun _ => rfl)
      (E0 m ρ c) (X0 m ρ c) ((pdats m ρ 0 c).arrAt · cfg0.N) (exitArr0 m ρ c) (exitRest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second launch as an item: entered at `W10`, left at `W11`. -/
def launchItem1 : Pipeline.RegionSeg (pcfgs (F := F)) noTables (pdats m ρ) () defs₀ noVariants noPairs noLevel 1 where
  win := launch1.win.to₀
  block_pos := launch1.block_pos
  stage_whole := launch1.stage_whole
  K := PEmpty
  osem k := k.elim
  ho := Pipeline.OwnSemFacts.none _
  hbody c := (body_obligation1 (E1 m ρ) c).loose
  hwaits := Pipeline.hwaits_of_owed_zero _ _ _ _ noPairs noLevel 1 fun _ _ => rfl
  pre c := iprop(StableHlo.held (c : Thread nD τ) (Pipeline.ucRefs τ sig) (W10 m ρ c) ∗ beside c)
  post c := iprop(StableHlo.held (c : Thread nD τ) (Pipeline.ucRefs τ sig) (W11 m ρ c) ∗ beside c)
  X c := iprop(∃ r, prngReg c r)
  Y c := iprop(∃ r, prngReg c r)
  Z c := Pipeline.unscopedRest (Ix := Unit) (Name := ℕ) (U := UR sig nD τ) (Lvl := ℕ) spec1 c (E1 m ρ c)
  hentry c := by
    rw [Pipeline.ownSems0_none]
    have hsplit := Pipeline.arrays_of_unscopedBufs (p := 1) (pcfgs (F := F)) noTables (pdats m ρ) launch1.win launch1.arr_whole c
      ((pdats m ρ 1 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (E1 m ρ) c).Φ 0 from rfl]
    have hA : (iprop(iprop(∃ r, prngReg c r) ∗ Pipeline.prefHeld (pcfgs (F := F) 1).pre c (fun _ => fullShare) (noTables (F := F) 1).1 ∗ Pipeline.scopedRest (Pipeline.pin (pcfgs (F := F)) noTables 1).spec c) : sProp 𝕄)
        ⊢ Pipeline.ΦA spec1 c := by
      unfold Pipeline.ΦA
      iintro ⟨Hp, -, Hr⟩
      isplitl [Hr]; · iexact Hr
      iexact Hp
    exact hA.trans (enter1 (E1 m ρ) c)
  hout c := by
    rw [Pipeline.ownSems0_none, show (pdats m ρ 1 c).Φ (Fin.last _) = (dat1 (E1 m ρ) c).Φ (Fin.last cfg1.N) from rfl]
    have hB : (Pipeline.ΦA spec1 c : sProp 𝕄)
        ⊢ iprop(iprop(∃ r, prngReg c r) ∗ BI.emp ∗ Pipeline.scopedRest (Pipeline.pin (pcfgs (F := F)) noTables 1).spec c) := by
      unfold Pipeline.ΦA
      iintro ⟨Hr, Hp⟩
      isplitl [Hp]; · iexact Hp
      isplitr; · iempintro
      iexact Hr
    exact (leave1 (E1 m ρ) c).trans hB
  hexit c := by
    have hjoin := Pipeline.unscopedBufs_of_arrays (p := 1) (pcfgs (F := F)) noTables (Ix := Unit) (Name := ℕ) (U := UR sig nD τ) (Lvl := ℕ)
      launch1.win launch1.arr_whole c (pdats m ρ) ((pdats m ρ 1 c).share_full fun _ => rfl)
      (E1 m ρ c) (X1 m ρ c) ((pdats m ρ 1 c).arrAt · cfg1.N) (exitArr1 m ρ c) (exitRest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- @main's twelve items in order. -/
abbrev items : List (Pipeline.Seg (pcfgs (F := F)) noTables (pdats m ρ) () defs₀ noVariants noPairs noLevel) :=
  [ .host (stretch hostOps0 hostOps0_sub hostOps0_fresh (W0 m ρ)),
    .host (stretch hostOps0_1 hostOps0_1_sub hostOps0_1_fresh (W1 m ρ)),
    .host (stretch hostOps0_2 hostOps0_2_sub hostOps0_2_fresh (W2 m ρ)),
    .host (stretch hostOps0_3 hostOps0_3_sub hostOps0_3_fresh (W3 m ρ)),
    .host (stretch hostOps0_4 hostOps0_4_sub hostOps0_4_fresh (W4 m ρ)),
    .host (stretch hostOps0_5 hostOps0_5_sub hostOps0_5_fresh (W5 m ρ)),
    .host (stretch hostOps0_6 hostOps0_6_sub hostOps0_6_fresh (W6 m ρ)),
    .host (stretch hostOps0_7 hostOps0_7_sub hostOps0_7_fresh (W7 m ρ)),
    .region (launchItem0 m ρ),
    .host (stretch hostOps1 hostOps1_sub hostOps1_fresh (W9 m ρ)),
    .region (launchItem1 m ρ),
    .host (stretch hostOps2 hostOps2_sub hostOps2_fresh (W11 m ρ)) ]

theorem main_items (c : Dev nD) : main (F := F) c = Pipeline.Seg.run (items m ρ) := (main_chain c).trans (by chain_rfl)

/-- After the closing stretch the generator register joins the buffers and the core owes nothing. -/
theorem closing (c : Dev nD) :
    (iprop(StableHlo.held (c : Thread nD τ) (Pipeline.ucRefs τ sig) (W12 m ρ c) ∗ beside c) : sProp 𝕄)
      ⊢ iprop(atEnd m ρ c ∗ ∃ W, owes (c : Thread nD τ) (0 : CellTallies nD τ sig Unit) W) := by
  iintro ⟨Hh, Hp, Ho⟩
  isplitl [Hh Hp]
  · isplitl [Hh]; · iexact Hh
    iexact Hp
  iexact Ho

set_option backward.isDefEq.respectTransparency.types false in
/-- THE RUN: from any memory with zero counters every weakly fair execution of @main terminates, nothing faulting, and
    every final state holds each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit (pcfgs (F := F)) noTables (pdats m ρ) () cellOf_inj emb₁ defs₀ noVariants noPairs noLevel m ρ main (items m ρ)
    (fun c Q => by rw [main_items m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ beside c)) (Tₙ := atEnd m ρ)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun c => closing m ρ c⟩)
    (hinit := by
      refine Pipeline.initEach noPairs noLevel fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c => h c)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W12_main_arg0 m ρ c),
     (h c _ (mem_uc main_arg1 (by decide))).trans (W12_main_arg1 m ρ c)⟩) (run_all m ρ)

end Cert.Kernel.RowMax

end
-- ==== Proof.R0Base.lean ====
/-
  One region of the program (one launch of the row-maximum kernel): what the three cases of its body share.

  The grid is 4 × 8, point t = 8·i + j. Row block i of the left operand (2048 rows) stays in its buffer while the
  eight column blocks j of the right operand (1024 rows each) stream by. The body keeps a running row maximum in a
  scratch column: reset to −∞ at j = 0, updated at every j, and copied to the output block at j = 7. So a point is in
  one of three cases, decided by t mod 8: first (0), middle (1 … 6), last (7).
-/
import proofs.«171457_j18339510354596_1_alg».proof.Proof.Gen.KernelIdeal.Launch
import proofs.«171457_j18339510354596_1_alg».proof.Proof.Gen.KernelIdeal.Skeleton
import proofs.«171457_j18339510354596_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.RowMax

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the TensorCore's buffer contents when the region is entered
variable (V : (c : Dev nD) → (b : Ref sig .tc) → Buf (Elt F) ((c : Thread nD τ).loc b))

/-- Window `w`'s block at point `t`, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left operand's buffer holds row block i at every point of the row, fetched there or not. -/
theorem before0_lhs_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- The right operand's buffer holds column block j at every point. -/
theorem before0_rhs_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

end

/-! ## The two branch conditions, decided over the grid -/

/-- "j = 0": the accumulator is reset. -/
abbrev isFirst0 (i : grid0.Coords) : Prop := (Scalar.cmpi .ne (Scalar.extui (Scalar.cmpi .eq (BitVec.ofNat 32 (i 1).val) 0#32)) 0#32) = 1#1
theorem isFirst0_iff : ∀ t : Fin cfg0.N, isFirst0 (grid0.coords t) ↔ t.val % 8 = 0 :=
  (by decide +kernel : ∀ t : Fin grid0.N, isFirst0 (grid0.coords t) ↔ t.val % 8 = 0)

/-- "j = 7": the accumulator is copied out. -/
abbrev isLast0 (i : grid0.Coords) : Prop := k0_cond2 i = 1#1
theorem isLast0_iff : ∀ t : Fin cfg0.N, isLast0 (grid0.coords t) ↔ t.val % 8 = 7 :=
  (by decide +kernel : ∀ t : Fin grid0.N, isLast0 (grid0.coords t) ↔ t.val % 8 = 7)

/-! ## Where the windows are idle -/

theorem live0_lhs : ∀ t : Fin cfg0.N, cfg0.idle 0 (grid0.coords t) = false := by decide +kernel
theorem live0_rhs : ∀ t : Fin cfg0.N, cfg0.idle 1 (grid0.coords t) = false := by decide +kernel
/-- Away from j = 7 the output block is neither stored into nor written back. -/
theorem idle0_out : ∀ t : Fin cfg0.N, ¬isLast0 (grid0.coords t) → cfg0.idle 2 (grid0.coords t) = true := by decide +kernel
theorem noFlush0_out : ∀ t : Fin cfg0.N, ¬isLast0 (grid0.coords t) → (cfg0.win 2).flush t = false := by decide +kernel
theorem live0_out : ∀ t : Fin cfg0.N, isLast0 (grid0.coords t) → cfg0.idle 2 (grid0.coords t) = false := by decide +kernel

/-! ## The memrefs the body is called with -/

abbrev lhsM0 (t : Fin cfg0.N) : Memref sig .tc .vmem S2048x768 .bf16 := win0_0.stage (cfg0.slots t 0)
abbrev lhsW0 (t : Fin cfg0.N) : (lhsM0 t).IsWhole := hstage0_0 ((cfg0.slots t 0).cast nbuf0_0)
abbrev rhsM0 (t : Fin cfg0.N) : Memref sig .tc .vmem S1024x768 .bf16 := win0_1.stage (cfg0.slots t 1)
abbrev rhsW0 (t : Fin cfg0.N) : (rhsM0 t).IsWhole := hstage0_1 ((cfg0.slots t 1).cast nbuf0_1)
abbrev outM0 (t : Fin cfg0.N) : Memref sig .tc .vmem S2048x1 .f32 := win0_2.stage (cfg0.slots t 2)
abbrev outW0 (t : Fin cfg0.N) : (outM0 t).IsWhole := hstage0_2 ((cfg0.slots t 2).cast nbuf0_2)
/-- The scratch column that carries the running maximum. -/
abbrev accM0 : Memref sig .tc .vmem S2048x1 .f32 := Memref.whole cc0_scratch0
/-- Views through which a buffer's contents after the body's stores are stated. -/
abbrev accV0 : View sig .tc .vmem S2048x1 .f32 := accM0.view
abbrev outV0 : View sig .tc .vmem S2048x1 .f32 := (Memref.whole cc0_stg2_0 : Memref sig .tc .vmem S2048x1 .f32).view

/-- The scoped buffers of the core that this launch neither stages through nor uses: the other launch's. -/
def idleScoped0 (c : Dev nD) : sProp 𝕄 :=
  iprop((∃ d, owns (c : Thread nD τ) (Memref.whole cc1_stg0_0) fullShare d) ∗ (∃ d, owns (c : Thread nD τ) (Memref.whole cc1_stg0_1) fullShare d)
    ∗ (∃ d, owns (c : Thread nD τ) (Memref.whole cc1_stg1_0) fullShare d) ∗ (∃ d, owns (c : Thread nD τ) (Memref.whole cc1_stg1_1) fullShare d)
    ∗ (∃ d, owns (c : Thread nD τ) (Memref.whole cc1_stg2_0) fullShare d) ∗ (∃ d, owns (c : Thread nD τ) (Memref.whole cc1_stg2_1) fullShare d)
    ∗ (∃ d, owns (c : Thread nD τ) (Memref.whole cc1_scratch0) fullShare d))

end Cert.KernelIdeal.RowMax

end
-- ==== Proof.R0Rest.lean ====
/-
  Region 0's resting invariant (the core's scoped buffers that are no staging buffer of the region, each at some
  contents, and the generator register) taken apart into the scratch column, region 1's buffers and the register,
  and put together again.
-/
import proofs.«171457_j18339510354596_1_alg».proof.Proof.R0Base

set_option maxRecDepth 16384

noncomputable section

namespace Cert.KernelIdeal.RowMax

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem rest0_open (c : Dev nD) :
    (Pipeline.ΦA spec0 c : sProp 𝕄)
      ⊢ iprop(iprop((∃ d, owns (c : Thread nD τ) accM0 fullShare d) ∗ idleScoped0 c) ∗ (∃ r, prngReg c r)) := by
  unfold Pipeline.ΦA idleScoped0; rw [scopedRest0_eq]; simp only [accM0, owns_whole]
  iintro ⟨⟨HS, H1, H2, H3, H4, H5, H6, H7⟩, Hg⟩
  isplitl [HS H1 H2 H3 H4 H5 H6 H7]
  · isplitl [HS]; · iexact HS
    isplitl [H1]; · iexact H1
    isplitl [H2]; · iexact H2
    isplitl [H3]; · iexact H3
    isplitl [H4]; · iexact H4
    isplitl [H5]; · iexact H5
    isplitl [H6]; · iexact H6
    iexact H7
  iexact Hg

theorem rest0_close (c : Dev nD) :
    (iprop(iprop((∃ d, owns (c : Thread nD τ) accM0 fullShare d) ∗ idleScoped0 c) ∗ (∃ r, prngReg c r)) : sProp 𝕄)
      ⊢ Pipeline.ΦA spec0 c := by
  unfold Pipeline.ΦA idleScoped0; rw [scopedRest0_eq]; simp only [accM0, owns_whole]
  iintro ⟨⟨HS, H1, H2, H3, H4, H5, H6, H7⟩, Hg⟩
  isplitl [HS H1 H2 H3 H4 H5 H6 H7]
  · isplitl [HS]; · iexact HS
    isplitl [H1]; · iexact H1
    isplitl [H2]; · iexact H2
    isplitl [H3]; · iexact H3
    isplitl [H4]; · iexact H4
    isplitl [H5]; · iexact H5
    isplitl [H6]; · iexact H6
    iexact H7
  iexact Hg

end Cert.KernelIdeal.RowMax

end
-- ==== Proof.R0First.lean ====
/-
  First point of a row (j = 0): the body resets the scratch column to −∞, then folds the first column
  block in. The output block is not touched. The stores the body leaves in the scratch column are found by running it.
-/
import proofs.«171457_j18339510354596_1_alg».proof.Proof.R0Base

set_option maxRecDepth 16384

noncomputable section

namespace Cert.KernelIdeal.RowMax

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave (last first) in the output buffer (none) and in the scratch column, with the
    body's triple: the operand blocks and the untouched output buffer come back as they were. -/
noncomputable def bodyFirst0 (c : Dev nD) (i : grid0.Coords) (arg2 : Memref sig .tc .vmem S2048x768 .bf16) (harg2 : arg2.IsWhole) (arg3 : Memref sig .tc .vmem S1024x768 .bf16) (harg3 : arg3.IsWhole) (arg4 : Memref sig .tc .vmem S2048x1 .f32) (harg4 : arg4.IsWhole) (arg5 : Memref sig .tc .vmem S2048x1 .f32) (harg5 : arg5.IsWhole) (hf : isFirst0 i) (hl : ¬isLast0 i)
    (x0 : Vec F S2048x768 .bf16) (x1 : Vec F S1024x768 .bf16) :
    Σ' (LO : List (View.Piece (Elt F) S2048x1 .f32)), { LS : List (View.Piece (Elt F) S2048x1 .f32) //
      ∀ (xo : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare xo ∗ (∃ d, owns (c : Thread nD τ) arg5 fullShare d)
            ∗ (iprop(owns (c : Thread nD τ) arg2 fullShare x0 ∗ owns (c : Thread nD τ) arg3 fullShare x1 ∗ owns (c : Thread nD τ) arg4 fullShare xo ∗ (∃ f, arg5.view.loc (c : Thread nD τ) ↦[arg5.view.set]{fullShare} arg5.view.writes (Elt F) f LS)) -∗ K ⟨⟩))
          ⊢ wp frame (wpE (defs₀ (F := F)) Variants.none c none) E (cc0__rowmax_kernel i arg2 harg2 arg3 harg3 arg4 harg4 arg5 harg5) K } := by
  refine ⟨[], ?_, fun xo E K => ?run⟩
  case run =>
    simp only [cc0__rowmax_kernel_eq_skeleton]; unfold cc0__rowmax_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.KernelIdeal.RowMax

end
-- ==== Proof.R0Mid.lean ====
/-
  A middle point of a row (0 < j < 7): the body folds column block j into the scratch column, which holds
  what the point before left. The output block is not touched.
-/
import proofs.«171457_j18339510354596_1_alg».proof.Proof.R0Base

set_option maxRecDepth 16384

noncomputable section

namespace Cert.KernelIdeal.RowMax

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def bodyMid0 (c : Dev nD) (i : grid0.Coords) (arg2 : Memref sig .tc .vmem S2048x768 .bf16) (harg2 : arg2.IsWhole) (arg3 : Memref sig .tc .vmem S1024x768 .bf16) (harg3 : arg3.IsWhole) (arg4 : Memref sig .tc .vmem S2048x1 .f32) (harg4 : arg4.IsWhole) (arg5 : Memref sig .tc .vmem S2048x1 .f32) (harg5 : arg5.IsWhole) (hf : ¬isFirst0 i) (hl : ¬isLast0 i)
    (x0 : Vec F S2048x768 .bf16) (x1 : Vec F S1024x768 .bf16) (xs : Vec F S2048x1 .f32) :
    Σ' (LO : List (View.Piece (Elt F) S2048x1 .f32)), { LS : List (View.Piece (Elt F) S2048x1 .f32) //
      ∀ (xo : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare xo ∗ owns (c : Thread nD τ) arg5 fullShare xs
            ∗ (iprop(owns (c : Thread nD τ) arg2 fullShare x0 ∗ owns (c : Thread nD τ) arg3 fullShare x1 ∗ owns (c : Thread nD τ) arg4 fullShare xo ∗ (∃ f, arg5.view.loc (c : Thread nD τ) ↦[arg5.view.set]{fullShare} arg5.view.writes (Elt F) f LS)) -∗ K ⟨⟩))
          ⊢ wp frame (wpE (defs₀ (F := F)) Variants.none c none) E (cc0__rowmax_kernel i arg2 harg2 arg3 harg3 arg4 harg4 arg5 harg5) K } := by
  refine ⟨[], ?_, fun xo E K => ?run⟩
  case run =>
    simp only [cc0__rowmax_kernel_eq_skeleton]; unfold cc0__rowmax_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.KernelIdeal.RowMax

end
-- ==== Proof.R0Last.lean ====
/-
  Last point of a row (j = 7): the body folds the last column block into the scratch column and copies the
  column to the output block.
-/
import proofs.«171457_j18339510354596_1_alg».proof.Proof.R0Base

set_option maxRecDepth 16384

noncomputable section

namespace Cert.KernelIdeal.RowMax

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def bodyLast0 (c : Dev nD) (i : grid0.Coords) (arg2 : Memref sig .tc .vmem S2048x768 .bf16) (harg2 : arg2.IsWhole) (arg3 : Memref sig .tc .vmem S1024x768 .bf16) (harg3 : arg3.IsWhole) (arg4 : Memref sig .tc .vmem S2048x1 .f32) (harg4 : arg4.IsWhole) (arg5 : Memref sig .tc .vmem S2048x1 .f32) (harg5 : arg5.IsWhole) (hf : ¬isFirst0 i) (hl : isLast0 i)
    (x0 : Vec F S2048x768 .bf16) (x1 : Vec F S1024x768 .bf16) (xs : Vec F S2048x1 .f32) :
    Σ' (LO : List (View.Piece (Elt F) S2048x1 .f32)), { LS : List (View.Piece (Elt F) S2048x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f LO) ∗ (∃ f, arg5.view.loc (c : Thread nD τ) ↦[arg5.view.set]{fullShare} arg5.view.writes (Elt F) f LS)) -∗ K ⟨⟩))
          ⊢ wp frame (wpE (defs₀ (F := F)) Variants.none c none) E (cc0__rowmax_kernel i arg2 harg2 arg3 harg3 arg4 harg4 arg5 harg5) K } := by
  refine ⟨?_, ?_, fun E K => ?run⟩
  case run =>
    simp only [cc0__rowmax_kernel_eq_skeleton]; unfold cc0__rowmax_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.KernelIdeal.RowMax

end
-- ==== Proof.R0Frame.lean ====
/-
  One region of the program (one launch of the row-maximum kernel): what the scratch column and the output block hold after each point, the proof data of the pipeline, and
  the body obligation.

  After point t = 8·i + j the scratch column holds the running row maximum over column blocks 0 … j of row block i
  (by recursion on the point: the first point of a row starts from the reset, every other point from what
  the point before left). The region's invariant carries the column at exactly that value; the output block is stored
  only at j = 7, where it receives the column.
-/
import proofs.«171457_j18339510354596_1_alg».proof.Proof.R0Rest
import proofs.«171457_j18339510354596_1_alg».proof.Proof.R0First
import proofs.«171457_j18339510354596_1_alg».proof.Proof.R0Mid
import proofs.«171457_j18339510354596_1_alg».proof.Proof.R0Last

set_option maxRecDepth 16384

noncomputable section

namespace Cert.KernelIdeal.RowMax

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

theorem accCover_first0 (c : Dev nD) (i : grid0.Coords) (arg2 : Memref sig .tc .vmem S2048x768 .bf16) (harg2 : arg2.IsWhole) (arg3 : Memref sig .tc .vmem S1024x768 .bf16) (harg3 : arg3.IsWhole) (arg4 : Memref sig .tc .vmem S2048x1 .f32) (harg4 : arg4.IsWhole) (arg5 : Memref sig .tc .vmem S2048x1 .f32) (harg5 : arg5.IsWhole) (hf : isFirst0 i) (hl : ¬isLast0 i)
    (x0 : Vec F S2048x768 .bf16) (x1 : Vec F S1024x768 .bf16) (y : S2048x1.Idx) :
    ∃ pc ∈ (bodyFirst0 c i arg2 harg2 arg3 harg3 arg4 harg4 arg5 harg5 hf hl x0 x1).2.1, y ∈ pc.1.set :=
  View.cover_of_tiledL (bodyFirst0 c i arg2 harg2 arg3 harg3 arg4 harg4 arg5 harg5 hf hl x0 x1).2.1 S2048x1.size (by sl_kernel_rfl) y

/-- The scratch column after a first point: the stores read back. -/
def accFirst0 (c : Dev nD) (i : grid0.Coords) (arg2 : Memref sig .tc .vmem S2048x768 .bf16) (harg2 : arg2.IsWhole) (arg3 : Memref sig .tc .vmem S1024x768 .bf16) (harg3 : arg3.IsWhole) (arg4 : Memref sig .tc .vmem S2048x1 .f32) (harg4 : arg4.IsWhole) (arg5 : Memref sig .tc .vmem S2048x1 .f32) (harg5 : arg5.IsWhole) (hf : isFirst0 i) (hl : ¬isLast0 i)
    (x0 : Vec F S2048x768 .bf16) (x1 : Vec F S1024x768 .bf16) : Vec F S2048x1 .f32 :=
  accV0.read (Elt F) (accV0.writes (Elt F) accV0.junk (bodyFirst0 c i arg2 harg2 arg3 harg3 arg4 harg4 arg5 harg5 hf hl x0 x1).2.1)

theorem accCover_mid0 (c : Dev nD) (i : grid0.Coords) (arg2 : Memref sig .tc .vmem S2048x768 .bf16) (harg2 : arg2.IsWhole) (arg3 : Memref sig .tc .vmem S1024x768 .bf16) (harg3 : arg3.IsWhole) (arg4 : Memref sig .tc .vmem S2048x1 .f32) (harg4 : arg4.IsWhole) (arg5 : Memref sig .tc .vmem S2048x1 .f32) (harg5 : arg5.IsWhole) (hf : ¬isFirst0 i) (hl : ¬isLast0 i)
    (x0 : Vec F S2048x768 .bf16) (x1 : Vec F S1024x768 .bf16) (xs : Vec F S2048x1 .f32) (y : S2048x1.Idx) :
    ∃ pc ∈ (bodyMid0 c i arg2 harg2 arg3 harg3 arg4 harg4 arg5 harg5 hf hl x0 x1 xs).2.1, y ∈ pc.1.set :=
  View.cover_of_tiledL (bodyMid0 c i arg2 harg2 arg3 harg3 arg4 harg4 arg5 harg5 hf hl x0 x1 xs).2.1 S2048x1.size (by sl_kernel_rfl) y

/-- The scratch column after a middle point, from what the point before left in it. -/
def accMid0 (c : Dev nD) (i : grid0.Coords) (arg2 : Memref sig .tc .vmem S2048x768 .bf16) (harg2 : arg2.IsWhole) (arg3 : Memref sig .tc .vmem S1024x768 .bf16) (harg3 : arg3.IsWhole) (arg4 : Memref sig .tc .vmem S2048x1 .f32) (harg4 : arg4.IsWhole) (arg5 : Memref sig .tc .vmem S2048x1 .f32) (harg5 : arg5.IsWhole) (hf : ¬isFirst0 i) (hl : ¬isLast0 i)
    (x0 : Vec F S2048x768 .bf16) (x1 : Vec F S1024x768 .bf16) (xs : Vec F S2048x1 .f32) : Vec F S2048x1 .f32 :=
  accV0.read (Elt F) (accV0.writes (Elt F) accV0.junk (bodyMid0 c i arg2 harg2 arg3 harg3 arg4 harg4 arg5 harg5 hf hl x0 x1 xs).2.1)

theorem accCover_last0 (c : Dev nD) (i : grid0.Coords) (arg2 : Memref sig .tc .vmem S2048x768 .bf16) (harg2 : arg2.IsWhole) (arg3 : Memref sig .tc .vmem S1024x768 .bf16) (harg3 : arg3.IsWhole) (arg4 : Memref sig .tc .vmem S2048x1 .f32) (harg4 : arg4.IsWhole) (arg5 : Memref sig .tc .vmem S2048x1 .f32) (harg5 : arg5.IsWhole) (hf : ¬isFirst0 i) (hl : isLast0 i)
    (x0 : Vec F S2048x768 .bf16) (x1 : Vec F S1024x768 .bf16) (xs : Vec F S2048x1 .f32) (y : S2048x1.Idx) :
    ∃ pc ∈ (bodyLast0 c i arg2 harg2 arg3 harg3 arg4 harg4 arg5 harg5 hf hl x0 x1 xs).2.1, y ∈ pc.1.set :=
  View.cover_of_tiledL (bodyLast0 c i arg2 harg2 arg3 harg3 arg4 harg4 arg5 harg5 hf hl x0 x1 xs).2.1 S2048x1.size (by sl_kernel_rfl) y

/-- The scratch column after a last point. -/
def accLast0 (c : Dev nD) (i : grid0.Coords) (arg2 : Memref sig .tc .vmem S2048x768 .bf16) (harg2 : arg2.IsWhole) (arg3 : Memref sig .tc .vmem S1024x768 .bf16) (harg3 : arg3.IsWhole) (arg4 : Memref sig .tc .vmem S2048x1 .f32) (harg4 : arg4.IsWhole) (arg5 : Memref sig .tc .vmem S2048x1 .f32) (harg5 : arg5.IsWhole) (hf : ¬isFirst0 i) (hl : isLast0 i)
    (x0 : Vec F S2048x768 .bf16) (x1 : Vec F S1024x768 .bf16) (xs : Vec F S2048x1 .f32) : Vec F S2048x1 .f32 :=
  accV0.read (Elt F) (accV0.writes (Elt F) accV0.junk (bodyLast0 c i arg2 harg2 arg3 harg3 arg4 harg4 arg5 harg5 hf hl x0 x1 xs).2.1)

theorem outCover_last0 (c : Dev nD) (i : grid0.Coords) (arg2 : Memref sig .tc .vmem S2048x768 .bf16) (harg2 : arg2.IsWhole) (arg3 : Memref sig .tc .vmem S1024x768 .bf16) (harg3 : arg3.IsWhole) (arg4 : Memref sig .tc .vmem S2048x1 .f32) (harg4 : arg4.IsWhole) (arg5 : Memref sig .tc .vmem S2048x1 .f32) (harg5 : arg5.IsWhole) (hf : ¬isFirst0 i) (hl : isLast0 i)
    (x0 : Vec F S2048x768 .bf16) (x1 : Vec F S1024x768 .bf16) (xs : Vec F S2048x1 .f32) (y : S2048x1.Idx) :
    ∃ pc ∈ (bodyLast0 c i arg2 harg2 arg3 harg3 arg4 harg4 arg5 harg5 hf hl x0 x1 xs).1, y ∈ pc.1.set :=
  View.cover_of_tiledL (bodyLast0 c i arg2 harg2 arg3 harg3 arg4 harg4 arg5 harg5 hf hl x0 x1 xs).1 S2048x1.size (by sl_kernel_rfl) y

/-- The output block after a last point. -/
def outLast0 (c : Dev nD) (i : grid0.Coords) (arg2 : Memref sig .tc .vmem S2048x768 .bf16) (harg2 : arg2.IsWhole) (arg3 : Memref sig .tc .vmem S1024x768 .bf16) (harg3 : arg3.IsWhole) (arg4 : Memref sig .tc .vmem S2048x1 .f32) (harg4 : arg4.IsWhole) (arg5 : Memref sig .tc .vmem S2048x1 .f32) (harg5 : arg5.IsWhole) (hf : ¬isFirst0 i) (hl : isLast0 i)
    (x0 : Vec F S2048x768 .bf16) (x1 : Vec F S1024x768 .bf16) (xs : Vec F S2048x1 .f32) : Vec F S2048x1 .f32 :=
  outV0.read (Elt F) (outV0.writes (Elt F) outV0.junk (bodyLast0 c i arg2 harg2 arg3 harg3 arg4 harg4 arg5 harg5 hf hl x0 x1 xs).1)

/-! ## The same at a grid point, on the point's memrefs and operand blocks -/

theorem first_of_mod0 {t : Fin cfg0.N} (h0 : t.val % 8 = 0) : isFirst0 (grid0.coords t) := (isFirst0_iff t).mpr h0
theorem notFirst_of_mod0 {t : Fin cfg0.N} (h0 : ¬t.val % 8 = 0) : ¬isFirst0 (grid0.coords t) := fun h => h0 ((isFirst0_iff t).mp h)
theorem last_of_mod0 {t : Fin cfg0.N} (h7 : t.val % 8 = 7) : isLast0 (grid0.coords t) := (isLast0_iff t).mpr h7
theorem notLast_of_mod0 {t : Fin cfg0.N} (h7 : ¬t.val % 8 = 7) : ¬isLast0 (grid0.coords t) := fun h => h7 ((isLast0_iff t).mp h)
theorem notLast_of_first0 {t : Fin cfg0.N} (h0 : t.val % 8 = 0) : ¬isLast0 (grid0.coords t) := fun h => by have := (isLast0_iff t).mp h; omega

def accFirstAt0 (c : Dev nD) (t : Fin cfg0.N) (h0 : t.val % 8 = 0) : Vec F S2048x1 .f32 :=
  accFirst0 c (grid0.coords t) (lhsM0 t) (lhsW0 t) (rhsM0 t) (rhsW0 t) (outM0 t) (outW0 t) accM0 (Memref.isWhole_whole _) (first_of_mod0 h0) (notLast_of_first0 h0) (blk0 V c 0 t) (blk0 V c 1 t)
def accMidAt0 (c : Dev nD) (t : Fin cfg0.N) (h0 : ¬t.val % 8 = 0) (h7 : ¬t.val % 8 = 7) (xs : Vec F S2048x1 .f32) : Vec F S2048x1 .f32 :=
  accMid0 c (grid0.coords t) (lhsM0 t) (lhsW0 t) (rhsM0 t) (rhsW0 t) (outM0 t) (outW0 t) accM0 (Memref.isWhole_whole _) (notFirst_of_mod0 h0) (notLast_of_mod0 h7) (blk0 V c 0 t) (blk0 V c 1 t) xs
def accLastAt0 (c : Dev nD) (t : Fin cfg0.N) (h0 : ¬t.val % 8 = 0) (h7 : t.val % 8 = 7) (xs : Vec F S2048x1 .f32) : Vec F S2048x1 .f32 :=
  accLast0 c (grid0.coords t) (lhsM0 t) (lhsW0 t) (rhsM0 t) (rhsW0 t) (outM0 t) (outW0 t) accM0 (Memref.isWhole_whole _) (notFirst_of_mod0 h0) (last_of_mod0 h7) (blk0 V c 0 t) (blk0 V c 1 t) xs
def outLastAt0 (c : Dev nD) (t : Fin cfg0.N) (h0 : ¬t.val % 8 = 0) (h7 : t.val % 8 = 7) (xs : Vec F S2048x1 .f32) : Vec F S2048x1 .f32 :=
  outLast0 c (grid0.coords t) (lhsM0 t) (lhsW0 t) (rhsM0 t) (rhsW0 t) (outM0 t) (outW0 t) accM0 (Memref.isWhole_whole _) (notFirst_of_mod0 h0) (last_of_mod0 h7) (blk0 V c 0 t) (blk0 V c 1 t) xs

/-! ## The running maximum, point by point -/

/-- What the scratch column holds after the point at position `n`. -/
def accAt0 (c : Dev nD) : (n : ℕ) → n < cfg0.N → Vec F S2048x1 .f32
  | 0, hn => accFirstAt0 V c ⟨0, hn⟩ (Nat.zero_mod _)
  | n + 1, hn =>
    if h0 : (n + 1) % 8 = 0 then accFirstAt0 V c ⟨n + 1, hn⟩ h0
    else if h7 : (n + 1) % 8 = 7 then accLastAt0 V c ⟨n + 1, hn⟩ h0 h7 (accAt0 c n (Nat.lt_of_succ_lt hn))
    else accMidAt0 V c ⟨n + 1, hn⟩ h0 h7 (accAt0 c n (Nat.lt_of_succ_lt hn))

theorem prev_lt0 (t : Fin cfg0.N) : t.val - 1 < cfg0.N := Nat.lt_of_le_of_lt (Nat.sub_le _ _) t.isLt

theorem accAt0_first (c : Dev nD) (t : Fin cfg0.N) (h0 : t.val % 8 = 0) :
    accAt0 V c t.val t.isLt = accFirstAt0 V c t h0 := by
  obtain ⟨n, hn⟩ := t
  cases n with
  | zero => exact rfl
  | succ n => exact (dif_pos h0).trans rfl

theorem accAt0_mid (c : Dev nD) (t : Fin cfg0.N) (h0 : ¬t.val % 8 = 0) (h7 : ¬t.val % 8 = 7) :
    accAt0 V c t.val t.isLt = accMidAt0 V c t h0 h7 (accAt0 V c (t.val - 1) (prev_lt0 t)) := by
  obtain ⟨n, hn⟩ := t
  cases n with
  | zero => exact (by exfalso; (try dsimp only at h0); exact absurd (Nat.zero_mod _) h0)
  | succ n => exact (dif_neg h0).trans ((dif_neg h7).trans rfl)

theorem accAt0_last (c : Dev nD) (t : Fin cfg0.N) (h0 : ¬t.val % 8 = 0) (h7 : t.val % 8 = 7) :
    accAt0 V c t.val t.isLt = accLastAt0 V c t h0 h7 (accAt0 V c (t.val - 1) (prev_lt0 t)) := by
  obtain ⟨n, hn⟩ := t
  cases n with
  | zero => exact (by exfalso; (try dsimp only at h0); exact absurd (Nat.zero_mod _) h0)
  | succ n => exact (dif_neg h0).trans ((dif_pos h7).trans rfl)

/-- What the output block's buffer holds after point `t`: at a last point the copy of the column; elsewhere the
    body does not store into it and the pipeline does not write it back, so the value is never consulted. -/
def outAt0 (c : Dev nD) (t : Fin cfg0.N) : Vec F S2048x1 .f32 :=
  if h7 : t.val % 8 = 7 then outLastAt0 V c t (by omega) h7 (accAt0 V c (t.val - 1) (prev_lt0 t))
  else outV0.read (Elt F) outV0.junk

theorem outAt0_last (c : Dev nD) (t : Fin cfg0.N) (h0 : ¬t.val % 8 = 0) (h7 : t.val % 8 = 7) :
    outAt0 V c t = outLastAt0 V c t h0 h7 (accAt0 V c (t.val - 1) (prev_lt0 t)) := dif_pos h7

/-! ## The region's invariant -/

/-- Before the point at position `n`: before the first point the resting invariant (the scratch column at anything);
    afterwards the column at what the point before left, the other launch's buffers and the generator register untouched. -/
def inv0 (c : Dev nD) : (n : ℕ) → n ≤ cfg0.N → sProp 𝕄
  | 0, _ => Pipeline.ΦA spec0 c
  | n + 1, hn => iprop(iprop(owns (c : Thread nD τ) accM0 fullShare (accAt0 V c n hn) ∗ idleScoped0 c) ∗ (∃ r, prngReg c r))

theorem inv0_zero (c : Dev nD) (n : ℕ) (h : n ≤ cfg0.N) (hz : n = 0) : inv0 V c n h = Pipeline.ΦA spec0 c := by
  subst hz; rfl

theorem inv0_succ (c : Dev nD) (n : ℕ) (hn : n < cfg0.N) :
    inv0 V c (n + 1) hn = iprop(iprop(owns (c : Thread nD τ) accM0 fullShare (accAt0 V c n hn) ∗ idleScoped0 c) ∗ (∃ r, prngReg c r)) := rfl

theorem inv0_pos (c : Dev nD) (n : ℕ) (h : n ≤ cfg0.N) (hz : n ≠ 0) :
    inv0 V c n h = iprop(iprop(owns (c : Thread nD τ) accM0 fullShare (accAt0 V c (n - 1) (by omega)) ∗ idleScoped0 c) ∗ (∃ r, prngReg c r)) := by
  cases n with
  | zero => exact absurd rfl hz
  | succ n => rfl

/-! ## The pipeline's proof data -/

def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => outAt0 V c t
  Φ t := inv0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem inv0_castSucc (c : Dev nD) (t : Fin cfg0.N) :
    (dat0 V c).Φ t.castSucc = inv0 V c t.val (Nat.le_of_lt t.isLt) := by
  dsimp only [dat0]; simp only [Fin.coe_castSucc]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = outAt0 V c t := by dsimp only [dat0]

theorem before0_0 (c : Dev nD) (t : Fin cfg0.N) (d) : (dat0 V c).before 0 t d = blk0 V c 0 t :=
  before0_lhs_of V (dat0 V c) (A_eq0 V c 0) (after0_0 V c) t d
theorem before0_1 (c : Dev nD) (t : Fin cfg0.N) (d) : (dat0 V c).before 1 t d = blk0 V c 1 t :=
  before0_rhs_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (lhsM0 t) fullShare ((dat0 V c).before 0 t d))
    ∗ (∃ d, owns (c : Thread nD τ) (rhsM0 t) fullShare ((dat0 V c).before 1 t d))
    ∗ (∃ d, owns (c : Thread nD τ) (outM0 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = inv0 V c (t.val + 1) t.isLt from rfl, inv0_succ]
  rw [show (dat0 V c).leavesExact 0 t = owns (c : Thread nD τ) (lhsM0 t) fullShare ((dat0 V c).after 0 t) from by
    unfold Dat.leavesExact; rw [live0_lhs t], after0_0]
  rw [show (dat0 V c).leavesExact 1 t = owns (c : Thread nD τ) (rhsM0 t) fullShare ((dat0 V c).after 1 t) from by
    unfold Dat.leavesExact; rw [live0_rhs t], after0_1]
  have hN : t.val < 32 := lt_of_lt_of_eq t.isLt (show cfg0.N = 32 from N_0)
  have hopen := rest0_open (F := F) c
  by_cases h0 : t.val % 8 = 0
  · have hnl := notLast_of_first0 h0
    rw [Dat.leavesExact_idle (dat0 V c) 2 t (idle0_out t hnl) (noFlush0_out t hnl)]
    rw [accAt0_first V c t h0]
    unfold accFirstAt0 accFirst0; (try dsimp only)
    by_cases hz : t.val = 0
    · rw [inv0_castSucc V c t, inv0_zero V c _ _ hz]
      iintro ⟨HI, Ho, ⟨%d0, H0⟩, ⟨%d1, H1⟩, ⟨%d2, H2⟩⟩
      ihave HR := hopen $$ HI
      icases HR with ⟨⟨HS, Hi⟩, Hg⟩
      iapply ((bodyFirst0 c (grid0.coords t) _ _ _ _ _ _ _ _ (first_of_mod0 h0) (notLast_of_first0 h0) (blk0 V c 0 t) (blk0 V c 1 t)).2.2 _ Set.univ _)
      isplitl [H0]; · iexact H0
      isplitl [H1]; · iexact H1
      isplitl [H2]; · iexact H2
      isplitl [HS]; · iexact HS
      iintro ⟨H0, H1, H2, ⟨%es, HS⟩⟩
      isplitl [HS Hi Hg]
      · isplitl [HS Hi]
        · isplitl [HS]
          · unfold owns; iexists _; isplitr
            swap; · iexact HS
            ipureintro; exact View.read_writes_of_cover _ _ _ _ _ (accCover_first0 c _ _ _ _ _ _ _ _ _ _ _ _ _)
          iexact Hi
        iexact Hg
      isplitl [Ho]; · iexact Ho
      isplitl [H0]; · iexact H0
      isplitl [H1]; · iexact H1
      iexists _; iexact H2
    · rw [inv0_castSucc V c t, inv0_pos V c _ _ hz]
      iintro ⟨⟨⟨HS, Hi⟩, Hg⟩, Ho, ⟨%d0, H0⟩, ⟨%d1, H1⟩, ⟨%d2, H2⟩⟩
      iapply ((bodyFirst0 c (grid0.coords t) _ _ _ _ _ _ _ _ (first_of_mod0 h0) (notLast_of_first0 h0) (blk0 V c 0 t) (blk0 V c 1 t)).2.2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS Hi Hg]
      · isplitl [HS Hi]
        · isplitl [HS]
          · unfold owns; iexists _; isplitr
            swap; · iexact HS
            ipureintro; exact View.read_writes_of_cover _ _ _ _ _ (accCover_first0 c _ _ _ _ _ _ _ _ _ _ _ _ _)
          iexact Hi
        iexact Hg
      isplitl [Ho]; · iexact Ho
      isplitl [H0]; · iexact H0
      isplitl [H1]; · iexact H1
      iexists _; iexact H2
  · have hz : t.val ≠ 0 := fun e => h0 (by rw [e])
    by_cases h7 : t.val % 8 = 7
    · rw [show (dat0 V c).leavesExact 2 t = owns (c : Thread nD τ) (outM0 t) fullShare ((dat0 V c).after 2 t) from by
        unfold Dat.leavesExact; rw [live0_out t (last_of_mod0 h7)], after0_2]
      rw [accAt0_last V c t h0 h7, outAt0_last V c t h0 h7]
      unfold accLastAt0 accLast0 outLastAt0 outLast0; (try dsimp only)
      rw [inv0_castSucc V c t, inv0_pos V c _ _ hz]
      iintro ⟨⟨⟨HS, Hi⟩, Hg⟩, Ho, ⟨%d0, H0⟩, ⟨%d1, H1⟩, ⟨%d2, H2⟩⟩
      iapply ((bodyLast0 c (grid0.coords t) _ _ _ _ _ _ _ _ (notFirst_of_mod0 h0) (last_of_mod0 h7) (blk0 V c 0 t) (blk0 V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hi Hg]
      · isplitl [HS Hi]
        · isplitl [HS]
          · unfold owns; iexists _; isplitr
            swap; · iexact HS
            ipureintro; exact View.read_writes_of_cover _ _ _ _ _ (accCover_last0 c _ _ _ _ _ _ _ _ _ _ _ _ _ _)
          iexact Hi
        iexact Hg
      isplitl [Ho]; · iexact Ho
      isplitl [H0]; · iexact H0
      isplitl [H1]; · iexact H1
      unfold owns; iexists _; isplitr
      swap; · iexact H2
      ipureintro; exact View.read_writes_of_cover _ _ _ _ _ (outCover_last0 c _ _ _ _ _ _ _ _ _ _ _ _ _ _)
    · have hnl := notLast_of_mod0 h7
      rw [Dat.leavesExact_idle (dat0 V c) 2 t (idle0_out t hnl) (noFlush0_out t hnl)]
      rw [accAt0_mid V c t h0 h7]
      unfold accMidAt0 accMid0; (try dsimp only)
      rw [inv0_castSucc V c t, inv0_pos V c _ _ hz]
      iintro ⟨⟨⟨HS, Hi⟩, Hg⟩, Ho, ⟨%d0, H0⟩, ⟨%d1, H1⟩, ⟨%d2, H2⟩⟩
      iapply ((bodyMid0 c (grid0.coords t) _ _ _ _ _ _ _ _ (notFirst_of_mod0 h0) (notLast_of_mod0 h7) (blk0 V c 0 t) (blk0 V c 1 t) _).2.2 _ Set.univ _)
      isplitl [H0]; · iexact H0
      isplitl [H1]; · iexact H1
      isplitl [H2]; · iexact H2
      isplitl [HS]; · iexact HS
      iintro ⟨H0, H1, H2, ⟨%es, HS⟩⟩
      isplitl [HS Hi Hg]
      · isplitl [HS Hi]
        · isplitl [HS]
          · unfold owns; iexists _; isplitr
            swap; · iexact HS
            ipureintro; exact View.read_writes_of_cover _ _ _ _ _ (accCover_mid0 c _ _ _ _ _ _ _ _ _ _ _ _ _ _)
          iexact Hi
        iexact Hg
      isplitl [Ho]; · iexact Ho
      isplitl [H0]; · iexact H0
      isplitl [H1]; · iexact H1
      iexists _; iexact H2

theorem body_obligation0 (c : Dev nD) : BodyObligation (dat0 (F := F) V c) (defs₀ (F := F)) Variants.none () Set.univ := fun t => by
  rw [bigSep_W0, bigSep_W0]
  exact sound_body0 V c t

/-- The resting invariant is the region's invariant before the first point, -/
theorem enter0 (c : Dev nD) : Pipeline.ΦA spec0 c ⊢ (dat0 V c).Φ 0 := by
  rw [show (dat0 V c).Φ 0 = inv0 V c 0 (Nat.zero_le _) from rfl, inv0_zero V c 0 _ rfl]
  try exact Idealize.SL.BI.Entails.refl _

/-- and after the last point the invariant gives it back, the column's contents forgotten. -/
theorem leave0 (c : Dev nD) : (dat0 V c).Φ (Fin.last cfg0.N) ⊢ Pipeline.ΦA spec0 c := by
  have hne : (Fin.last cfg0.N).val ≠ 0 := by rw [Fin.val_last]; have : cfg0.N = 32 := N_0; omega
  rw [show (dat0 V c).Φ (Fin.last cfg0.N) = inv0 V c (Fin.last cfg0.N).val (Nat.le_of_lt_succ (Fin.last cfg0.N).isLt) from rfl,
    inv0_pos V c _ _ hne]
  have hforget : ∀ x : Vec F S2048x1 .f32, (iprop(iprop(owns (c : Thread nD τ) accM0 fullShare x ∗ idleScoped0 c) ∗ (∃ r, prngReg c r)) : sProp 𝕄)
      ⊢ iprop(iprop((∃ d, owns (c : Thread nD τ) accM0 fullShare d) ∗ idleScoped0 c) ∗ (∃ r, prngReg c r)) := by
    intro x
    iintro ⟨⟨HS, Hi⟩, Hg⟩
    isplitl [HS Hi]
    · isplitl [HS]
      · iexists _; iexact HS
      iexact Hi
    iexact Hg
  exact (hforget _).trans (rest0_close (F := F) c)

end Cert.KernelIdeal.RowMax

end
-- ==== Proof.R1Base.lean ====
/-
  One region of the program (one launch of the row-maximum kernel): what the three cases of its body share.

  The grid is 4 × 8, point t = 8·i + j. Row block i of the left operand (2048 rows) stays in its buffer while the
  eight column blocks j of the right operand (1024 rows each) stream by. The body keeps a running row maximum in a
  scratch column: reset to −∞ at j = 0, updated at every j, and copied to the output block at j = 7. So a point is in
  one of three cases, decided by t mod 8: first (0), middle (1 … 6), last (7).
-/
import proofs.«171457_j18339510354596_1_alg».proof.Proof.Gen.KernelIdeal.Launch
import proofs.«171457_j18339510354596_1_alg».proof.Proof.Gen.KernelIdeal.Skeleton
import proofs.«171457_j18339510354596_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.RowMax

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the TensorCore's buffer contents when the region is entered
variable (V : (c : Dev nD) → (b : Ref sig .tc) → Buf (Elt F) ((c : Thread nD τ).loc b))

/-- Window `w`'s block at point `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The left operand's buffer holds row block i at every point of the row, fetched there or not. -/
theorem before1_lhs_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- The right operand's buffer holds column block j at every point. -/
theorem before1_rhs_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

end

/-! ## The two branch conditions, decided over the grid -/

/-- "j = 0": the accumulator is reset. -/
abbrev isFirst1 (i : grid1.Coords) : Prop := (Scalar.cmpi .ne (Scalar.extui (Scalar.cmpi .eq (BitVec.ofNat 32 (i 1).val) 0#32)) 0#32) = 1#1
theorem isFirst1_iff : ∀ t : Fin cfg1.N, isFirst1 (grid1.coords t) ↔ t.val % 8 = 0 :=
  (by decide +kernel : ∀ t : Fin grid1.N, isFirst1 (grid1.coords t) ↔ t.val % 8 = 0)

/-- "j = 7": the accumulator is copied out. -/
abbrev isLast1 (i : grid1.Coords) : Prop := k1_cond2 i = 1#1
theorem isLast1_iff : ∀ t : Fin cfg1.N, isLast1 (grid1.coords t) ↔ t.val % 8 = 7 :=
  (by decide +kernel : ∀ t : Fin grid1.N, isLast1 (grid1.coords t) ↔ t.val % 8 = 7)

/-! ## Where the windows are idle -/

theorem live1_lhs : ∀ t : Fin cfg1.N, cfg1.idle 0 (grid1.coords t) = false := by decide +kernel
theorem live1_rhs : ∀ t : Fin cfg1.N, cfg1.idle 1 (grid1.coords t) = false := by decide +kernel
/-- Away from j = 7 the output block is neither stored into nor written back. -/
theorem idle1_out : ∀ t : Fin cfg1.N, ¬isLast1 (grid1.coords t) → cfg1.idle 2 (grid1.coords t) = true := by decide +kernel
theorem noFlush1_out : ∀ t : Fin cfg1.N, ¬isLast1 (grid1.coords t) → (cfg1.win 2).flush t = false := by decide +kernel
theorem live1_out : ∀ t : Fin cfg1.N, isLast1 (grid1.coords t) → cfg1.idle 2 (grid1.coords t) = false := by decide +kernel

/-! ## The memrefs the body is called with -/

abbrev lhsM1 (t : Fin cfg1.N) : Memref sig .tc .vmem S2048x768 .bf16 := win1_0.stage (cfg1.slots t 0)
abbrev lhsW1 (t : Fin cfg1.N) : (lhsM1 t).IsWhole := hstage1_0 ((cfg1.slots t 0).cast nbuf1_0)
abbrev rhsM1 (t : Fin cfg1.N) : Memref sig .tc .vmem S1024x768 .bf16 := win1_1.stage (cfg1.slots t 1)
abbrev rhsW1 (t : Fin cfg1.N) : (rhsM1 t).IsWhole := hstage1_1 ((cfg1.slots t 1).cast nbuf1_1)
abbrev outM1 (t : Fin cfg1.N) : Memref sig .tc .vmem S2048x1 .f32 := win1_2.stage (cfg1.slots t 2)
abbrev outW1 (t : Fin cfg1.N) : (outM1 t).IsWhole := hstage1_2 ((cfg1.slots t 2).cast nbuf1_2)
/-- The scratch column that carries the running maximum. -/
abbrev accM1 : Memref sig .tc .vmem S2048x1 .f32 := Memref.whole cc1_scratch0
/-- Views through which a buffer's contents after the body's stores are stated. -/
abbrev accV1 : View sig .tc .vmem S2048x1 .f32 := accM1.view
abbrev outV1 : View sig .tc .vmem S2048x1 .f32 := (Memref.whole cc1_stg2_0 : Memref sig .tc .vmem S2048x1 .f32).view

/-- The scoped buffers of the core that this launch neither stages through nor uses: the other launch's. -/
def idleScoped1 (c : Dev nD) : sProp 𝕄 :=
  iprop((∃ d, owns (c : Thread nD τ) (Memref.whole cc0_stg0_0) fullShare d) ∗ (∃ d, owns (c : Thread nD τ) (Memref.whole cc0_stg0_1) fullShare d)
    ∗ (∃ d, owns (c : Thread nD τ) (Memref.whole cc0_stg1_0) fullShare d) ∗ (∃ d, owns (c : Thread nD τ) (Memref.whole cc0_stg1_1) fullShare d)
    ∗ (∃ d, owns (c : Thread nD τ) (Memref.whole cc0_stg2_0) fullShare d) ∗ (∃ d, owns (c : Thread nD τ) (Memref.whole cc0_stg2_1) fullShare d)
    ∗ (∃ d, owns (c : Thread nD τ) (Memref.whole cc0_scratch0) fullShare d))

end Cert.KernelIdeal.RowMax

end
-- ==== Proof.R1Rest.lean ====
/-
  The second launch's resting invariant (the core's scoped buffers that are no staging buffer of this launch, each at
  some contents, and the generator register) taken apart into the scratch column, the first launch's buffers and the
  register, and put together again. Here the scratch column comes last among the buffers.
-/
import proofs.«171457_j18339510354596_1_alg».proof.Proof.R1Base

set_option maxRecDepth 16384

noncomputable section

namespace Cert.KernelIdeal.RowMax

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem rest1_open (c : Dev nD) :
    (Pipeline.ΦA spec1 c : sProp 𝕄)
      ⊢ iprop(iprop((∃ d, owns (c : Thread nD τ) accM1 fullShare d) ∗ idleScoped1 c) ∗ (∃ r, prngReg c r)) := by
  unfold Pipeline.ΦA idleScoped1; rw [scopedRest1_eq]; simp only [accM1, owns_whole]
  iintro ⟨⟨H1, H2, H3, H4, H5, H6, H7, HS⟩, Hg⟩
  isplitl [HS H1 H2 H3 H4 H5 H6 H7]
  · isplitl [HS]; · iexact HS
    isplitl [H1]; · iexact H1
    isplitl [H2]; · iexact H2
    isplitl [H3]; · iexact H3
    isplitl [H4]; · iexact H4
    isplitl [H5]; · iexact H5
    isplitl [H6]; · iexact H6
    iexact H7
  iexact Hg

theorem rest1_close (c : Dev nD) :
    (iprop(iprop((∃ d, owns (c : Thread nD τ) accM1 fullShare d) ∗ idleScoped1 c) ∗ (∃ r, prngReg c r)) : sProp 𝕄)
      ⊢ Pipeline.ΦA spec1 c := by
  unfold Pipeline.ΦA idleScoped1; rw [scopedRest1_eq]; simp only [accM1, owns_whole]
  iintro ⟨⟨HS, H1, H2, H3, H4, H5, H6, H7⟩, Hg⟩
  isplitl [HS H1 H2 H3 H4 H5 H6 H7]
  · isplitl [H1]; · iexact H1
    isplitl [H2]; · iexact H2
    isplitl [H3]; · iexact H3
    isplitl [H4]; · iexact H4
    isplitl [H5]; · iexact H5
    isplitl [H6]; · iexact H6
    isplitl [H7]; · iexact H7
    iexact HS
  iexact Hg

end Cert.KernelIdeal.RowMax

end
-- ==== Proof.R1First.lean ====
/-
  First point of a row (j = 0): the body resets the scratch column to −∞, then folds the first column
  block in. The output block is not touched. The stores the body leaves in the scratch column are found by running it.
-/
import proofs.«171457_j18339510354596_1_alg».proof.Proof.R1Base

set_option maxRecDepth 16384

noncomputable section

namespace Cert.KernelIdeal.RowMax

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave (last first) in the output buffer (none) and in the scratch column, with the
    body's triple: the operand blocks and the untouched output buffer come back as they were. -/
noncomputable def bodyFirst1 (c : Dev nD) (i : grid1.Coords) (arg2 : Memref sig .tc .vmem S2048x768 .bf16) (harg2 : arg2.IsWhole) (arg3 : Memref sig .tc .vmem S1024x768 .bf16) (harg3 : arg3.IsWhole) (arg4 : Memref sig .tc .vmem S2048x1 .f32) (harg4 : arg4.IsWhole) (arg5 : Memref sig .tc .vmem S2048x1 .f32) (harg5 : arg5.IsWhole) (hf : isFirst1 i) (hl : ¬isLast1 i)
    (x0 : Vec F S2048x768 .bf16) (x1 : Vec F S1024x768 .bf16) :
    Σ' (LO : List (View.Piece (Elt F) S2048x1 .f32)), { LS : List (View.Piece (Elt F) S2048x1 .f32) //
      ∀ (xo : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare xo ∗ (∃ d, owns (c : Thread nD τ) arg5 fullShare d)
            ∗ (iprop(owns (c : Thread nD τ) arg2 fullShare x0 ∗ owns (c : Thread nD τ) arg3 fullShare x1 ∗ owns (c : Thread nD τ) arg4 fullShare xo ∗ (∃ f, arg5.view.loc (c : Thread nD τ) ↦[arg5.view.set]{fullShare} arg5.view.writes (Elt F) f LS)) -∗ K ⟨⟩))
          ⊢ wp frame (wpE (defs₀ (F := F)) Variants.none c none) E (cc1__rowmax_kernel i arg2 harg2 arg3 harg3 arg4 harg4 arg5 harg5) K } := by
  refine ⟨[], ?_, fun xo E K => ?run⟩
  case run =>
    simp only [cc1__rowmax_kernel_eq_skeleton]; unfold cc1__rowmax_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.KernelIdeal.RowMax

end
-- ==== Proof.R1Mid.lean ====
/-
  A middle point of a row (0 < j < 7): the body folds column block j into the scratch column, which holds
  what the point before left. The output block is not touched.
-/
import proofs.«171457_j18339510354596_1_alg».proof.Proof.R1Base

set_option maxRecDepth 16384

noncomputable section

namespace Cert.KernelIdeal.RowMax

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def bodyMid1 (c : Dev nD) (i : grid1.Coords) (arg2 : Memref sig .tc .vmem S2048x768 .bf16) (harg2 : arg2.IsWhole) (arg3 : Memref sig .tc .vmem S1024x768 .bf16) (harg3 : arg3.IsWhole) (arg4 : Memref sig .tc .vmem S2048x1 .f32) (harg4 : arg4.IsWhole) (arg5 : Memref sig .tc .vmem S2048x1 .f32) (harg5 : arg5.IsWhole) (hf : ¬isFirst1 i) (hl : ¬isLast1 i)
    (x0 : Vec F S2048x768 .bf16) (x1 : Vec F S1024x768 .bf16) (xs : Vec F S2048x1 .f32) :
    Σ' (LO : List (View.Piece (Elt F) S2048x1 .f32)), { LS : List (View.Piece (Elt F) S2048x1 .f32) //
      ∀ (xo : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare xo ∗ owns (c : Thread nD τ) arg5 fullShare xs
            ∗ (iprop(owns (c : Thread nD τ) arg2 fullShare x0 ∗ owns (c : Thread nD τ) arg3 fullShare x1 ∗ owns (c : Thread nD τ) arg4 fullShare xo ∗ (∃ f, arg5.view.loc (c : Thread nD τ) ↦[arg5.view.set]{fullShare} arg5.view.writes (Elt F) f LS)) -∗ K ⟨⟩))
          ⊢ wp frame (wpE (defs₀ (F := F)) Variants.none c none) E (cc1__rowmax_kernel i arg2 harg2 arg3 harg3 arg4 harg4 arg5 harg5) K } := by
  refine ⟨[], ?_, fun xo E K => ?run⟩
  case run =>
    simp only [cc1__rowmax_kernel_eq_skeleton]; unfold cc1__rowmax_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.KernelIdeal.RowMax

end
-- ==== Proof.R1Last.lean ====
/-
  Last point of a row (j = 7): the body folds the last column block into the scratch column and copies the
  column to the output block.
-/
import proofs.«171457_j18339510354596_1_alg».proof.Proof.R1Base

set_option maxRecDepth 16384

noncomputable section

namespace Cert.KernelIdeal.RowMax

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def bodyLast1 (c : Dev nD) (i : grid1.Coords) (arg2 : Memref sig .tc .vmem S2048x768 .bf16) (harg2 : arg2.IsWhole) (arg3 : Memref sig .tc .vmem S1024x768 .bf16) (harg3 : arg3.IsWhole) (arg4 : Memref sig .tc .vmem S2048x1 .f32) (harg4 : arg4.IsWhole) (arg5 : Memref sig .tc .vmem S2048x1 .f32) (harg5 : arg5.IsWhole) (hf : ¬isFirst1 i) (hl : isLast1 i)
    (x0 : Vec F S2048x768 .bf16) (x1 : Vec F S1024x768 .bf16) (xs : Vec F S2048x1 .f32) :
    Σ' (LO : List (View.Piece (Elt F) S2048x1 .f32)), { LS : List (View.Piece (Elt F) S2048x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f LO) ∗ (∃ f, arg5.view.loc (c : Thread nD τ) ↦[arg5.view.set]{fullShare} arg5.view.writes (Elt F) f LS)) -∗ K ⟨⟩))
          ⊢ wp frame (wpE (defs₀ (F := F)) Variants.none c none) E (cc1__rowmax_kernel i arg2 harg2 arg3 harg3 arg4 harg4 arg5 harg5) K } := by
  refine ⟨?_, ?_, fun E K => ?run⟩
  case run =>
    simp only [cc1__rowmax_kernel_eq_skeleton]; unfold cc1__rowmax_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.KernelIdeal.RowMax

end
-- ==== Proof.R1Frame.lean ====
/-
  One region of the program (one launch of the row-maximum kernel): what the scratch column and the output block hold after each point, the proof data of the pipeline, and
  the body obligation.

  After point t = 8·i + j the scratch column holds the running row maximum over column blocks 0 … j of row block i
  (by recursion on the point: the first point of a row starts from the reset, every other point from what
  the point before left). The region's invariant carries the column at exactly that value; the output block is stored
  only at j = 7, where it receives the column.
-/
import proofs.«171457_j18339510354596_1_alg».proof.Proof.R1Rest
import proofs.«171457_j18339510354596_1_alg».proof.Proof.R1First
import proofs.«171457_j18339510354596_1_alg».proof.Proof.R1Mid
import proofs.«171457_j18339510354596_1_alg».proof.Proof.R1Last

set_option maxRecDepth 16384

noncomputable section

namespace Cert.KernelIdeal.RowMax

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

theorem accCover_first1 (c : Dev nD) (i : grid1.Coords) (arg2 : Memref sig .tc .vmem S2048x768 .bf16) (harg2 : arg2.IsWhole) (arg3 : Memref sig .tc .vmem S1024x768 .bf16) (harg3 : arg3.IsWhole) (arg4 : Memref sig .tc .vmem S2048x1 .f32) (harg4 : arg4.IsWhole) (arg5 : Memref sig .tc .vmem S2048x1 .f32) (harg5 : arg5.IsWhole) (hf : isFirst1 i) (hl : ¬isLast1 i)
    (x0 : Vec F S2048x768 .bf16) (x1 : Vec F S1024x768 .bf16) (y : S2048x1.Idx) :
    ∃ pc ∈ (bodyFirst1 c i arg2 harg2 arg3 harg3 arg4 harg4 arg5 harg5 hf hl x0 x1).2.1, y ∈ pc.1.set :=
  View.cover_of_tiledL (bodyFirst1 c i arg2 harg2 arg3 harg3 arg4 harg4 arg5 harg5 hf hl x0 x1).2.1 S2048x1.size (by sl_kernel_rfl) y

/-- The scratch column after a first point: the stores read back. -/
def accFirst1 (c : Dev nD) (i : grid1.Coords) (arg2 : Memref sig .tc .vmem S2048x768 .bf16) (harg2 : arg2.IsWhole) (arg3 : Memref sig .tc .vmem S1024x768 .bf16) (harg3 : arg3.IsWhole) (arg4 : Memref sig .tc .vmem S2048x1 .f32) (harg4 : arg4.IsWhole) (arg5 : Memref sig .tc .vmem S2048x1 .f32) (harg5 : arg5.IsWhole) (hf : isFirst1 i) (hl : ¬isLast1 i)
    (x0 : Vec F S2048x768 .bf16) (x1 : Vec F S1024x768 .bf16) : Vec F S2048x1 .f32 :=
  accV1.read (Elt F) (accV1.writes (Elt F) accV1.junk (bodyFirst1 c i arg2 harg2 arg3 harg3 arg4 harg4 arg5 harg5 hf hl x0 x1).2.1)

theorem accCover_mid1 (c : Dev nD) (i : grid1.Coords) (arg2 : Memref sig .tc .vmem S2048x768 .bf16) (harg2 : arg2.IsWhole) (arg3 : Memref sig .tc .vmem S1024x768 .bf16) (harg3 : arg3.IsWhole) (arg4 : Memref sig .tc .vmem S2048x1 .f32) (harg4 : arg4.IsWhole) (arg5 : Memref sig .tc .vmem S2048x1 .f32) (harg5 : arg5.IsWhole) (hf : ¬isFirst1 i) (hl : ¬isLast1 i)
    (x0 : Vec F S2048x768 .bf16) (x1 : Vec F S1024x768 .bf16) (xs : Vec F S2048x1 .f32) (y : S2048x1.Idx) :
    ∃ pc ∈ (bodyMid1 c i arg2 harg2 arg3 harg3 arg4 harg4 arg5 harg5 hf hl x0 x1 xs).2.1, y ∈ pc.1.set :=
  View.cover_of_tiledL (bodyMid1 c i arg2 harg2 arg3 harg3 arg4 harg4 arg5 harg5 hf hl x0 x1 xs).2.1 S2048x1.size (by sl_kernel_rfl) y

/-- The scratch column after a middle point, from what the point before left in it. -/
def accMid1 (c : Dev nD) (i : grid1.Coords) (arg2 : Memref sig .tc .vmem S2048x768 .bf16) (harg2 : arg2.IsWhole) (arg3 : Memref sig .tc .vmem S1024x768 .bf16) (harg3 : arg3.IsWhole) (arg4 : Memref sig .tc .vmem S2048x1 .f32) (harg4 : arg4.IsWhole) (arg5 : Memref sig .tc .vmem S2048x1 .f32) (harg5 : arg5.IsWhole) (hf : ¬isFirst1 i) (hl : ¬isLast1 i)
    (x0 : Vec F S2048x768 .bf16) (x1 : Vec F S1024x768 .bf16) (xs : Vec F S2048x1 .f32) : Vec F S2048x1 .f32 :=
  accV1.read (Elt F) (accV1.writes (Elt F) accV1.junk (bodyMid1 c i arg2 harg2 arg3 harg3 arg4 harg4 arg5 harg5 hf hl x0 x1 xs).2.1)

theorem accCover_last1 (c : Dev nD) (i : grid1.Coords) (arg2 : Memref sig .tc .vmem S2048x768 .bf16) (harg2 : arg2.IsWhole) (arg3 : Memref sig .tc .vmem S1024x768 .bf16) (harg3 : arg3.IsWhole) (arg4 : Memref sig .tc .vmem S2048x1 .f32) (harg4 : arg4.IsWhole) (arg5 : Memref sig .tc .vmem S2048x1 .f32) (harg5 : arg5.IsWhole) (hf : ¬isFirst1 i) (hl : isLast1 i)
    (x0 : Vec F S2048x768 .bf16) (x1 : Vec F S1024x768 .bf16) (xs : Vec F S2048x1 .f32) (y : S2048x1.Idx) :
    ∃ pc ∈ (bodyLast1 c i arg2 harg2 arg3 harg3 arg4 harg4 arg5 harg5 hf hl x0 x1 xs).2.1, y ∈ pc.1.set :=
  View.cover_of_tiledL (bodyLast1 c i arg2 harg2 arg3 harg3 arg4 harg4 arg5 harg5 hf hl x0 x1 xs).2.1 S2048x1.size (by sl_kernel_rfl) y

/-- The scratch column after a last point. -/
def accLast1 (c : Dev nD) (i : grid1.Coords) (arg2 : Memref sig .tc .vmem S2048x768 .bf16) (harg2 : arg2.IsWhole) (arg3 : Memref sig .tc .vmem S1024x768 .bf16) (harg3 : arg3.IsWhole) (arg4 : Memref sig .tc .vmem S2048x1 .f32) (harg4 : arg4.IsWhole) (arg5 : Memref sig .tc .vmem S2048x1 .f32) (harg5 : arg5.IsWhole) (hf : ¬isFirst1 i) (hl : isLast1 i)
    (x0 : Vec F S2048x768 .bf16) (x1 : Vec F S1024x768 .bf16) (xs : Vec F S2048x1 .f32) : Vec F S2048x1 .f32 :=
  accV1.read (Elt F) (accV1.writes (Elt F) accV1.junk (bodyLast1 c i arg2 harg2 arg3 harg3 arg4 harg4 arg5 harg5 hf hl x0 x1 xs).2.1)

theorem outCover_last1 (c : Dev nD) (i : grid1.Coords) (arg2 : Memref sig .tc .vmem S2048x768 .bf16) (harg2 : arg2.IsWhole) (arg3 : Memref sig .tc .vmem S1024x768 .bf16) (harg3 : arg3.IsWhole) (arg4 : Memref sig .tc .vmem S2048x1 .f32) (harg4 : arg4.IsWhole) (arg5 : Memref sig .tc .vmem S2048x1 .f32) (harg5 : arg5.IsWhole) (hf : ¬isFirst1 i) (hl : isLast1 i)
    (x0 : Vec F S2048x768 .bf16) (x1 : Vec F S1024x768 .bf16) (xs : Vec F S2048x1 .f32) (y : S2048x1.Idx) :
    ∃ pc ∈ (bodyLast1 c i arg2 harg2 arg3 harg3 arg4 harg4 arg5 harg5 hf hl x0 x1 xs).1, y ∈ pc.1.set :=
  View.cover_of_tiledL (bodyLast1 c i arg2 harg2 arg3 harg3 arg4 harg4 arg5 harg5 hf hl x0 x1 xs).1 S2048x1.size (by sl_kernel_rfl) y

/-- The output block after a last point. -/
def outLast1 (c : Dev nD) (i : grid1.Coords) (arg2 : Memref sig .tc .vmem S2048x768 .bf16) (harg2 : arg2.IsWhole) (arg3 : Memref sig .tc .vmem S1024x768 .bf16) (harg3 : arg3.IsWhole) (arg4 : Memref sig .tc .vmem S2048x1 .f32) (harg4 : arg4.IsWhole) (arg5 : Memref sig .tc .vmem S2048x1 .f32) (harg5 : arg5.IsWhole) (hf : ¬isFirst1 i) (hl : isLast1 i)
    (x0 : Vec F S2048x768 .bf16) (x1 : Vec F S1024x768 .bf16) (xs : Vec F S2048x1 .f32) : Vec F S2048x1 .f32 :=
  outV1.read (Elt F) (outV1.writes (Elt F) outV1.junk (bodyLast1 c i arg2 harg2 arg3 harg3 arg4 harg4 arg5 harg5 hf hl x0 x1 xs).1)

/-! ## The same at a grid point, on the point's memrefs and operand blocks -/

theorem first_of_mod1 {t : Fin cfg1.N} (h0 : t.val % 8 = 0) : isFirst1 (grid1.coords t) := (isFirst1_iff t).mpr h0
theorem notFirst_of_mod1 {t : Fin cfg1.N} (h0 : ¬t.val % 8 = 0) : ¬isFirst1 (grid1.coords t) := fun h => h0 ((isFirst1_iff t).mp h)
theorem last_of_mod1 {t : Fin cfg1.N} (h7 : t.val % 8 = 7) : isLast1 (grid1.coords t) := (isLast1_iff t).mpr h7
theorem notLast_of_mod1 {t : Fin cfg1.N} (h7 : ¬t.val % 8 = 7) : ¬isLast1 (grid1.coords t) := fun h => h7 ((isLast1_iff t).mp h)
theorem notLast_of_first1 {t : Fin cfg1.N} (h0 : t.val % 8 = 0) : ¬isLast1 (grid1.coords t) := fun h => by have := (isLast1_iff t).mp h; omega

def accFirstAt1 (c : Dev nD) (t : Fin cfg1.N) (h0 : t.val % 8 = 0) : Vec F S2048x1 .f32 :=
  accFirst1 c (grid1.coords t) (lhsM1 t) (lhsW1 t) (rhsM1 t) (rhsW1 t) (outM1 t) (outW1 t) accM1 (Memref.isWhole_whole _) (first_of_mod1 h0) (notLast_of_first1 h0) (blk1 V c 0 t) (blk1 V c 1 t)
def accMidAt1 (c : Dev nD) (t : Fin cfg1.N) (h0 : ¬t.val % 8 = 0) (h7 : ¬t.val % 8 = 7) (xs : Vec F S2048x1 .f32) : Vec F S2048x1 .f32 :=
  accMid1 c (grid1.coords t) (lhsM1 t) (lhsW1 t) (rhsM1 t) (rhsW1 t) (outM1 t) (outW1 t) accM1 (Memref.isWhole_whole _) (notFirst_of_mod1 h0) (notLast_of_mod1 h7) (blk1 V c 0 t) (blk1 V c 1 t) xs
def accLastAt1 (c : Dev nD) (t : Fin cfg1.N) (h0 : ¬t.val % 8 = 0) (h7 : t.val % 8 = 7) (xs : Vec F S2048x1 .f32) : Vec F S2048x1 .f32 :=
  accLast1 c (grid1.coords t) (lhsM1 t) (lhsW1 t) (rhsM1 t) (rhsW1 t) (outM1 t) (outW1 t) accM1 (Memref.isWhole_whole _) (notFirst_of_mod1 h0) (last_of_mod1 h7) (blk1 V c 0 t) (blk1 V c 1 t) xs
def outLastAt1 (c : Dev nD) (t : Fin cfg1.N) (h0 : ¬t.val % 8 = 0) (h7 : t.val % 8 = 7) (xs : Vec F S2048x1 .f32) : Vec F S2048x1 .f32 :=
  outLast1 c (grid1.coords t) (lhsM1 t) (lhsW1 t) (rhsM1 t) (rhsW1 t) (outM1 t) (outW1 t) accM1 (Memref.isWhole_whole _) (notFirst_of_mod1 h0) (last_of_mod1 h7) (blk1 V c 0 t) (blk1 V c 1 t) xs

/-! ## The running maximum, point by point -/

/-- What the scratch column holds after the point at position `n`. -/
def accAt1 (c : Dev nD) : (n : ℕ) → n < cfg1.N → Vec F S2048x1 .f32
  | 0, hn => accFirstAt1 V c ⟨0, hn⟩ (Nat.zero_mod _)
  | n + 1, hn =>
    if h0 : (n + 1) % 8 = 0 then accFirstAt1 V c ⟨n + 1, hn⟩ h0
    else if h7 : (n + 1) % 8 = 7 then accLastAt1 V c ⟨n + 1, hn⟩ h0 h7 (accAt1 c n (Nat.lt_of_succ_lt hn))
    else accMidAt1 V c ⟨n + 1, hn⟩ h0 h7 (accAt1 c n (Nat.lt_of_succ_lt hn))

theorem prev_lt1 (t : Fin cfg1.N) : t.val - 1 < cfg1.N := Nat.lt_of_le_of_lt (Nat.sub_le _ _) t.isLt

theorem accAt1_first (c : Dev nD) (t : Fin cfg1.N) (h0 : t.val % 8 = 0) :
    accAt1 V c t.val t.isLt = accFirstAt1 V c t h0 := by
  obtain ⟨n, hn⟩ := t
  cases n with
  | zero => exact rfl
  | succ n => exact (dif_pos h0).trans rfl

theorem accAt1_mid (c : Dev nD) (t : Fin cfg1.N) (h0 : ¬t.val % 8 = 0) (h7 : ¬t.val % 8 = 7) :
    accAt1 V c t.val t.isLt = accMidAt1 V c t h0 h7 (accAt1 V c (t.val - 1) (prev_lt1 t)) := by
  obtain ⟨n, hn⟩ := t
  cases n with
  | zero => exact (by exfalso; (try dsimp only at h0); exact absurd (Nat.zero_mod _) h0)
  | succ n => exact (dif_neg h0).trans ((dif_neg h7).trans rfl)

theorem accAt1_last (c : Dev nD) (t : Fin cfg1.N) (h0 : ¬t.val % 8 = 0) (h7 : t.val % 8 = 7) :
    accAt1 V c t.val t.isLt = accLastAt1 V c t h0 h7 (accAt1 V c (t.val - 1) (prev_lt1 t)) := by
  obtain ⟨n, hn⟩ := t
  cases n with
  | zero => exact (by exfalso; (try dsimp only at h0); exact absurd (Nat.zero_mod _) h0)
  | succ n => exact (dif_neg h0).trans ((dif_pos h7).trans rfl)

/-- What the output block's buffer holds after point `t`: at a last point the copy of the column; elsewhere the
    body does not store into it and the pipeline does not write it back, so the value is never consulted. -/
def outAt1 (c : Dev nD) (t : Fin cfg1.N) : Vec F S2048x1 .f32 :=
  if h7 : t.val % 8 = 7 then outLastAt1 V c t (by omega) h7 (accAt1 V c (t.val - 1) (prev_lt1 t))
  else outV1.read (Elt F) outV1.junk

theorem outAt1_last (c : Dev nD) (t : Fin cfg1.N) (h0 : ¬t.val % 8 = 0) (h7 : t.val % 8 = 7) :
    outAt1 V c t = outLastAt1 V c t h0 h7 (accAt1 V c (t.val - 1) (prev_lt1 t)) := dif_pos h7

/-! ## The region's invariant -/

/-- Before the point at position `n`: before the first point the resting invariant (the scratch column at anything);
    afterwards the column at what the point before left, the other launch's buffers and the generator register untouched. -/
def inv1 (c : Dev nD) : (n : ℕ) → n ≤ cfg1.N → sProp 𝕄
  | 0, _ => Pipeline.ΦA spec1 c
  | n + 1, hn => iprop(iprop(owns (c : Thread nD τ) accM1 fullShare (accAt1 V c n hn) ∗ idleScoped1 c) ∗ (∃ r, prngReg c r))

theorem inv1_zero (c : Dev nD) (n : ℕ) (h : n ≤ cfg1.N) (hz : n = 0) : inv1 V c n h = Pipeline.ΦA spec1 c := by
  subst hz; rfl

theorem inv1_succ (c : Dev nD) (n : ℕ) (hn : n < cfg1.N) :
    inv1 V c (n + 1) hn = iprop(iprop(owns (c : Thread nD τ) accM1 fullShare (accAt1 V c n hn) ∗ idleScoped1 c) ∗ (∃ r, prngReg c r)) := rfl

theorem inv1_pos (c : Dev nD) (n : ℕ) (h : n ≤ cfg1.N) (hz : n ≠ 0) :
    inv1 V c n h = iprop(iprop(owns (c : Thread nD τ) accM1 fullShare (accAt1 V c (n - 1) (by omega)) ∗ idleScoped1 c) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => outAt1 V c t
  Φ t := inv1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem inv1_castSucc (c : Dev nD) (t : Fin cfg1.N) :
    (dat1 V c).Φ t.castSucc = inv1 V c t.val (Nat.le_of_lt t.isLt) := by
  dsimp only [dat1]; simp only [Fin.coe_castSucc]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = outAt1 V c t := by dsimp only [dat1]

theorem before1_0 (c : Dev nD) (t : Fin cfg1.N) (d) : (dat1 V c).before 0 t d = blk1 V c 0 t :=
  before1_lhs_of V (dat1 V c) (A_eq1 V c 0) (after1_0 V c) t d
theorem before1_1 (c : Dev nD) (t : Fin cfg1.N) (d) : (dat1 V c).before 1 t d = blk1 V c 1 t :=
  before1_rhs_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (lhsM1 t) fullShare ((dat1 V c).before 0 t d))
    ∗ (∃ d, owns (c : Thread nD τ) (rhsM1 t) fullShare ((dat1 V c).before 1 t d))
    ∗ (∃ d, owns (c : Thread nD τ) (outM1 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = inv1 V c (t.val + 1) t.isLt from rfl, inv1_succ]
  rw [show (dat1 V c).leavesExact 0 t = owns (c : Thread nD τ) (lhsM1 t) fullShare ((dat1 V c).after 0 t) from by
    unfold Dat.leavesExact; rw [live1_lhs t], after1_0]
  rw [show (dat1 V c).leavesExact 1 t = owns (c : Thread nD τ) (rhsM1 t) fullShare ((dat1 V c).after 1 t) from by
    unfold Dat.leavesExact; rw [live1_rhs t], after1_1]
  have hN : t.val < 32 := lt_of_lt_of_eq t.isLt (show cfg1.N = 32 from N_1)
  have hopen := rest1_open (F := F) c
  by_cases h0 : t.val % 8 = 0
  · have hnl := notLast_of_first1 h0
    rw [Dat.leavesExact_idle (dat1 V c) 2 t (idle1_out t hnl) (noFlush1_out t hnl)]
    rw [accAt1_first V c t h0]
    unfold accFirstAt1 accFirst1; (try dsimp only)
    by_cases hz : t.val = 0
    · rw [inv1_castSucc V c t, inv1_zero V c _ _ hz]
      iintro ⟨HI, Ho, ⟨%d0, H0⟩, ⟨%d1, H1⟩, ⟨%d2, H2⟩⟩
      ihave HR := hopen $$ HI
      icases HR with ⟨⟨HS, Hi⟩, Hg⟩
      iapply ((bodyFirst1 c (grid1.coords t) _ _ _ _ _ _ _ _ (first_of_mod1 h0) (notLast_of_first1 h0) (blk1 V c 0 t) (blk1 V c 1 t)).2.2 _ Set.univ _)
      isplitl [H0]; · iexact H0
      isplitl [H1]; · iexact H1
      isplitl [H2]; · iexact H2
      isplitl [HS]; · iexact HS
      iintro ⟨H0, H1, H2, ⟨%es, HS⟩⟩
      isplitl [HS Hi Hg]
      · isplitl [HS Hi]
        · isplitl [HS]
          · unfold owns; iexists _; isplitr
            swap; · iexact HS
            ipureintro; exact View.read_writes_of_cover _ _ _ _ _ (accCover_first1 c _ _ _ _ _ _ _ _ _ _ _ _ _)
          iexact Hi
        iexact Hg
      isplitl [Ho]; · iexact Ho
      isplitl [H0]; · iexact H0
      isplitl [H1]; · iexact H1
      iexists _; iexact H2
    · rw [inv1_castSucc V c t, inv1_pos V c _ _ hz]
      iintro ⟨⟨⟨HS, Hi⟩, Hg⟩, Ho, ⟨%d0, H0⟩, ⟨%d1, H1⟩, ⟨%d2, H2⟩⟩
      iapply ((bodyFirst1 c (grid1.coords t) _ _ _ _ _ _ _ _ (first_of_mod1 h0) (notLast_of_first1 h0) (blk1 V c 0 t) (blk1 V c 1 t)).2.2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS Hi Hg]
      · isplitl [HS Hi]
        · isplitl [HS]
          · unfold owns; iexists _; isplitr
            swap; · iexact HS
            ipureintro; exact View.read_writes_of_cover _ _ _ _ _ (accCover_first1 c _ _ _ _ _ _ _ _ _ _ _ _ _)
          iexact Hi
        iexact Hg
      isplitl [Ho]; · iexact Ho
      isplitl [H0]; · iexact H0
      isplitl [H1]; · iexact H1
      iexists _; iexact H2
  · have hz : t.val ≠ 0 := fun e => h0 (by rw [e])
    by_cases h7 : t.val % 8 = 7
    · rw [show (dat1 V c).leavesExact 2 t = owns (c : Thread nD τ) (outM1 t) fullShare ((dat1 V c).after 2 t) from by
        unfold Dat.leavesExact; rw [live1_out t (last_of_mod1 h7)], after1_2]
      rw [accAt1_last V c t h0 h7, outAt1_last V c t h0 h7]
      unfold accLastAt1 accLast1 outLastAt1 outLast1; (try dsimp only)
      rw [inv1_castSucc V c t, inv1_pos V c _ _ hz]
      iintro ⟨⟨⟨HS, Hi⟩, Hg⟩, Ho, ⟨%d0, H0⟩, ⟨%d1, H1⟩, ⟨%d2, H2⟩⟩
      iapply ((bodyLast1 c (grid1.coords t) _ _ _ _ _ _ _ _ (notFirst_of_mod1 h0) (last_of_mod1 h7) (blk1 V c 0 t) (blk1 V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hi Hg]
      · isplitl [HS Hi]
        · isplitl [HS]
          · unfold owns; iexists _; isplitr
            swap; · iexact HS
            ipureintro; exact View.read_writes_of_cover _ _ _ _ _ (accCover_last1 c _ _ _ _ _ _ _ _ _ _ _ _ _ _)
          iexact Hi
        iexact Hg
      isplitl [Ho]; · iexact Ho
      isplitl [H0]; · iexact H0
      isplitl [H1]; · iexact H1
      unfold owns; iexists _; isplitr
      swap; · iexact H2
      ipureintro; exact View.read_writes_of_cover _ _ _ _ _ (outCover_last1 c _ _ _ _ _ _ _ _ _ _ _ _ _ _)
    · have hnl := notLast_of_mod1 h7
      rw [Dat.leavesExact_idle (dat1 V c) 2 t (idle1_out t hnl) (noFlush1_out t hnl)]
      rw [accAt1_mid V c t h0 h7]
      unfold accMidAt1 accMid1; (try dsimp only)
      rw [inv1_castSucc V c t, inv1_pos V c _ _ hz]
      iintro ⟨⟨⟨HS, Hi⟩, Hg⟩, Ho, ⟨%d0, H0⟩, ⟨%d1, H1⟩, ⟨%d2, H2⟩⟩
      iapply ((bodyMid1 c (grid1.coords t) _ _ _ _ _ _ _ _ (notFirst_of_mod1 h0) (notLast_of_mod1 h7) (blk1 V c 0 t) (blk1 V c 1 t) _).2.2 _ Set.univ _)
      isplitl [H0]; · iexact H0
      isplitl [H1]; · iexact H1
      isplitl [H2]; · iexact H2
      isplitl [HS]; · iexact HS
      iintro ⟨H0, H1, H2, ⟨%es, HS⟩⟩
      isplitl [HS Hi Hg]
      · isplitl [HS Hi]
        · isplitl [HS]
          · unfold owns; iexists _; isplitr
            swap; · iexact HS
            ipureintro; exact View.read_writes_of_cover _ _ _ _ _ (accCover_mid1 c _ _ _ _ _ _ _ _ _ _ _ _ _ _)
          iexact Hi
        iexact Hg
      isplitl [Ho]; · iexact Ho
      isplitl [H0]; · iexact H0
      isplitl [H1]; · iexact H1
      iexists _; iexact H2

theorem body_obligation1 (c : Dev nD) : BodyObligation (dat1 (F := F) V c) (defs₀ (F := F)) Variants.none () Set.univ := fun t => by
  rw [bigSep_W1, bigSep_W1]
  exact sound_body1 V c t

/-- The resting invariant is the region's invariant before the first point, -/
theorem enter1 (c : Dev nD) : Pipeline.ΦA spec1 c ⊢ (dat1 V c).Φ 0 := by
  rw [show (dat1 V c).Φ 0 = inv1 V c 0 (Nat.zero_le _) from rfl, inv1_zero V c 0 _ rfl]
  try exact Idealize.SL.BI.Entails.refl _

/-- and after the last point the invariant gives it back, the column's contents forgotten. -/
theorem leave1 (c : Dev nD) : (dat1 V c).Φ (Fin.last cfg1.N) ⊢ Pipeline.ΦA spec1 c := by
  have hne : (Fin.last cfg1.N).val ≠ 0 := by rw [Fin.val_last]; have : cfg1.N = 32 := N_1; omega
  rw [show (dat1 V c).Φ (Fin.last cfg1.N) = inv1 V c (Fin.last cfg1.N).val (Nat.le_of_lt_succ (Fin.last cfg1.N).isLt) from rfl,
    inv1_pos V c _ _ hne]
  have hforget : ∀ x : Vec F S2048x1 .f32, (iprop(iprop(owns (c : Thread nD τ) accM1 fullShare x ∗ idleScoped1 c) ∗ (∃ r, prngReg c r)) : sProp 𝕄)
      ⊢ iprop(iprop((∃ d, owns (c : Thread nD τ) accM1 fullShare d) ∗ idleScoped1 c) ∗ (∃ r, prngReg c r)) := by
    intro x
    iintro ⟨⟨HS, Hi⟩, Hg⟩
    isplitl [HS Hi]
    · isplitl [HS]
      · iexists _; iexact HS
      iexact Hi
    iexact Hg
  exact (hforget _).trans (rest1_close (F := F) c)

end Cert.KernelIdeal.RowMax

end
-- ==== Proof.Fold.lean ====
/-
  The program's buffers between its items: the contents of every TensorCore buffer at each boundary of @main — the
  launch memory, then each stretch of host operations applied in order, then at each launch of the row-maximum kernel
  the launch's arrays at what its write-backs leave. The argument arrays reach the end as launched.
-/
import proofs.«171457_j18339510354596_1_alg».proof.Proof.R0Frame
import proofs.«171457_j18339510354596_1_alg».proof.Proof.R1Frame
import proofs.«171457_j18339510354596_1_alg».proof.Proof.Gen.KernelIdeal.Regions

set_option maxRecDepth 16384

noncomputable section

namespace Cert.KernelIdeal.RowMax

open Cert.KernelIdeal
open Cert.KernelIdeal.Gen hiding V0 V1 V2 V3 V4 V5 V6 V7 V8 V9 V10 V11 V12 adm segs
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After each stretch of host operations before the first launch: the two row normalisations and the two casts. -/
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
abbrev W4 : Dev nD → Valuation τ sig (Elt F) := fun c => StableHlo.after hostOps0_3 (W3 m ρ c)
abbrev W5 : Dev nD → Valuation τ sig (Elt F) := fun c => StableHlo.after hostOps0_4 (W4 m ρ c)
abbrev W6 : Dev nD → Valuation τ sig (Elt F) := fun c => StableHlo.after hostOps0_5 (W5 m ρ c)
abbrev W7 : Dev nD → Valuation τ sig (Elt F) := fun c => StableHlo.after hostOps0_6 (W6 m ρ c)
abbrev W8 : Dev nD → Valuation τ sig (Elt F) := fun c => StableHlo.after hostOps0_7 (W7 m ρ c)
/-- The same read at the TensorCore's references: what the first launch finds. -/
abbrev E0 : (c : Dev nD) → (b : Ref sig .tc) → Buf (Elt F) ((c : Thread nD τ).loc b) := fun c b => W8 m ρ c b
/-- At the first launch's exit: its arrays at what the pipeline leaves, every other buffer as entered. -/
def W9 (c : Dev nD) : Valuation τ sig (Elt F) :=
  Pipeline.withArrays spec0 c (W8 m ρ c) fun w => (dat0 (E0 m ρ) c).arrAt w cfg0.N
theorem W9_arr (c : Dev nD) (w : Fin cfg0.W) :
    W9 m ρ c (Proc.devRef .tc (Pipeline.arrRef spec0 w)) = (dat0 (E0 m ρ) c).arrAt w cfg0.N := by
  unfold W9; exact Pipeline.withArrays_arr spec0 launch0.win.arr_inj c _ _ w
theorem W9_of_ne (c : Dev nD) (b : Ref sig .tc) (hb : ∀ w, Pipeline.arrRef spec0 w ≠ b) :
    W9 m ρ c (Proc.devRef .tc b) = W8 m ρ c (Proc.devRef .tc b) := by
  unfold W9; exact Pipeline.withArrays_of_ne spec0 c _ _ b hb
abbrev X0 : (c : Dev nD) → (b : Ref sig .tc) → Buf (Elt F) ((c : Thread nD τ).loc b) := fun c b => W9 m ρ c b
theorem exitArr0 (c : Dev nD) (w : Fin cfg0.W) : (dat0 (E0 m ρ) c).arrAt w cfg0.N = X0 m ρ c (Pipeline.arrRef spec0 w) :=
  (W9_arr m ρ c w).symm
theorem exitRest0 (c : Dev nD) : ∀ b, b ∉ Finset.univ.image (Pipeline.arrRef spec0) → X0 m ρ c b = E0 m ρ c b :=
  fun b hb => W9_of_ne m ρ c b fun w e => hb (Finset.mem_image.mpr ⟨w, Finset.mem_univ _, e⟩)

/-- After the reshape of the first launch's result. -/
abbrev W10 : Dev nD → Valuation τ sig (Elt F) := fun c => StableHlo.after hostOps1 (W9 m ρ c)
/-- What the second launch finds. -/
abbrev E1 : (c : Dev nD) → (b : Ref sig .tc) → Buf (Elt F) ((c : Thread nD τ).loc b) := fun c b => W10 m ρ c b
/-- At the second launch's exit. -/
def W11 (c : Dev nD) : Valuation τ sig (Elt F) :=
  Pipeline.withArrays spec1 c (W10 m ρ c) fun w => (dat1 (E1 m ρ) c).arrAt w cfg1.N
theorem W11_arr (c : Dev nD) (w : Fin cfg1.W) :
    W11 m ρ c (Proc.devRef .tc (Pipeline.arrRef spec1 w)) = (dat1 (E1 m ρ) c).arrAt w cfg1.N := by
  unfold W11; exact Pipeline.withArrays_arr spec1 launch1.win.arr_inj c _ _ w
theorem W11_of_ne (c : Dev nD) (b : Ref sig .tc) (hb : ∀ w, Pipeline.arrRef spec1 w ≠ b) :
    W11 m ρ c (Proc.devRef .tc b) = W10 m ρ c (Proc.devRef .tc b) := by
  unfold W11; exact Pipeline.withArrays_of_ne spec1 c _ _ b hb
abbrev X1 : (c : Dev nD) → (b : Ref sig .tc) → Buf (Elt F) ((c : Thread nD τ).loc b) := fun c b => W11 m ρ c b
theorem exitArr1 (c : Dev nD) (w : Fin cfg1.W) : (dat1 (E1 m ρ) c).arrAt w cfg1.N = X1 m ρ c (Pipeline.arrRef spec1 w) :=
  (W11_arr m ρ c w).symm
theorem exitRest1 (c : Dev nD) : ∀ b, b ∉ Finset.univ.image (Pipeline.arrRef spec1) → X1 m ρ c b = E1 m ρ c b :=
  fun b hb => W11_of_ne m ρ c b fun w e => hb (Finset.mem_image.mpr ⟨w, Finset.mem_univ _, e⟩)

/-- After the closing stretch: the two entropy sums. -/
abbrev W12 : Dev nD → Valuation τ sig (Elt F) := fun c => StableHlo.after hostOps2 (W11 m ρ c)

/-! ## What a stretch does not write it leaves alone -/

theorem W8_keep (c : Dev nD) (r : Ref sig .tc) (h0 : r ∉ hostOps0_W) (h1 : r ∉ hostOps0_1_W) (h2 : r ∉ hostOps0_2_W) (h3 : r ∉ hostOps0_3_W)
    (h4 : r ∉ hostOps0_4_W) (h5 : r ∉ hostOps0_5_W) (h6 : r ∉ hostOps0_6_W) (h7 : r ∉ hostOps0_7_W) :
    W8 m ρ c (Proc.devRef .tc r) = W0 m ρ c (Proc.devRef .tc r) :=
  (StableHlo.after_of_writes_sub hostOps0_7 _ hostOps0_7_writes h7).trans <|
  (StableHlo.after_of_writes_sub hostOps0_6 _ hostOps0_6_writes h6).trans <|
  (StableHlo.after_of_writes_sub hostOps0_5 _ hostOps0_5_writes h5).trans <|
  (StableHlo.after_of_writes_sub hostOps0_4 _ hostOps0_4_writes h4).trans <|
  (StableHlo.after_of_writes_sub hostOps0_3 _ hostOps0_3_writes h3).trans <|
  (StableHlo.after_of_writes_sub hostOps0_2 _ hostOps0_2_writes h2).trans <|
  (StableHlo.after_of_writes_sub hostOps0_1 _ hostOps0_1_writes h1).trans <|
  (StableHlo.after_of_writes_sub hostOps0 _ hostOps0_writes h0)

theorem W12_keep (c : Dev nD) (r : Ref sig .tc) (h0 : r ∉ hostOps0_W) (h1 : r ∉ hostOps0_1_W) (h2 : r ∉ hostOps0_2_W) (h3 : r ∉ hostOps0_3_W)
    (h4 : r ∉ hostOps0_4_W) (h5 : r ∉ hostOps0_5_W) (h6 : r ∉ hostOps0_6_W) (h7 : r ∉ hostOps0_7_W)
    (ha0 : ∀ w, Pipeline.arrRef spec0 w ≠ r) (h8 : r ∉ hostOps1_W) (ha1 : ∀ w, Pipeline.arrRef spec1 w ≠ r) (h9 : r ∉ hostOps2_W) :
    W12 m ρ c (Proc.devRef .tc r) = m ((c : Thread nD τ).loc r) :=
  (StableHlo.after_of_writes_sub hostOps2 _ hostOps2_writes h9).trans <|
  (W11_of_ne m ρ c r ha1).trans <|
  (StableHlo.after_of_writes_sub hostOps1 _ hostOps1_writes h8).trans <|
  (W9_of_ne m ρ c r ha0).trans <|
  (W8_keep m ρ c r h0 h1 h2 h3 h4 h5 h6 h7).trans rfl

theorem W12_main_arg0 (c : Dev nD) : W12 m ρ c (Proc.devRef .tc main_arg0) = m ((c : Thread nD τ).loc main_arg0) :=
  W12_keep m ρ c main_arg0 (by decide) (by decide) (by decide) (by decide) (by decide) (by decide) (by decide) (by decide)
    (by decide) (by decide) (by decide) (by decide)
theorem W12_main_arg1 (c : Dev nD) : W12 m ρ c (Proc.devRef .tc main_arg1) = m ((c : Thread nD τ).loc main_arg1) :=
  W12_keep m ρ c main_arg1 (by decide) (by decide) (by decide) (by decide) (by decide) (by decide) (by decide) (by decide)
    (by decide) (by decide) (by decide) (by decide)

end Cert.KernelIdeal.RowMax

end
-- ==== Proof.Whole.lean ====
/-
  The run of the whole program: @main as its twelve items — eight stretches of host operations (the row norms, the
  clips, the quotients, the casts), the first launch of the row-maximum kernel, a reshape, the second launch, and the
  closing stretch (the two entropy sums) — each entered from the buffer contents the item before left. Every weakly fair
  execution terminates, and at the end every unscoped buffer holds what the last boundary's contents say.
-/
import proofs.«171457_j18339510354596_1_alg».proof.Proof.Fold

set_option maxRecDepth 16384

noncomputable section

namespace Cert.KernelIdeal.RowMax

open Cert.KernelIdeal
open Cert.KernelIdeal.Gen hiding V0 V1 V2 V3 V4 V5 V6 V7 V8 V9 V10 V11 V12 adm segs
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No launch has a prefetched table. -/
abbrev noTables : (p : Fin 2) → (pcfgs (F := F) p).Adm := fun p => (cfgs p).toPCfg_adm

/-- Each launch's proof data at the contents the launch finds. -/
def pdats : (p : Fin 2) → (c : Dev nD) → Dat τ (Elt F) Unit ℕ (UR sig nD τ) ℕ (Pipeline.pin (pcfgs (F := F)) noTables p) c
  | ⟨0, _⟩ => fun c => dat0 (E0 m ρ) c
  | ⟨1, _⟩ => fun c => dat1 (E1 m ρ) c

abbrev noVariants : Variants := Variants.none
/-- No core owes another anything. -/
abbrev noPairs : GSem nD τ sig → Finset Unit := fun _ => ∅
abbrev noLevel : GSem nD τ sig → Unit → ℕ := fun _ _ => 0
/-- What rides beside the buffers through every item: the generator register at some state, nothing owed. -/
abbrev beside (c : Dev nD) : sProp 𝕄 := iprop((∃ r, prngReg c r) ∗ ∃ W, owes (c : Thread nD τ) (0 : CellTallies nD τ sig Unit) W)

/-- A stretch of host operations as an item, from the contents `W`. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVariants noPairs noLevel :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W beside

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last boundary: every unscoped buffer at the final contents, the generator register at some state. -/
abbrev atEnd (c : Dev nD) : sProp 𝕄 := iprop(StableHlo.held (c : Thread nD τ) (Pipeline.ucRefs τ sig) (W12 m ρ c) ∗ ∃ r, prngReg c r)

set_option backward.isDefEq.respectTransparency.types false in
/-- The first launch as an item: entered with every unscoped buffer at `W8`, left at `W9`. Its arrays are split out
    of the unscoped buffers and put back at their exit contents; the scratch column and the generator register go into the
    launch's invariant and come back. -/
def launchItem0 : Pipeline.RegionSeg (pcfgs (F := F)) noTables (pdats m ρ) () defs₀ noVariants noPairs noLevel 0 where
  win := launch0.win.to₀
  block_pos := launch0.block_pos
  stage_whole := launch0.stage_whole
  K := PEmpty
  osem k := k.elim
  ho := Pipeline.OwnSemFacts.none _
  hbody c := (body_obligation0 (E0 m ρ) c).loose
  hwaits := Pipeline.hwaits_of_owed_zero _ _ _ _ noPairs noLevel 0 fun _ _ => rfl
  pre c := iprop(StableHlo.held (c : Thread nD τ) (Pipeline.ucRefs τ sig) (W8 m ρ c) ∗ beside c)
  post c := iprop(StableHlo.held (c : Thread nD τ) (Pipeline.ucRefs τ sig) (W9 m ρ c) ∗ beside c)
  X c := iprop(∃ r, prngReg c r)
  Y c := iprop(∃ r, prngReg c r)
  Z c := Pipeline.unscopedRest (Ix := Unit) (Name := ℕ) (U := UR sig nD τ) (Lvl := ℕ) spec0 c (E0 m ρ c)
  hentry c := by
    rw [Pipeline.ownSems0_none]
    have hsplit := Pipeline.arrays_of_unscopedBufs (p := 0) (pcfgs (F := F)) noTables (pdats m ρ) launch0.win launch0.arr_whole c
      ((pdats m ρ 0 c).share_full fun _ => rfl) (E0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (dat0 (E0 m ρ) c).Φ 0 from rfl]
    have hA : (iprop(iprop(∃ r, prngReg c r) ∗ Pipeline.prefHeld (pcfgs (F := F) 0).pre c (fun _ => fullShare) (noTables (F := F) 0).1 ∗ Pipeline.scopedRest (Pipeline.pin (pcfgs (F := F)) noTables 0).spec c) : sProp 𝕄)
        ⊢ Pipeline.ΦA spec0 c := by
      unfold Pipeline.ΦA
      iintro ⟨Hp, -, Hr⟩
      isplitl [Hr]; · iexact Hr
      iexact Hp
    exact hA.trans (enter0 (E0 m ρ) c)
  hout c := by
    rw [Pipeline.ownSems0_none, show (pdats m ρ 0 c).Φ (Fin.last _) = (dat0 (E0 m ρ) c).Φ (Fin.last cfg0.N) from rfl]
    have hB : (Pipeline.ΦA spec0 c : sProp 𝕄)
        ⊢ iprop(iprop(∃ r, prngReg c r) ∗ BI.emp ∗ Pipeline.scopedRest (Pipeline.pin (pcfgs (F := F)) noTables 0).spec c) := by
      unfold Pipeline.ΦA
      iintro ⟨Hr, Hp⟩
      isplitl [Hp]; · iexact Hp
      isplitr; · iempintro
      iexact Hr
    exact (leave0 (E0 m ρ) c).trans hB
  hexit c := by
    have hjoin := Pipeline.unscopedBufs_of_arrays (p := 0) (pcfgs (F := F)) noTables (Ix := Unit) (Name := ℕ) (U := UR sig nD τ) (Lvl := ℕ)
      launch0.win launch0.arr_whole c (pdats m ρ) ((pdats m ρ 0 c).share_full fun _ => rfl)
      (E0 m ρ c) (X0 m ρ c) ((pdats m ρ 0 c).arrAt · cfg0.N) (exitArr0 m ρ c) (exitRest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second launch as an item: entered at `W10`, left at `W11`. -/
def launchItem1 : Pipeline.RegionSeg (pcfgs (F := F)) noTables (pdats m ρ) () defs₀ noVariants noPairs noLevel 1 where
  win := launch1.win.to₀
  block_pos := launch1.block_pos
  stage_whole := launch1.stage_whole
  K := PEmpty
  osem k := k.elim
  ho := Pipeline.OwnSemFacts.none _
  hbody c := (body_obligation1 (E1 m ρ) c).loose
  hwaits := Pipeline.hwaits_of_owed_zero _ _ _ _ noPairs noLevel 1 fun _ _ => rfl
  pre c := iprop(StableHlo.held (c : Thread nD τ) (Pipeline.ucRefs τ sig) (W10 m ρ c) ∗ beside c)
  post c := iprop(StableHlo.held (c : Thread nD τ) (Pipeline.ucRefs τ sig) (W11 m ρ c) ∗ beside c)
  X c := iprop(∃ r, prngReg c r)
  Y c := iprop(∃ r, prngReg c r)
  Z c := Pipeline.unscopedRest (Ix := Unit) (Name := ℕ) (U := UR sig nD τ) (Lvl := ℕ) spec1 c (E1 m ρ c)
  hentry c := by
    rw [Pipeline.ownSems0_none]
    have hsplit := Pipeline.arrays_of_unscopedBufs (p := 1) (pcfgs (F := F)) noTables (pdats m ρ) launch1.win launch1.arr_whole c
      ((pdats m ρ 1 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (E1 m ρ) c).Φ 0 from rfl]
    have hA : (iprop(iprop(∃ r, prngReg c r) ∗ Pipeline.prefHeld (pcfgs (F := F) 1).pre c (fun _ => fullShare) (noTables (F := F) 1).1 ∗ Pipeline.scopedRest (Pipeline.pin (pcfgs (F := F)) noTables 1).spec c) : sProp 𝕄)
        ⊢ Pipeline.ΦA spec1 c := by
      unfold Pipeline.ΦA
      iintro ⟨Hp, -, Hr⟩
      isplitl [Hr]; · iexact Hr
      iexact Hp
    exact hA.trans (enter1 (E1 m ρ) c)
  hout c := by
    rw [Pipeline.ownSems0_none, show (pdats m ρ 1 c).Φ (Fin.last _) = (dat1 (E1 m ρ) c).Φ (Fin.last cfg1.N) from rfl]
    have hB : (Pipeline.ΦA spec1 c : sProp 𝕄)
        ⊢ iprop(iprop(∃ r, prngReg c r) ∗ BI.emp ∗ Pipeline.scopedRest (Pipeline.pin (pcfgs (F := F)) noTables 1).spec c) := by
      unfold Pipeline.ΦA
      iintro ⟨Hr, Hp⟩
      isplitl [Hp]; · iexact Hp
      isplitr; · iempintro
      iexact Hr
    exact (leave1 (E1 m ρ) c).trans hB
  hexit c := by
    have hjoin := Pipeline.unscopedBufs_of_arrays (p := 1) (pcfgs (F := F)) noTables (Ix := Unit) (Name := ℕ) (U := UR sig nD τ) (Lvl := ℕ)
      launch1.win launch1.arr_whole c (pdats m ρ) ((pdats m ρ 1 c).share_full fun _ => rfl)
      (E1 m ρ c) (X1 m ρ c) ((pdats m ρ 1 c).arrAt · cfg1.N) (exitArr1 m ρ c) (exitRest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- @main's twelve items in order. -/
abbrev items : List (Pipeline.Seg (pcfgs (F := F)) noTables (pdats m ρ) () defs₀ noVariants noPairs noLevel) :=
  [ .host (stretch hostOps0 hostOps0_sub hostOps0_fresh (W0 m ρ)),
    .host (stretch hostOps0_1 hostOps0_1_sub hostOps0_1_fresh (W1 m ρ)),
    .host (stretch hostOps0_2 hostOps0_2_sub hostOps0_2_fresh (W2 m ρ)),
    .host (stretch hostOps0_3 hostOps0_3_sub hostOps0_3_fresh (W3 m ρ)),
    .host (stretch hostOps0_4 hostOps0_4_sub hostOps0_4_fresh (W4 m ρ)),
    .host (stretch hostOps0_5 hostOps0_5_sub hostOps0_5_fresh (W5 m ρ)),
    .host (stretch hostOps0_6 hostOps0_6_sub hostOps0_6_fresh (W6 m ρ)),
    .host (stretch hostOps0_7 hostOps0_7_sub hostOps0_7_fresh (W7 m ρ)),
    .region (launchItem0 m ρ),
    .host (stretch hostOps1 hostOps1_sub hostOps1_fresh (W9 m ρ)),
    .region (launchItem1 m ρ),
    .host (stretch hostOps2 hostOps2_sub hostOps2_fresh (W11 m ρ)) ]

theorem main_items (c : Dev nD) : main (F := F) c = Pipeline.Seg.run (items m ρ) := (main_chain c).trans (by chain_rfl)

/-- After the closing stretch the generator register joins the buffers and the core owes nothing. -/
theorem closing (c : Dev nD) :
    (iprop(StableHlo.held (c : Thread nD τ) (Pipeline.ucRefs τ sig) (W12 m ρ c) ∗ beside c) : sProp 𝕄)
      ⊢ iprop(atEnd m ρ c ∗ ∃ W, owes (c : Thread nD τ) (0 : CellTallies nD τ sig Unit) W) := by
  iintro ⟨Hh, Hp, Ho⟩
  isplitl [Hh Hp]
  · isplitl [Hh]; · iexact Hh
    iexact Hp
  iexact Ho

set_option backward.isDefEq.respectTransparency.types false in
/-- THE RUN: from any memory with zero counters every weakly fair execution of @main terminates, nothing faulting, and
    every final state holds each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit (pcfgs (F := F)) noTables (pdats m ρ) () cellOf_inj emb₁ defs₀ noVariants noPairs noLevel m ρ main (items m ρ)
    (fun c Q => by rw [main_items m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ beside c)) (Tₙ := atEnd m ρ)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun c => closing m ρ c⟩)
    (hinit := by
      refine Pipeline.initEach noPairs noLevel fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c => h c)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W12_main_arg0 m ρ c),
     (h c _ (mem_uc main_arg1 (by decide))).trans (W12_main_arg1 m ρ c)⟩) (run_all m ρ)

end Cert.KernelIdeal.RowMax

end
-- ==== Proof.R0Value.lean ====
/-
  One region of the program (one launch of the row-maximum kernel): the values.

  The pieces the body's stores leave are the fold step of the running maximum: a first point leaves the first
  column block's row maximum folded into −∞, every other point the point's column block folded into what the
  point before left, and a last point copies the column to the output block. So after the last point of row
  block i the output array's row block i holds the running maximum over the eight column blocks, and the
  array ends holding, row by row, the scratch column after the last point of the row's block.
-/
import proofs.«171457_j18339510354596_1_alg».proof.Proof.R0Frame
import Idealize.ShloMosaic.Lib.Pipeline.Value
import Idealize.ShloMosaic.Lib.ValueIdx

set_option maxRecDepth 16384

noncomputable section

namespace Cert.KernelIdeal.RowMax

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hz0 : (![0, 0] : Fin 2 → Nat) = fun _ => 0 := funext fun a => by fin_cases a <;> rfl

/-! ## The pieces the stores leave, as values -/

/-- A middle point leaves the column folded once: one covering store, whose loads read whole buffers. -/
theorem accMid0_eq (c : Dev nD) (i : grid0.Coords) (arg2 : Memref sig .tc .vmem S2048x768 .bf16) (harg2 : arg2.IsWhole) (arg3 : Memref sig .tc .vmem S1024x768 .bf16) (harg3 : arg3.IsWhole) (arg4 : Memref sig .tc .vmem S2048x1 .f32) (harg4 : arg4.IsWhole) (arg5 : Memref sig .tc .vmem S2048x1 .f32) (harg5 : arg5.IsWhole) (hf : ¬isFirst0 i) (hl : ¬isLast0 i)
    (x0 : Vec F S2048x768 .bf16) (x1 : Vec F S1024x768 .bf16) (xs : Vec F S2048x1 .f32) :
    accMid0 c i arg2 harg2 arg3 harg3 arg4 harg4 arg5 harg5 hf hl x0 x1 xs = k0_pay2 x0 x1 xs := by
  unfold accMid0
  rw [View.read_writes_eq_canon _ _ _ (accCover_mid0 c i arg2 harg2 arg3 harg3 arg4 harg4 arg5 harg5 hf hl x0 x1 xs)]
  unfold bodyMid0
  dsimp only
  sl_unfold_words
  rw [View.canon_unit_zero hz0]
  simp only [View.readAt_eq_ld, harg2.read_unread, harg3.read_unread, harg5.read_unread, View.ld_unit_zero (S := S2048x768) hz0, View.ld_unit_zero (S := S1024x768) hz0, View.ld_unit_zero (S := S2048x1) hz0, View.readCov_unit_zero (S := S2048x1) _ hz0]

/-- A first point stores −∞, reads it back and folds the first column block into it. -/
theorem accFirst0_eq (c : Dev nD) (i : grid0.Coords) (arg2 : Memref sig .tc .vmem S2048x768 .bf16) (harg2 : arg2.IsWhole) (arg3 : Memref sig .tc .vmem S1024x768 .bf16) (harg3 : arg3.IsWhole) (arg4 : Memref sig .tc .vmem S2048x1 .f32) (harg4 : arg4.IsWhole) (arg5 : Memref sig .tc .vmem S2048x1 .f32) (harg5 : arg5.IsWhole) (hf : isFirst0 i) (hl : ¬isLast0 i)
    (x0 : Vec F S2048x768 .bf16) (x1 : Vec F S1024x768 .bf16) :
    accFirst0 c i arg2 harg2 arg3 harg3 arg4 harg4 arg5 harg5 hf hl x0 x1 = k0_pay2 x0 x1 (k0_pay1 (F := F)) := by
  unfold accFirst0
  rw [View.read_writes_eq_canon _ _ _ (accCover_first0 c i arg2 harg2 arg3 harg3 arg4 harg4 arg5 harg5 hf hl x0 x1)]
  unfold bodyFirst0
  dsimp only
  sl_unfold_words
  rw [View.canon_cons_unit_zero (S := S2048x1) hz0, View.readCov_unit_zero (S := S2048x1) _ hz0]
  simp only [View.readAt_eq_ld, harg2.read_unread, harg3.read_unread, harg5.read_unread, View.ld_unit_zero (S := S2048x768) hz0, View.ld_unit_zero (S := S1024x768) hz0, View.ld_unit_zero (S := S2048x1) hz0, View.readCov_unit_zero (S := S2048x1) _ hz0]

/-- A last point folds the last column block in, -/
theorem accLast0_eq (c : Dev nD) (i : grid0.Coords) (arg2 : Memref sig .tc .vmem S2048x768 .bf16) (harg2 : arg2.IsWhole) (arg3 : Memref sig .tc .vmem S1024x768 .bf16) (harg3 : arg3.IsWhole) (arg4 : Memref sig .tc .vmem S2048x1 .f32) (harg4 : arg4.IsWhole) (arg5 : Memref sig .tc .vmem S2048x1 .f32) (harg5 : arg5.IsWhole) (hf : ¬isFirst0 i) (hl : isLast0 i)
    (x0 : Vec F S2048x768 .bf16) (x1 : Vec F S1024x768 .bf16) (xs : Vec F S2048x1 .f32) :
    accLast0 c i arg2 harg2 arg3 harg3 arg4 harg4 arg5 harg5 hf hl x0 x1 xs = k0_pay2 x0 x1 xs := by
  unfold accLast0
  rw [View.read_writes_eq_canon _ _ _ (accCover_last0 c i arg2 harg2 arg3 harg3 arg4 harg4 arg5 harg5 hf hl x0 x1 xs)]
  unfold bodyLast0
  dsimp only
  sl_unfold_words
  rw [View.canon_unit_zero hz0]
  simp only [View.readAt_eq_ld, harg2.read_unread, harg3.read_unread, harg5.read_unread, View.ld_unit_zero (S := S2048x768) hz0, View.ld_unit_zero (S := S1024x768) hz0, View.ld_unit_zero (S := S2048x1) hz0, View.readCov_unit_zero (S := S2048x1) _ hz0]

/-- and copies the column, read back after that store, to the output block. -/
theorem outLast0_eq (c : Dev nD) (i : grid0.Coords) (arg2 : Memref sig .tc .vmem S2048x768 .bf16) (harg2 : arg2.IsWhole) (arg3 : Memref sig .tc .vmem S1024x768 .bf16) (harg3 : arg3.IsWhole) (arg4 : Memref sig .tc .vmem S2048x1 .f32) (harg4 : arg4.IsWhole) (arg5 : Memref sig .tc .vmem S2048x1 .f32) (harg5 : arg5.IsWhole) (hf : ¬isFirst0 i) (hl : isLast0 i)
    (x0 : Vec F S2048x768 .bf16) (x1 : Vec F S1024x768 .bf16) (xs : Vec F S2048x1 .f32) :
    outLast0 c i arg2 harg2 arg3 harg3 arg4 harg4 arg5 harg5 hf hl x0 x1 xs = k0_pay2 x0 x1 xs := by
  unfold outLast0
  rw [View.read_writes_eq_canon _ _ _ (outCover_last0 c i arg2 harg2 arg3 harg3 arg4 harg4 arg5 harg5 hf hl x0 x1 xs)]
  unfold bodyLast0
  dsimp only
  sl_unfold_words
  rw [View.canon_unit_zero hz0, View.readCov_unit_zero (S := S2048x1) _ hz0]
  simp only [View.readAt_eq_ld, harg2.read_unread, harg3.read_unread, harg5.read_unread, View.ld_unit_zero (S := S2048x768) hz0, View.ld_unit_zero (S := S1024x768) hz0, View.ld_unit_zero (S := S2048x1) hz0, View.readCov_unit_zero (S := S2048x1) _ hz0]

/-! ## The running maximum in closed equations -/

/-- At the first point of a row the column is the first column block's row maximum folded into −∞. -/
theorem accAt0_reset (c : Dev nD) (t : Fin cfg0.N) (h0 : t.val % 8 = 0) :
    accAt0 V c t.val t.isLt = k0_pay2 (blk0 V c 0 t) (blk0 V c 1 t) (k0_pay1 (F := F)) := by
  rw [accAt0_first V c t h0]
  unfold accFirstAt0
  exact accFirst0_eq c (grid0.coords t) (lhsM0 t) (lhsW0 t) (rhsM0 t) (rhsW0 t) (outM0 t) (outW0 t) accM0 (Memref.isWhole_whole _) (first_of_mod0 h0) (notLast_of_first0 h0) (blk0 V c 0 t) (blk0 V c 1 t)

/-- At every other point it is the point's column block folded into what the point before left. -/
theorem accAt0_step (c : Dev nD) (t : Fin cfg0.N) (h0 : ¬t.val % 8 = 0) :
    accAt0 V c t.val t.isLt = k0_pay2 (blk0 V c 0 t) (blk0 V c 1 t) (accAt0 V c (t.val - 1) (prev_lt0 t)) := by
  by_cases h7 : t.val % 8 = 7
  · rw [accAt0_last V c t h0 h7]
    unfold accLastAt0
    exact accLast0_eq c (grid0.coords t) (lhsM0 t) (lhsW0 t) (rhsM0 t) (rhsW0 t) (outM0 t) (outW0 t) accM0 (Memref.isWhole_whole _) (notFirst_of_mod0 h0) (last_of_mod0 h7) (blk0 V c 0 t) (blk0 V c 1 t) (accAt0 V c (t.val - 1) (prev_lt0 t))
  · rw [accAt0_mid V c t h0 h7]
    unfold accMidAt0
    exact accMid0_eq c (grid0.coords t) (lhsM0 t) (lhsW0 t) (rhsM0 t) (rhsW0 t) (outM0 t) (outW0 t) accM0 (Memref.isWhole_whole _) (notFirst_of_mod0 h0) (notLast_of_mod0 h7) (blk0 V c 0 t) (blk0 V c 1 t) (accAt0 V c (t.val - 1) (prev_lt0 t))

/-- At the last point of a row the output block receives the column. -/
theorem outAt0_eq (c : Dev nD) (t : Fin cfg0.N) (h7 : t.val % 8 = 7) : outAt0 V c t = accAt0 V c t.val t.isLt := by
  have h0 : ¬t.val % 8 = 0 := by omega
  rw [outAt0_last V c t h0 h7, accAt0_last V c t h0 h7]
  unfold outLastAt0 accLastAt0
  exact (outLast0_eq c (grid0.coords t) (lhsM0 t) (lhsW0 t) (rhsM0 t) (rhsW0 t) (outM0 t) (outW0 t) accM0 (Memref.isWhole_whole _) (notFirst_of_mod0 h0) (last_of_mod0 h7) (blk0 V c 0 t) (blk0 V c 1 t) (accAt0 V c (t.val - 1) (prev_lt0 t))).trans
    (accLast0_eq c (grid0.coords t) (lhsM0 t) (lhsW0 t) (rhsM0 t) (rhsW0 t) (outM0 t) (outW0 t) accM0 (Memref.isWhole_whole _) (notFirst_of_mod0 h0) (last_of_mod0 h7) (blk0 V c 0 t) (blk0 V c 1 t) (accAt0 V c (t.val - 1) (prev_lt0 t))).symm

/-! ## From the blocks to the array -/

theorem accAt0_congr (c : Dev nD) {n n' : ℕ} (e : n = n') (hn : n < cfg0.N) (hn' : n' < cfg0.N) :
    accAt0 V c n hn = accAt0 V c n' hn' := by subst e; rfl

theorem lastPoint0 (idx : S8192x1.Idx) : 8 * ((idx 0).val / 2048) + 7 < cfg0.N := by
  have hN : cfg0.N = 32 := N_0
  have hi : (idx 0).val < 8192 := ValueIdx.idx2_lt0 idx
  omega

/-- The running row maximum as one array: row n is row n mod 2048 of the scratch column after the last point of
    row block n / 2048. -/
def rowMaxArr0 (c : Dev nD) : Vec F S8192x1 .f32 := fun idx =>
  accAt0 V c (8 * ((idx 0).val / 2048) + 7) (lastPoint0 idx) (ValueIdx.ix2 ⟨(idx 0).val % 2048, Nat.mod_lt _ (by decide)⟩ 0)

/-- The array at a row, from any way of naming the row's block and its position in the block. -/
theorem rowMaxArr0_apply (c : Dev nD) (idx : S8192x1.Idx) (n : ℕ) (hn : n < cfg0.N) (y : S2048x1.Idx)
    (e1 : 8 * ((idx 0).val / 2048) + 7 = n) (e2 : (idx 0).val % 2048 = (y 0).val) :
    rowMaxArr0 V c idx = accAt0 V c n hn y := by
  unfold rowMaxArr0
  subst e1
  refine congrArg _ ?_
  funext a
  apply Fin.ext
  match a with
  | ⟨0, _⟩ => exact e2
  | ⟨1, _⟩ => have h1 : (y 1).val < 1 := ValueIdx.idx2_lt1 y
              show 0 = (y 1).val
              omega

/-- The output window's block index at a point, decided over the grid: row block t / 8, the one column. -/
theorem out0_index : ∀ t : Fin cfg0.N, win0_2.index t (0 : Fin 2) = t.val / 8 ∧ win0_2.index t (1 : Fin 2) = 0 :=
  (by decide +kernel : ∀ t : Fin grid0.N, _)

/-- What a last point writes back is its block of the array. -/
theorem flushed_eq0 (c : Dev nD) (t : Fin cfg0.N) (hfl : (cfg0.win 2).flush t = true) :
    (dat0 V c).flushed 2 t = ((cfg0.win 2).blk t).view.read (Elt F) (rowMaxArr0 V c) := by
  have h7 : t.val % 8 = 7 := (flush0_2 t).mp hfl
  show (cfg0.win 2).cut (grid0.coords t) ((dat0 V c).after 2 t) = _
  rw [after0_2, outAt0_eq V c t h7]
  obtain ⟨eRow, eCol⟩ := out0_index t
  funext j
  show accAt0 V c t.val t.isLt j = rowMaxArr0 V c (((cfg0.win 2).blk t).view.emb j)
  have hj : (j 0).val < 2048 := ValueIdx.idx2_lt0 j
  have hemb : ((((cfg0.win 2).blk t).view.emb j) 0).val = win0_2.index t (0 : Fin 2) * 2048 + 1 * (j 0).val := rfl
  exact (rowMaxArr0_apply V c (((cfg0.win 2).blk t).view.emb j) t.val t.isLt j (by rw [hemb, eRow]; omega) (by rw [hemb, eRow]; omega)).symm

/-- An index of the array is in point t's block iff each coordinate is in the block's range on its axis. -/
theorem blk0_mem (t : Fin cfg0.N) (idx : S8192x1.Idx) :
    idx ∈ ((cfg0.win 2).blk t).view.set ↔ ∀ a : Fin 2, win0_2.index t a * S2048x1.size a ≤ (idx a).val ∧ (idx a).val < win0_2.index t a * S2048x1.size a + S2048x1.size a := by
  show idx ∈ ((View.whole (Pipeline.arrRef spec0 2)).slice (win0_2.rect t)).set ↔ _
  rw [View.set_slice_whole, Rect.mem_set_unit]
  exact Iff.rfl

/-- Every row is in the block the last point of its row block writes back. -/
theorem cover0_rows (idx : S8192x1.Idx) : ∃ t : Fin cfg0.N, (cfg0.win 2).flush t = true ∧ idx ∈ ((cfg0.win 2).blk t).view.set := by
  have hi : (idx 0).val < 8192 := ValueIdx.idx2_lt0 idx
  have hi1 : (idx 1).val < 1 := ValueIdx.idx2_lt1 idx
  refine ⟨⟨8 * ((idx 0).val / 2048) + 7, lastPoint0 idx⟩, (flush0_2 _).mpr (by show (8 * ((idx 0).val / 2048) + 7) % 8 = 7; omega), ?_⟩
  obtain ⟨eRow, eCol⟩ := out0_index ⟨8 * ((idx 0).val / 2048) + 7, lastPoint0 idx⟩
  have eRow' : win0_2.index ⟨8 * ((idx 0).val / 2048) + 7, lastPoint0 idx⟩ (0 : Fin 2) = (idx 0).val / 2048 := by rw [eRow]; show (8 * ((idx 0).val / 2048) + 7) / 8 = _; omega
  rw [blk0_mem]
  intro a
  match a with
  | ⟨0, _⟩ => show win0_2.index _ (0 : Fin 2) * 2048 ≤ (idx 0).val ∧ (idx 0).val < win0_2.index _ (0 : Fin 2) * 2048 + 2048
              rw [eRow']; omega
  | ⟨1, _⟩ => show win0_2.index _ (1 : Fin 2) * 1 ≤ (idx 1).val ∧ (idx 1).val < win0_2.index _ (1 : Fin 2) * 1 + 1
              rw [eCol]; omega

/-- The output array after the launch: the running row maximum, row by row. -/
theorem final0 (c : Dev nD) : (dat0 V c).arrAt 2 cfg0.N = rowMaxArr0 V c :=
  (dat0 V c).arrAt_eq_of_cover 2 (rowMaxArr0 V c) (flushed_eq0 V c) cover0_rows

end Cert.KernelIdeal.RowMax

end
-- ==== Proof.MaxFold.lean ====
/-
  Maxima on the extended reals, taken in blocks and taken at once.

  A running maximum that starts at `⊥` and, block after block, is replaced by the larger of itself and the maximum
  over the next `B` columns, is after `J` blocks the maximum over the first `B * J` columns (`runMax_eq`): both are the
  least upper bound of the same values, `⊥` included. Then three readings at an index, at the ideal values: a
  `vector.multi_reduction <maximumf>` of a `2048 × 1024` vector along its second axis from the pattern of `-∞` is at
  row `r` the fold of `max` from `⊥` over that row's 1024 entries (`laneMax_apply`); a `stablehlo.reduce` with a
  maximum body of an `8192 × 8192` array from the rank-zero `-∞` is along the second axis the fold over a row's entries
  (`hostRowMax_apply`) and along the first the fold over a column's (`hostColMax_apply`). At these values
  `maximumf` is `max` (`maximumf_eq_max`).
-/
import Mathlib.Data.Finset.Fold
import Idealize.ShloMosaic.PureOps.Ideal.Laws
import Idealize.ShloMosaic.Lib.ValueIdx

noncomputable section

open Idealize.ShloMosaic Idealize.ShloMosaic.ValueIdx

namespace Cert.MaxFold

/-! ## The running maximum over blocks -/

/-- The running maximum over blocks of `B` columns of `g`: `⊥` before the first block, and after block `j` the
    larger of the value before it and the maximum of `g` over the columns `B * j, …, B * j + B - 1`. -/
def runMax (B : ℕ) (g : ℕ → EReal) : ℕ → EReal
  | 0 => ⊥
  | j + 1 => max (runMax B g j) (Finset.univ.fold max ⊥ (fun k : Fin B => g (B * j + k.val)))

theorem runMax_zero (B : ℕ) (g : ℕ → EReal) : runMax B g 0 = ⊥ := rfl

theorem runMax_succ (B : ℕ) (g : ℕ → EReal) (j : ℕ) :
    runMax B g (j + 1) = max (runMax B g j) (Finset.univ.fold max ⊥ (fun k : Fin B => g (B * j + k.val))) := rfl

/-- The maximum from `⊥` of `g` over the first `N` naturals is below `c` exactly when every one of those values is. -/
theorem foldFin_le_iff (N : ℕ) (g : ℕ → EReal) (c : EReal) :
    Finset.univ.fold max ⊥ (fun m : Fin N => g m.val) ≤ c ↔ ∀ m, m < N → g m ≤ c := by
  rw [Finset.fold_max_le]
  constructor
  · intro h m hm
    exact h.2 ⟨m, hm⟩ (Finset.mem_univ _)
  · intro h
    exact ⟨bot_le, fun x _ => h x.val x.isLt⟩

/-- The running maximum after `J` blocks is below `c` exactly when `g` is below `c` on the first `B * J` columns: a
    column below `B * (J + 1)` is below `B * J` or is `B * J + k` with `k < B`. -/
theorem runMax_le_iff (B : ℕ) (g : ℕ → EReal) (c : EReal) (J : ℕ) :
    runMax B g J ≤ c ↔ ∀ m, m < B * J → g m ≤ c := by
  induction J with
  | zero =>
    constructor
    · intro _ m hm
      exact absurd hm (by simp)
    · intro _
      exact bot_le
  | succ J ih =>
    rw [runMax_succ, max_le_iff, ih, foldFin_le_iff B (fun k => g (B * J + k)) c]
    constructor
    · rintro ⟨h1, h2⟩ m hm
      by_cases hlt : m < B * J
      · exact h1 m hlt
      · have hm' : m < B * J + B := by rw [Nat.mul_succ] at hm; exact hm
        have e : m = B * J + (m - B * J) := by omega
        rw [e]
        exact h2 (m - B * J) (by omega)
    · intro h
      refine ⟨fun m hm => h m ?_, fun k hk => h (B * J + k) ?_⟩
      · rw [Nat.mul_succ]; omega
      · rw [Nat.mul_succ]; omega

/-- After `J` blocks the running maximum is the one maximum over all `B * J` columns: the two have the same upper
    bounds. -/
theorem runMax_eq (B J : ℕ) (g : ℕ → EReal) :
    runMax B g J = Finset.univ.fold max ⊥ (fun m : Fin (B * J) => g m.val) :=
  eq_of_forall_ge_iff fun c => by rw [runMax_le_iff, foldFin_le_iff]

/-! ## The reductions read at an index -/

abbrev S2048x1024 : Shape := ⟨2, ![2048, 1024]⟩
abbrev S2048 : Shape := ⟨1, ![2048]⟩
abbrev S8192x8192 : Shape := ⟨2, ![8192, 8192]⟩
abbrev S8192 : Shape := ⟨1, ![8192]⟩
abbrev S_ : Shape := ⟨0, ![]⟩

/-- At the ideal values `maximumf` is the maximum of the extended reals. -/
theorem maximumf_eq_max (a b : Ideal .f32) : FloatOps.maximumf a b = max a b := rfl

/-- The f32 pattern of `-∞` denotes the least extended real. -/
theorem ofBits_negInf : Ideal.ofBits .f32 0xFF800000#32 = ⊥ := by simp [Ideal.ofBits, Ideal.ieee]

/-- Row `r` with coordinate `k` inserted on the second axis is the index `(r, k)`. -/
private theorem lift_lane (h : S2048x1024.Reduces [1] S2048) (r : Fin 2048) (k : Fin 1024) :
    h.lift (ix1 r) k = ix2 r k := by
  funext c
  match c with
  | ⟨0, _⟩ => rfl
  | ⟨1, _⟩ => rfl

private theorem lift_row (h : S8192x8192.Reduces [1] S8192) (r s : Fin 8192) : h.lift (ix1 r) s = ix2 r s := by
  funext c
  match c with
  | ⟨0, _⟩ => rfl
  | ⟨1, _⟩ => rfl

/-- Column `s` with coordinate `r` inserted on the first axis is the index `(r, s)`. -/
private theorem lift_col (h : S8192x8192.Reduces [0] S8192) (s r : Fin 8192) : h.lift (ix1 s) r = ix2 r s := by
  funext c
  match c with
  | ⟨0, _⟩ => rfl
  | ⟨1, _⟩ => rfl

private theorem reduces_row : S8192x8192.Reduces [1] S8192 := by decide
private theorem reduces_col : S8192x8192.Reduces [0] S8192 := by decide

/-- The maximum along the second axis of a `2048 × 1024` vector from the pattern of `-∞`, at row `r`: the fold of
    `max` from `⊥` over the row's 1024 entries. -/
theorem laneMax_apply (src : FVec Ideal S2048x1024 .f32) (h : S2048x1024.Reduces [1] S2048)
    (hk : FKind.Formats .f32) (hacc : (0xFF800000#32 : BitVec 32) = 0xFF800000#32) (r : Fin 2048) :
    multiReduction (F := Ideal) .maximumf [1] S2048 src 0xFF800000#32 h hk hacc (ix1 r)
      = Finset.univ.fold max ⊥ (fun k : Fin 1024 => src (ix2 r k)) := by
  refine (Ideal.multiReduction_maximumf_single src 0xFF800000#32 h hk hacc (ix1 r)).trans ?_
  show (Finset.univ : Finset (Fin 1024)).fold max (Ideal.ofBits .f32 0xFF800000#32) (src ∘ h.lift (ix1 r)) = _
  rw [ofBits_negInf]
  exact Finset.fold_congr fun k _ => congrArg src (lift_lane h r k)

/-- The host's maximum along the second axis of an `8192 × 8192` array from the rank-zero `-∞`, at row `r`: the fold
    of `max` from `⊥` over the row's entries. -/
theorem hostRowMax_apply (x : FVec Ideal S8192x8192 .f32) (h : S8192x8192.ReducesTo [1] S8192) (hS : 0 < S_.numel)
    (r : Fin 8192) :
    Host.reduce (FloatOps.maximumf (F := Ideal) (φ := .f32)) x (constant (F := Ideal) S_ .f32 0xFF800000#32) h hS (ix1 r)
      = Finset.univ.fold max ⊥ (fun s : Fin 8192 => x (ix2 r s)) := by
  refine (Host.reduce_eq_fold_single (FloatOps.maximumf (F := Ideal) (φ := .f32)) x _ h reduces_row hS (ix1 r)).trans ?_
  show (Finset.univ : Finset (Fin 8192)).fold max (Ideal.ofBits .f32 0xFF800000#32) (x ∘ reduces_row.lift (ix1 r)) = _
  rw [ofBits_negInf]
  exact Finset.fold_congr fun s _ => congrArg x (lift_row reduces_row r s)

/-- The host's maximum along the first axis, at column `s`: the fold of `max` from `⊥` over the column's entries. -/
theorem hostColMax_apply (x : FVec Ideal S8192x8192 .f32) (h : S8192x8192.ReducesTo [0] S8192) (hS : 0 < S_.numel)
    (s : Fin 8192) :
    Host.reduce (FloatOps.maximumf (F := Ideal) (φ := .f32)) x (constant (F := Ideal) S_ .f32 0xFF800000#32) h hS (ix1 s)
      = Finset.univ.fold max ⊥ (fun r : Fin 8192 => x (ix2 r s)) := by
  refine (Host.reduce_eq_fold_single (FloatOps.maximumf (F := Ideal) (φ := .f32)) x _ h reduces_col hS (ix1 s)).trans ?_
  show (Finset.univ : Finset (Fin 8192)).fold max (Ideal.ofBits .f32 0xFF800000#32) (x ∘ reduces_col.lift (ix1 s)) = _
  rw [ofBits_negInf]
  exact Finset.fold_congr fun r _ => congrArg x (lift_col reduces_col s r)

end Cert.MaxFold
-- ==== Proof.LibMatmulTransposedRhs.lean ====
/-
  A matrix product against a transposed right operand, read at one entry, on the extended reals.

  For the dimension numbers of an `[M, K]` by `[N, K]` product (contract the last axis of both operands, no batch
  axis), the matrix unit's product accumulated into a zero block, and the host's `dot_general`, are both, at entry
  `(r, s)`, the sum over `k` of `lhs[r, k] · rhs[s, k]`: the contraction index has one coordinate, and the operand
  indices at `(r, s)` and `k` are `(r, k)` and `(s, k)`.
-/
import Idealize.ShloMosaic.PureOps.Ideal.Laws
import Idealize.ShloMosaic.Lib.ValueIdx

noncomputable section

open scoped BigOperators
open Idealize.ShloMosaic Idealize.ShloMosaic.ValueIdx

namespace Cert.MatmulTransposedRhs

variable {M K N : Nat}

/-- The left operand's index at output `(r, s)` and contraction coordinate `k` is `(r, k)`. -/
theorem lhsIdx_transposedRhs (r : Fin M) (s : Fin N) (k : Fin K) :
    (DotDims.transposedRhs M K N).lhsIdx (ix2 r s) ((contrEquiv1 (DotDims.transposedRhs M K N) K rfl rfl).symm k) = ix2 r k := by
  have hk := contrEquiv1_symm_val (DotDims.transposedRhs M K N) K rfl rfl k
  funext a
  refine Fin.ext ?_
  match a with
  | ⟨0, _⟩ => rfl
  | ⟨1, _⟩ => exact ((DotDims.transposedRhs M K N).lhsIdx_val_of_single rfl (ix2 r s) _).trans hk

/-- The right operand's index there is `(s, k)`. -/
theorem rhsIdx_transposedRhs (r : Fin M) (s : Fin N) (k : Fin K) :
    (DotDims.transposedRhs M K N).rhsIdx (ix2 r s) ((contrEquiv1 (DotDims.transposedRhs M K N) K rfl rfl).symm k) = ix2 s k := by
  have hk := contrEquiv1_symm_val (DotDims.transposedRhs M K N) K rfl rfl k
  funext a
  refine Fin.ext ?_
  match a with
  | ⟨0, _⟩ => rfl
  | ⟨1, _⟩ => exact ((DotDims.transposedRhs M K N).rhsIdx_val_of_single rfl (ix2 r s) _).trans hk

/-- The matrix unit's product into a zero accumulator, at entry `(r, s)`: `Σ_k lhs[r, k] · rhs[s, k]`. -/
theorem matmul_zero_apply {φ₁ φ₂ : FTy} (prec : Option ContractPrecision)
    (lhs : FVec Ideal ⟨2, ![M, K]⟩ φ₁) (rhs : FVec Ideal ⟨2, ![N, K]⟩ φ₂) (r : Fin M) (s : Fin N) :
    FloatOps.matmul (DotDims.transposedRhs M K N) prec lhs rhs (constant ⟨2, ![M, N]⟩ .f32 0x00000000#32) (ix2 r s)
      = ∑ k : Fin K, lhs (ix2 r k) * rhs (ix2 s k) := by
  rw [Ideal.matmul_constant_zero_apply, ← Equiv.sum_comp (contrEquiv1 (DotDims.transposedRhs M K N) K rfl rfl).symm]
  refine Finset.sum_congr rfl fun k _ => ?_
  rw [lhsIdx_transposedRhs, rhsIdx_transposedRhs]

/-- The host's `dot_general` at entry `(r, s)`: the same sum. -/
theorem dotGeneral_apply {φ₁ φ₂ : FTy} (prec : Option ContractPrecision) (sched : HostSchedule)
    (lhs : FVec Ideal ⟨2, ![M, K]⟩ φ₁) (rhs : FVec Ideal ⟨2, ![N, K]⟩ φ₂) (r : Fin M) (s : Fin N) :
    FloatOps.dotGeneral (DotDims.transposedRhs M K N) prec sched lhs rhs (ix2 r s)
      = ∑ k : Fin K, lhs (ix2 r k) * rhs (ix2 s k) := by
  rw [Ideal.dotGeneral_apply, ← Equiv.sum_comp (contrEquiv1 (DotDims.transposedRhs M K N) K rfl rfl).symm]
  refine Finset.sum_congr rfl fun k _ => ?_
  rw [lhsIdx_transposedRhs, rhsIdx_transposedRhs]

end Cert.MatmulTransposedRhs

end
-- ==== Proof.R0Ideal.lean ====
/-
  One launch of the row-maximum kernel, at the ideal values (floats are extended reals, operations exact): what the
  scratch column holds after each point, in closed form.

  The value stored at the reset is `⊥` in every row. The value stored at every point is, in row `r`, the larger of the
  row's previous entry and the maximum over the 1024 columns `k` of the inner product of row `r` of the left block
  with row `k` of the right block. At point `t = 8·i + j` the left block is rows `2048·i …` of the left array and the
  right block is rows `1024·j …` of the right array, so after that point row `r` of the column is the running maximum
  over the first `j + 1` blocks of 1024 columns of the inner products of row `2048·i + r` of the left array with the
  rows of the right array; after `j = 7` it is the maximum over all 8192 of them.
-/
import proofs.«171457_j18339510354596_1_alg».proof.Proof.R0Value
import proofs.«171457_j18339510354596_1_alg».proof.Proof.MaxFold
import proofs.«171457_j18339510354596_1_alg».proof.Proof.LibMatmulTransposedRhs
import Idealize.ShloMosaic.Lib.ValueIdx
import Idealize.ShloMosaic.Lib.ValueLayout
import Idealize.ShloMosaic.Lib.Pipeline.Value
import Mathlib.Data.Finset.Fold

set_option maxRecDepth 16384

noncomputable section

namespace Cert.KernelIdeal.RowMax

open scoped BigOperators
open Cert.KernelIdeal Cert.KernelIdeal.Gen
open Idealize.ShloMosaic Idealize.ShloMosaic.TcCoe Idealize.ShloMosaic.ValueIdx
open Idealize.ShloMosaic.Pipeline (Dat Cfg Window)

/-! ## The two stored values, read at a row -/

/-- The reset value is `⊥` in every row: the word of `-∞`, broadcast. -/
theorem pay1_apply0 (r : Fin 2048) : k0_pay1 (F := Ideal) (ix2 r 0) = ⊥ := by
  unfold k0_pay1
  rw [shapeCast_self]
  exact Cert.MaxFold.ofBits_negInf

/-- A vector of `a` entries cast to a column `[a, 1]` reads, at `(i, u)`, the operand at `i`. -/
private theorem shapeCast_col_apply0 {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The product's dimension numbers are those of a `2048 × 768` by `1024 × 768` product against the transposed right
    operand. -/
private theorem dot_eq0 : dot_S2048x768_S1024x768_S2048x1024_1_1_0_0_n_n = DotDims.transposedRhs 2048 768 1024 := rfl

/-- The value stored at every point, at row `r`: the larger of the previous entry and the maximum over the right
    block's 1024 rows of the inner products with row `r` of the left block. -/
theorem pay2_apply0 (x0 : Vec Ideal S2048x768 .bf16) (x1 : Vec Ideal S1024x768 .bf16) (v : Vec Ideal S2048x1 .f32) (r : Fin 2048) :
    k0_pay2 (F := Ideal) x0 x1 v (ix2 r 0)
      = max (v (ix2 r 0)) (Finset.univ.fold max ⊥ (fun k : Fin 1024 => ∑ d : Fin 768, x0 (ix2 r d) * x1 (ix2 k d))) := by
  unfold k0_pay2
  simp only [shapeCast_self]
  rw [maximumf_apply]
  refine congrArg (max (v (ix2 r 0))) ?_
  refine (shapeCast_col_apply0 _ _ r 0).trans ?_
  refine (Cert.MaxFold.laneMax_apply _ _ _ _ r).trans ?_
  refine Finset.fold_congr fun k _ => ?_
  rw [dot_eq0]
  exact Cert.MatmulTransposedRhs.matmul_zero_apply none x0 x1 r k

/-! ## The operand blocks, read at an entry -/

section Blocks
variable {F : FTy → Type} [FloatOps F]
variable (V : (c : Dev nD) → (b : Ref sig .tc) → Buf (Elt F) ((c : Thread nD τ).loc b))

/-- The left window's block index at point `t = 8·i + j` is `(i, 0)`, -/
private theorem lhsIndex0 : ∀ t : Fin cfg0.N, win0_0.index t (0 : Fin 2) = t.val / 8 ∧ win0_0.index t (1 : Fin 2) = 0 :=
  (by decide +kernel : ∀ t : Fin grid0.N, win0_0.index t (0 : Fin 2) = t.val / 8 ∧ win0_0.index t (1 : Fin 2) = 0)

/-- and the right window's is `(j, 0)`. -/
private theorem rhsIndex0 : ∀ t : Fin cfg0.N, win0_1.index t (0 : Fin 2) = t.val % 8 ∧ win0_1.index t (1 : Fin 2) = 0 :=
  (by decide +kernel : ∀ t : Fin grid0.N, win0_1.index t (0 : Fin 2) = t.val % 8 ∧ win0_1.index t (1 : Fin 2) = 0)

/-- Row `r` of row block `i` of the left array is one of its 8192 rows. -/
theorem lhsRow_lt0 (t : Fin cfg0.N) (r : Fin 2048) : 2048 * (t.val / 8) + r.val < 8192 := by
  have hN : t.val < 32 := lt_of_lt_of_eq t.isLt (show cfg0.N = 32 from N_0)
  omega

/-- Row `k` of row block `j` of the right array is one of its 8192 rows. -/
theorem rhsRow_lt0 (t : Fin cfg0.N) (k : Fin 1024) : 1024 * (t.val % 8) + k.val < 8192 := by
  omega

/-- The left block at point `t = 8·i + j` is rows `2048·i …` of the left array. -/
theorem blk0_lhs_apply (c : Dev nD) (t : Fin cfg0.N) (r : Fin 2048) (d : Fin 768) :
    blk0 V c 0 t (ix2 r d) = V c (Pipeline.arrRef spec0 0) (ix2 ⟨2048 * (t.val / 8) + r.val, lhsRow_lt0 t r⟩ d) := by
  have hi := lhsIndex0 t
  unfold blk0
  rw [View.read_apply]
  show V c (Pipeline.arrRef spec0 0) _ = V c (Pipeline.arrRef spec0 0) _
  congr 1
  funext a
  apply Fin.ext
  match a with
  | ⟨0, _⟩ => show win0_0.index t 0 * 2048 + 1 * r.val = 2048 * (t.val / 8) + r.val; rw [hi.1]; omega
  | ⟨1, _⟩ => show win0_0.index t 1 * 768 + 1 * d.val = d.val; rw [hi.2]; omega

/-- The right block at point `t = 8·i + j` is rows `1024·j …` of the right array. -/
theorem blk0_rhs_apply (c : Dev nD) (t : Fin cfg0.N) (k : Fin 1024) (d : Fin 768) :
    blk0 V c 1 t (ix2 k d) = V c (Pipeline.arrRef spec0 1) (ix2 ⟨1024 * (t.val % 8) + k.val, rhsRow_lt0 t k⟩ d) := by
  have hi := rhsIndex0 t
  unfold blk0
  rw [View.read_apply]
  show V c (Pipeline.arrRef spec0 1) _ = V c (Pipeline.arrRef spec0 1) _
  congr 1
  funext a
  apply Fin.ext
  match a with
  | ⟨0, _⟩ => show win0_1.index t 0 * 1024 + 1 * k.val = 1024 * (t.val % 8) + k.val; rw [hi.1]; omega
  | ⟨1, _⟩ => show win0_1.index t 1 * 768 + 1 * d.val = d.val; rw [hi.2]; omega

end Blocks

/-! ## The scratch column in closed form -/

section Closed
variable (V : (c : Dev nD) → (b : Ref sig .tc) → Buf (Elt Ideal) ((c : Thread nD τ).loc b))

/-- The left array as the launch finds it, -/
abbrev lhsArr0 (c : Dev nD) : FVec Ideal S8192x768 .bf16 := V c (Pipeline.arrRef spec0 0)
/-- and the right array. -/
abbrev rhsArr0 (c : Dev nD) : FVec Ideal S8192x768 .bf16 := V c (Pipeline.arrRef spec0 1)

/-- Row `n` of the left array against the rows of the right array: the inner product with row `s`, and `⊥` past the
    last row. -/
def rowDots0 (c : Dev nD) (n : Fin 8192) : ℕ → EReal := fun s =>
  if h : s < 8192 then ∑ d : Fin 768, lhsArr0 V c (ix2 n d) * rhsArr0 V c (ix2 ⟨s, h⟩ d) else ⊥

/-- One update at point `t = 8·i + j`, at row `r`: the larger of the previous entry and the maximum of the inner
    products of row `2048·i + r` of the left array with rows `1024·j, …, 1024·j + 1023` of the right array. -/
private theorem pay2_at0 (c : Dev nD) (t : Fin cfg0.N) (v : Vec Ideal S2048x1 .f32) (r : Fin 2048) (n : Fin 8192)
    (hn : n.val = 2048 * (t.val / 8) + r.val) :
    k0_pay2 (F := Ideal) (blk0 V c 0 t) (blk0 V c 1 t) v (ix2 r 0)
      = max (v (ix2 r 0)) (Finset.univ.fold max ⊥ (fun k : Fin 1024 => rowDots0 V c n (1024 * (t.val % 8) + k.val))) := by
  refine (pay2_apply0 (blk0 V c 0 t) (blk0 V c 1 t) v r).trans ?_
  refine congrArg (max (v (ix2 r 0))) ?_
  refine Finset.fold_congr fun k _ => ?_
  have hne : n = ⟨2048 * (t.val / 8) + r.val, lhsRow_lt0 t r⟩ := Fin.ext hn
  unfold rowDots0
  rw [dif_pos (rhsRow_lt0 t k), hne]
  refine Finset.sum_congr rfl fun d _ => ?_
  rw [blk0_lhs_apply, blk0_rhs_apply]

/-- After the point at position `m = 8·i + j` row `r` of the scratch column is the running maximum, over the first
    `j + 1` blocks of 1024 rows of the right array, of the inner products with row `2048·i + r` of the left array. -/
private theorem accAt0_closed_aux (c : Dev nD) : ∀ (m : ℕ) (hm : m < cfg0.N) (r : Fin 2048) (n : Fin 8192),
    n.val = 2048 * (m / 8) + r.val →
    accAt0 V c m hm (ix2 r 0) = Cert.MaxFold.runMax 1024 (rowDots0 V c n) (m % 8 + 1) := by
  intro m
  induction m with
  | zero =>
    intro hm r n hn
    refine (congrFun (accAt0_reset V c ⟨0, hm⟩ (Nat.zero_mod _)) (ix2 r 0)).trans ?_
    refine (pay2_at0 V c ⟨0, hm⟩ _ r n hn).trans ?_
    rw [pay1_apply0]
    rfl
  | succ m ih =>
    intro hm r n hn
    by_cases h0 : (m + 1) % 8 = 0
    · refine (congrFun (accAt0_reset V c ⟨m + 1, hm⟩ h0) (ix2 r 0)).trans ?_
      refine (pay2_at0 V c ⟨m + 1, hm⟩ _ r n hn).trans ?_
      rw [pay1_apply0]
      show max ⊥ (Finset.univ.fold max ⊥ (fun k : Fin 1024 => rowDots0 V c n (1024 * ((m + 1) % 8) + k.val))) = _
      rw [h0]
      rfl
    · refine (congrFun (accAt0_step V c ⟨m + 1, hm⟩ h0) (ix2 r 0)).trans ?_
      refine (pay2_at0 V c ⟨m + 1, hm⟩ _ r n hn).trans ?_
      have hprev : accAt0 V c ((⟨m + 1, hm⟩ : Fin cfg0.N).val - 1) (prev_lt0 ⟨m + 1, hm⟩) (ix2 r 0)
          = Cert.MaxFold.runMax 1024 (rowDots0 V c n) (m % 8 + 1) :=
        ih (Nat.lt_of_succ_lt hm) r n (by rw [hn]; show 2048 * ((m + 1) / 8) + r.val = 2048 * (m / 8) + r.val; omega)
      rw [hprev]
      show max (Cert.MaxFold.runMax 1024 (rowDots0 V c n) (m % 8 + 1))
          (Finset.univ.fold max ⊥ (fun k : Fin 1024 => rowDots0 V c n (1024 * ((m + 1) % 8) + k.val))) = _
      have hs : (m + 1) % 8 = m % 8 + 1 := by omega
      rw [hs]
      rfl

/-- After point `t = 8·i + j` row `r` of the scratch column is the running maximum over the first `j + 1` blocks of
    1024 rows of the right array of the inner products with row `2048·i + r` of the left array. -/
theorem accAt0_closed (c : Dev nD) (t : Fin cfg0.N) (r : Fin 2048) :
    accAt0 V c t.val t.isLt (ix2 r 0)
      = Cert.MaxFold.runMax 1024 (rowDots0 V c ⟨2048 * (t.val / 8) + r.val, lhsRow_lt0 t r⟩) (t.val % 8 + 1) :=
  accAt0_closed_aux V c t.val t.isLt r _ rfl

/-- Row `n` of the column of row maxima: the maximum over all 8192 rows `s` of the right array of the inner product
    of row `n` of the left array with row `s`. -/
theorem rowMaxArr0_closed (c : Dev nD) (n : Fin 8192) :
    rowMaxArr0 V c (ix2 n 0)
      = Finset.univ.fold max ⊥ (fun s : Fin 8192 => ∑ d : Fin 768, lhsArr0 V c (ix2 n d) * rhsArr0 V c (ix2 s d)) := by
  have hN : cfg0.N = 32 := N_0
  have hlt : 8 * (n.val / 2048) + 7 < cfg0.N := by have := n.isLt; omega
  refine (rowMaxArr0_apply V c (ix2 n 0) (8 * (n.val / 2048) + 7) hlt
    (ix2 ⟨n.val % 2048, Nat.mod_lt _ (by norm_num)⟩ 0) rfl rfl).trans ?_
  refine (accAt0_closed_aux V c (8 * (n.val / 2048) + 7) hlt ⟨n.val % 2048, Nat.mod_lt _ (by norm_num)⟩ n
    (by show n.val = 2048 * ((8 * (n.val / 2048) + 7) / 8) + n.val % 2048; omega)).trans ?_
  have h8 : (8 * (n.val / 2048) + 7) % 8 + 1 = 8 := by omega
  rw [h8, Cert.MaxFold.runMax_eq 1024 8]
  show Finset.univ.fold max ⊥ (fun s : Fin 8192 => rowDots0 V c n s.val) = _
  refine Finset.fold_congr fun s _ => ?_
  unfold rowDots0
  rw [dif_pos s.isLt]

end Closed

end Cert.KernelIdeal.RowMax

end
-- ==== Proof.R1Value.lean ====
/-
  One region of the program (one launch of the row-maximum kernel): the values.

  The pieces the body's stores leave are the fold step of the running maximum: a first point leaves the first
  column block's row maximum folded into −∞, every other point the point's column block folded into what the
  point before left, and a last point copies the column to the output block. So after the last point of row
  block i the output array's row block i holds the running maximum over the eight column blocks, and the
  array ends holding, row by row, the scratch column after the last point of the row's block.
-/
import proofs.«171457_j18339510354596_1_alg».proof.Proof.R1Frame
import Idealize.ShloMosaic.Lib.Pipeline.Value
import Idealize.ShloMosaic.Lib.ValueIdx

set_option maxRecDepth 16384

noncomputable section

namespace Cert.KernelIdeal.RowMax

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hz1 : (![0, 0] : Fin 2 → Nat) = fun _ => 0 := funext fun a => by fin_cases a <;> rfl

/-! ## The pieces the stores leave, as values -/

/-- A middle point leaves the column folded once: one covering store, whose loads read whole buffers. -/
theorem accMid1_eq (c : Dev nD) (i : grid1.Coords) (arg2 : Memref sig .tc .vmem S2048x768 .bf16) (harg2 : arg2.IsWhole) (arg3 : Memref sig .tc .vmem S1024x768 .bf16) (harg3 : arg3.IsWhole) (arg4 : Memref sig .tc .vmem S2048x1 .f32) (harg4 : arg4.IsWhole) (arg5 : Memref sig .tc .vmem S2048x1 .f32) (harg5 : arg5.IsWhole) (hf : ¬isFirst1 i) (hl : ¬isLast1 i)
    (x0 : Vec F S2048x768 .bf16) (x1 : Vec F S1024x768 .bf16) (xs : Vec F S2048x1 .f32) :
    accMid1 c i arg2 harg2 arg3 harg3 arg4 harg4 arg5 harg5 hf hl x0 x1 xs = k1_pay2 x0 x1 xs := by
  unfold accMid1
  rw [View.read_writes_eq_canon _ _ _ (accCover_mid1 c i arg2 harg2 arg3 harg3 arg4 harg4 arg5 harg5 hf hl x0 x1 xs)]
  unfold bodyMid1
  dsimp only
  sl_unfold_words
  rw [View.canon_unit_zero hz1]
  simp only [View.readAt_eq_ld, harg2.read_unread, harg3.read_unread, harg5.read_unread, View.ld_unit_zero (S := S2048x768) hz1, View.ld_unit_zero (S := S1024x768) hz1, View.ld_unit_zero (S := S2048x1) hz1, View.readCov_unit_zero (S := S2048x1) _ hz1]

/-- A first point stores −∞, reads it back and folds the first column block into it. -/
theorem accFirst1_eq (c : Dev nD) (i : grid1.Coords) (arg2 : Memref sig .tc .vmem S2048x768 .bf16) (harg2 : arg2.IsWhole) (arg3 : Memref sig .tc .vmem S1024x768 .bf16) (harg3 : arg3.IsWhole) (arg4 : Memref sig .tc .vmem S2048x1 .f32) (harg4 : arg4.IsWhole) (arg5 : Memref sig .tc .vmem S2048x1 .f32) (harg5 : arg5.IsWhole) (hf : isFirst1 i) (hl : ¬isLast1 i)
    (x0 : Vec F S2048x768 .bf16) (x1 : Vec F S1024x768 .bf16) :
    accFirst1 c i arg2 harg2 arg3 harg3 arg4 harg4 arg5 harg5 hf hl x0 x1 = k1_pay2 x0 x1 (k1_pay1 (F := F)) := by
  unfold accFirst1
  rw [View.read_writes_eq_canon _ _ _ (accCover_first1 c i arg2 harg2 arg3 harg3 arg4 harg4 arg5 harg5 hf hl x0 x1)]
  unfold bodyFirst1
  dsimp only
  sl_unfold_words
  rw [View.canon_cons_unit_zero (S := S2048x1) hz1, View.readCov_unit_zero (S := S2048x1) _ hz1]
  simp only [View.readAt_eq_ld, harg2.read_unread, harg3.read_unread, harg5.read_unread, View.ld_unit_zero (S := S2048x768) hz1, View.ld_unit_zero (S := S1024x768) hz1, View.ld_unit_zero (S := S2048x1) hz1, View.readCov_unit_zero (S := S2048x1) _ hz1]

/-- A last point folds the last column block in, -/
theorem accLast1_eq (c : Dev nD) (i : grid1.Coords) (arg2 : Memref sig .tc .vmem S2048x768 .bf16) (harg2 : arg2.IsWhole) (arg3 : Memref sig .tc .vmem S1024x768 .bf16) (harg3 : arg3.IsWhole) (arg4 : Memref sig .tc .vmem S2048x1 .f32) (harg4 : arg4.IsWhole) (arg5 : Memref sig .tc .vmem S2048x1 .f32) (harg5 : arg5.IsWhole) (hf : ¬isFirst1 i) (hl : isLast1 i)
    (x0 : Vec F S2048x768 .bf16) (x1 : Vec F S1024x768 .bf16) (xs : Vec F S2048x1 .f32) :
    accLast1 c i arg2 harg2 arg3 harg3 arg4 harg4 arg5 harg5 hf hl x0 x1 xs = k1_pay2 x0 x1 xs := by
  unfold accLast1
  rw [View.read_writes_eq_canon _ _ _ (accCover_last1 c i arg2 harg2 arg3 harg3 arg4 harg4 arg5 harg5 hf hl x0 x1 xs)]
  unfold bodyLast1
  dsimp only
  sl_unfold_words
  rw [View.canon_unit_zero hz1]
  simp only [View.readAt_eq_ld, harg2.read_unread, harg3.read_unread, harg5.read_unread, View.ld_unit_zero (S := S2048x768) hz1, View.ld_unit_zero (S := S1024x768) hz1, View.ld_unit_zero (S := S2048x1) hz1, View.readCov_unit_zero (S := S2048x1) _ hz1]

/-- and copies the column, read back after that store, to the output block. -/
theorem outLast1_eq (c : Dev nD) (i : grid1.Coords) (arg2 : Memref sig .tc .vmem S2048x768 .bf16) (harg2 : arg2.IsWhole) (arg3 : Memref sig .tc .vmem S1024x768 .bf16) (harg3 : arg3.IsWhole) (arg4 : Memref sig .tc .vmem S2048x1 .f32) (harg4 : arg4.IsWhole) (arg5 : Memref sig .tc .vmem S2048x1 .f32) (harg5 : arg5.IsWhole) (hf : ¬isFirst1 i) (hl : isLast1 i)
    (x0 : Vec F S2048x768 .bf16) (x1 : Vec F S1024x768 .bf16) (xs : Vec F S2048x1 .f32) :
    outLast1 c i arg2 harg2 arg3 harg3 arg4 harg4 arg5 harg5 hf hl x0 x1 xs = k1_pay2 x0 x1 xs := by
  unfold outLast1
  rw [View.read_writes_eq_canon _ _ _ (outCover_last1 c i arg2 harg2 arg3 harg3 arg4 harg4 arg5 harg5 hf hl x0 x1 xs)]
  unfold bodyLast1
  dsimp only
  sl_unfold_words
  rw [View.canon_unit_zero hz1, View.readCov_unit_zero (S := S2048x1) _ hz1]
  simp only [View.readAt_eq_ld, harg2.read_unread, harg3.read_unread, harg5.read_unread, View.ld_unit_zero (S := S2048x768) hz1, View.ld_unit_zero (S := S1024x768) hz1, View.ld_unit_zero (S := S2048x1) hz1, View.readCov_unit_zero (S := S2048x1) _ hz1]

/-! ## The running maximum in closed equations -/

/-- At the first point of a row the column is the first column block's row maximum folded into −∞. -/
theorem accAt1_reset (c : Dev nD) (t : Fin cfg1.N) (h0 : t.val % 8 = 0) :
    accAt1 V c t.val t.isLt = k1_pay2 (blk1 V c 0 t) (blk1 V c 1 t) (k1_pay1 (F := F)) := by
  rw [accAt1_first V c t h0]
  unfold accFirstAt1
  exact accFirst1_eq c (grid1.coords t) (lhsM1 t) (lhsW1 t) (rhsM1 t) (rhsW1 t) (outM1 t) (outW1 t) accM1 (Memref.isWhole_whole _) (first_of_mod1 h0) (notLast_of_first1 h0) (blk1 V c 0 t) (blk1 V c 1 t)

/-- At every other point it is the point's column block folded into what the point before left. -/
theorem accAt1_step (c : Dev nD) (t : Fin cfg1.N) (h0 : ¬t.val % 8 = 0) :
    accAt1 V c t.val t.isLt = k1_pay2 (blk1 V c 0 t) (blk1 V c 1 t) (accAt1 V c (t.val - 1) (prev_lt1 t)) := by
  by_cases h7 : t.val % 8 = 7
  · rw [accAt1_last V c t h0 h7]
    unfold accLastAt1
    exact accLast1_eq c (grid1.coords t) (lhsM1 t) (lhsW1 t) (rhsM1 t) (rhsW1 t) (outM1 t) (outW1 t) accM1 (Memref.isWhole_whole _) (notFirst_of_mod1 h0) (last_of_mod1 h7) (blk1 V c 0 t) (blk1 V c 1 t) (accAt1 V c (t.val - 1) (prev_lt1 t))
  · rw [accAt1_mid V c t h0 h7]
    unfold accMidAt1
    exact accMid1_eq c (grid1.coords t) (lhsM1 t) (lhsW1 t) (rhsM1 t) (rhsW1 t) (outM1 t) (outW1 t) accM1 (Memref.isWhole_whole _) (notFirst_of_mod1 h0) (notLast_of_mod1 h7) (blk1 V c 0 t) (blk1 V c 1 t) (accAt1 V c (t.val - 1) (prev_lt1 t))

/-- At the last point of a row the output block receives the column. -/
theorem outAt1_eq (c : Dev nD) (t : Fin cfg1.N) (h7 : t.val % 8 = 7) : outAt1 V c t = accAt1 V c t.val t.isLt := by
  have h0 : ¬t.val % 8 = 0 := by omega
  rw [outAt1_last V c t h0 h7, accAt1_last V c t h0 h7]
  unfold outLastAt1 accLastAt1
  exact (outLast1_eq c (grid1.coords t) (lhsM1 t) (lhsW1 t) (rhsM1 t) (rhsW1 t) (outM1 t) (outW1 t) accM1 (Memref.isWhole_whole _) (notFirst_of_mod1 h0) (last_of_mod1 h7) (blk1 V c 0 t) (blk1 V c 1 t) (accAt1 V c (t.val - 1) (prev_lt1 t))).trans
    (accLast1_eq c (grid1.coords t) (lhsM1 t) (lhsW1 t) (rhsM1 t) (rhsW1 t) (outM1 t) (outW1 t) accM1 (Memref.isWhole_whole _) (notFirst_of_mod1 h0) (last_of_mod1 h7) (blk1 V c 0 t) (blk1 V c 1 t) (accAt1 V c (t.val - 1) (prev_lt1 t))).symm

/-! ## From the blocks to the array -/

theorem accAt1_congr (c : Dev nD) {n n' : ℕ} (e : n = n') (hn : n < cfg1.N) (hn' : n' < cfg1.N) :
    accAt1 V c n hn = accAt1 V c n' hn' := by subst e; rfl

theorem lastPoint1 (idx : S8192x1.Idx) : 8 * ((idx 0).val / 2048) + 7 < cfg1.N := by
  have hN : cfg1.N = 32 := N_1
  have hi : (idx 0).val < 8192 := ValueIdx.idx2_lt0 idx
  omega

/-- The running row maximum as one array: row n is row n mod 2048 of the scratch column after the last point of
    row block n / 2048. -/
def rowMaxArr1 (c : Dev nD) : Vec F S8192x1 .f32 := fun idx =>
  accAt1 V c (8 * ((idx 0).val / 2048) + 7) (lastPoint1 idx) (ValueIdx.ix2 ⟨(idx 0).val % 2048, Nat.mod_lt _ (by decide)⟩ 0)

/-- The array at a row, from any way of naming the row's block and its position in the block. -/
theorem rowMaxArr1_apply (c : Dev nD) (idx : S8192x1.Idx) (n : ℕ) (hn : n < cfg1.N) (y : S2048x1.Idx)
    (e1 : 8 * ((idx 0).val / 2048) + 7 = n) (e2 : (idx 0).val % 2048 = (y 0).val) :
    rowMaxArr1 V c idx = accAt1 V c n hn y := by
  unfold rowMaxArr1
  subst e1
  refine congrArg _ ?_
  funext a
  apply Fin.ext
  match a with
  | ⟨0, _⟩ => exact e2
  | ⟨1, _⟩ => have h1 : (y 1).val < 1 := ValueIdx.idx2_lt1 y
              show 0 = (y 1).val
              omega

/-- The output window's block index at a point, decided over the grid: row block t / 8, the one column. -/
theorem out1_index : ∀ t : Fin cfg1.N, win1_2.index t (0 : Fin 2) = t.val / 8 ∧ win1_2.index t (1 : Fin 2) = 0 :=
  (by decide +kernel : ∀ t : Fin grid1.N, _)

/-- What a last point writes back is its block of the array. -/
theorem flushed_eq1 (c : Dev nD) (t : Fin cfg1.N) (hfl : (cfg1.win 2).flush t = true) :
    (dat1 V c).flushed 2 t = ((cfg1.win 2).blk t).view.read (Elt F) (rowMaxArr1 V c) := by
  have h7 : t.val % 8 = 7 := (flush1_2 t).mp hfl
  show (cfg1.win 2).cut (grid1.coords t) ((dat1 V c).after 2 t) = _
  rw [after1_2, outAt1_eq V c t h7]
  obtain ⟨eRow, eCol⟩ := out1_index t
  funext j
  show accAt1 V c t.val t.isLt j = rowMaxArr1 V c (((cfg1.win 2).blk t).view.emb j)
  have hj : (j 0).val < 2048 := ValueIdx.idx2_lt0 j
  have hemb : ((((cfg1.win 2).blk t).view.emb j) 0).val = win1_2.index t (0 : Fin 2) * 2048 + 1 * (j 0).val := rfl
  exact (rowMaxArr1_apply V c (((cfg1.win 2).blk t).view.emb j) t.val t.isLt j (by rw [hemb, eRow]; omega) (by rw [hemb, eRow]; omega)).symm

/-- An index of the array is in point t's block iff each coordinate is in the block's range on its axis. -/
theorem blk1_mem (t : Fin cfg1.N) (idx : S8192x1.Idx) :
    idx ∈ ((cfg1.win 2).blk t).view.set ↔ ∀ a : Fin 2, win1_2.index t a * S2048x1.size a ≤ (idx a).val ∧ (idx a).val < win1_2.index t a * S2048x1.size a + S2048x1.size a := by
  show idx ∈ ((View.whole (Pipeline.arrRef spec1 2)).slice (win1_2.rect t)).set ↔ _
  rw [View.set_slice_whole, Rect.mem_set_unit]
  exact Iff.rfl

/-- Every row is in the block the last point of its row block writes back. -/
theorem cover1_rows (idx : S8192x1.Idx) : ∃ t : Fin cfg1.N, (cfg1.win 2).flush t = true ∧ idx ∈ ((cfg1.win 2).blk t).view.set := by
  have hi : (idx 0).val < 8192 := ValueIdx.idx2_lt0 idx
  have hi1 : (idx 1).val < 1 := ValueIdx.idx2_lt1 idx
  refine ⟨⟨8 * ((idx 0).val / 2048) + 7, lastPoint1 idx⟩, (flush1_2 _).mpr (by show (8 * ((idx 0).val / 2048) + 7) % 8 = 7; omega), ?_⟩
  obtain ⟨eRow, eCol⟩ := out1_index ⟨8 * ((idx 0).val / 2048) + 7, lastPoint1 idx⟩
  have eRow' : win1_2.index ⟨8 * ((idx 0).val / 2048) + 7, lastPoint1 idx⟩ (0 : Fin 2) = (idx 0).val / 2048 := by rw [eRow]; show (8 * ((idx 0).val / 2048) + 7) / 8 = _; omega
  rw [blk1_mem]
  intro a
  match a with
  | ⟨0, _⟩ => show win1_2.index _ (0 : Fin 2) * 2048 ≤ (idx 0).val ∧ (idx 0).val < win1_2.index _ (0 : Fin 2) * 2048 + 2048
              rw [eRow']; omega
  | ⟨1, _⟩ => show win1_2.index _ (1 : Fin 2) * 1 ≤ (idx 1).val ∧ (idx 1).val < win1_2.index _ (1 : Fin 2) * 1 + 1
              rw [eCol]; omega

/-- The output array after the launch: the running row maximum, row by row. -/
theorem final1 (c : Dev nD) : (dat1 V c).arrAt 2 cfg1.N = rowMaxArr1 V c :=
  (dat1 V c).arrAt_eq_of_cover 2 (rowMaxArr1 V c) (flushed_eq1 V c) cover1_rows

end Cert.KernelIdeal.RowMax

end
-- ==== Proof.R1Ideal.lean ====
/-
  One launch of the row-maximum kernel, at the ideal values (floats are extended reals, operations exact): what the
  scratch column holds after each point, in closed form.

  The value stored at the reset is `⊥` in every row. The value stored at every point is, in row `r`, the larger of the
  row's previous entry and the maximum over the 1024 columns `k` of the inner product of row `r` of the left block
  with row `k` of the right block. At point `t = 8·i + j` the left block is rows `2048·i …` of the left array and the
  right block is rows `1024·j …` of the right array, so after that point row `r` of the column is the running maximum
  over the first `j + 1` blocks of 1024 columns of the inner products of row `2048·i + r` of the left array with the
  rows of the right array; after `j = 7` it is the maximum over all 8192 of them.
-/
import proofs.«171457_j18339510354596_1_alg».proof.Proof.R1Value
import proofs.«171457_j18339510354596_1_alg».proof.Proof.MaxFold
import proofs.«171457_j18339510354596_1_alg».proof.Proof.LibMatmulTransposedRhs
import Idealize.ShloMosaic.Lib.ValueIdx
import Idealize.ShloMosaic.Lib.ValueLayout
import Idealize.ShloMosaic.Lib.Pipeline.Value
import Mathlib.Data.Finset.Fold

set_option maxRecDepth 16384

noncomputable section

namespace Cert.KernelIdeal.RowMax

open scoped BigOperators
open Cert.KernelIdeal Cert.KernelIdeal.Gen
open Idealize.ShloMosaic Idealize.ShloMosaic.TcCoe Idealize.ShloMosaic.ValueIdx
open Idealize.ShloMosaic.Pipeline (Dat Cfg Window)

/-! ## The two stored values, read at a row -/

/-- The reset value is `⊥` in every row: the word of `-∞`, broadcast. -/
theorem pay1_apply1 (r : Fin 2048) : k1_pay1 (F := Ideal) (ix2 r 0) = ⊥ := by
  unfold k1_pay1
  rw [shapeCast_self]
  exact Cert.MaxFold.ofBits_negInf

/-- A vector of `a` entries cast to a column `[a, 1]` reads, at `(i, u)`, the operand at `i`. -/
private theorem shapeCast_col_apply1 {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The product's dimension numbers are those of a `2048 × 768` by `1024 × 768` product against the transposed right
    operand. -/
private theorem dot_eq1 : dot_S2048x768_S1024x768_S2048x1024_1_1_0_0_n_n = DotDims.transposedRhs 2048 768 1024 := rfl

/-- The value stored at every point, at row `r`: the larger of the previous entry and the maximum over the right
    block's 1024 rows of the inner products with row `r` of the left block. -/
theorem pay2_apply1 (x0 : Vec Ideal S2048x768 .bf16) (x1 : Vec Ideal S1024x768 .bf16) (v : Vec Ideal S2048x1 .f32) (r : Fin 2048) :
    k1_pay2 (F := Ideal) x0 x1 v (ix2 r 0)
      = max (v (ix2 r 0)) (Finset.univ.fold max ⊥ (fun k : Fin 1024 => ∑ d : Fin 768, x0 (ix2 r d) * x1 (ix2 k d))) := by
  unfold k1_pay2
  simp only [shapeCast_self]
  rw [maximumf_apply]
  refine congrArg (max (v (ix2 r 0))) ?_
  refine (shapeCast_col_apply1 _ _ r 0).trans ?_
  refine (Cert.MaxFold.laneMax_apply _ _ _ _ r).trans ?_
  refine Finset.fold_congr fun k _ => ?_
  rw [dot_eq1]
  exact Cert.MatmulTransposedRhs.matmul_zero_apply none x0 x1 r k

/-! ## The operand blocks, read at an entry -/

section Blocks
variable {F : FTy → Type} [FloatOps F]
variable (V : (c : Dev nD) → (b : Ref sig .tc) → Buf (Elt F) ((c : Thread nD τ).loc b))

/-- The left window's block index at point `t = 8·i + j` is `(i, 0)`, -/
private theorem lhsIndex1 : ∀ t : Fin cfg1.N, win1_0.index t (0 : Fin 2) = t.val / 8 ∧ win1_0.index t (1 : Fin 2) = 0 :=
  (by decide +kernel : ∀ t : Fin grid1.N, win1_0.index t (0 : Fin 2) = t.val / 8 ∧ win1_0.index t (1 : Fin 2) = 0)

/-- and the right window's is `(j, 0)`. -/
private theorem rhsIndex1 : ∀ t : Fin cfg1.N, win1_1.index t (0 : Fin 2) = t.val % 8 ∧ win1_1.index t (1 : Fin 2) = 0 :=
  (by decide +kernel : ∀ t : Fin grid1.N, win1_1.index t (0 : Fin 2) = t.val % 8 ∧ win1_1.index t (1 : Fin 2) = 0)

/-- Row `r` of row block `i` of the left array is one of its 8192 rows. -/
theorem lhsRow_lt1 (t : Fin cfg1.N) (r : Fin 2048) : 2048 * (t.val / 8) + r.val < 8192 := by
  have hN : t.val < 32 := lt_of_lt_of_eq t.isLt (show cfg1.N = 32 from N_1)
  omega

/-- Row `k` of row block `j` of the right array is one of its 8192 rows. -/
theorem rhsRow_lt1 (t : Fin cfg1.N) (k : Fin 1024) : 1024 * (t.val % 8) + k.val < 8192 := by
  omega

/-- The left block at point `t = 8·i + j` is rows `2048·i …` of the left array. -/
theorem blk1_lhs_apply (c : Dev nD) (t : Fin cfg1.N) (r : Fin 2048) (d : Fin 768) :
    blk1 V c 0 t (ix2 r d) = V c (Pipeline.arrRef spec1 0) (ix2 ⟨2048 * (t.val / 8) + r.val, lhsRow_lt1 t r⟩ d) := by
  have hi := lhsIndex1 t
  unfold blk1
  rw [View.read_apply]
  show V c (Pipeline.arrRef spec1 0) _ = V c (Pipeline.arrRef spec1 0) _
  congr 1
  funext a
  apply Fin.ext
  match a with
  | ⟨0, _⟩ => show win1_0.index t 0 * 2048 + 1 * r.val = 2048 * (t.val / 8) + r.val; rw [hi.1]; omega
  | ⟨1, _⟩ => show win1_0.index t 1 * 768 + 1 * d.val = d.val; rw [hi.2]; omega

/-- The right block at point `t = 8·i + j` is rows `1024·j …` of the right array. -/
theorem blk1_rhs_apply (c : Dev nD) (t : Fin cfg1.N) (k : Fin 1024) (d : Fin 768) :
    blk1 V c 1 t (ix2 k d) = V c (Pipeline.arrRef spec1 1) (ix2 ⟨1024 * (t.val % 8) + k.val, rhsRow_lt1 t k⟩ d) := by
  have hi := rhsIndex1 t
  unfold blk1
  rw [View.read_apply]
  show V c (Pipeline.arrRef spec1 1) _ = V c (Pipeline.arrRef spec1 1) _
  congr 1
  funext a
  apply Fin.ext
  match a with
  | ⟨0, _⟩ => show win1_1.index t 0 * 1024 + 1 * k.val = 1024 * (t.val % 8) + k.val; rw [hi.1]; omega
  | ⟨1, _⟩ => show win1_1.index t 1 * 768 + 1 * d.val = d.val; rw [hi.2]; omega

end Blocks

/-! ## The scratch column in closed form -/

section Closed
variable (V : (c : Dev nD) → (b : Ref sig .tc) → Buf (Elt Ideal) ((c : Thread nD τ).loc b))

/-- The left array as the launch finds it, -/
abbrev lhsArr1 (c : Dev nD) : FVec Ideal S8192x768 .bf16 := V c (Pipeline.arrRef spec1 0)
/-- and the right array. -/
abbrev rhsArr1 (c : Dev nD) : FVec Ideal S8192x768 .bf16 := V c (Pipeline.arrRef spec1 1)

/-- Row `n` of the left array against the rows of the right array: the inner product with row `s`, and `⊥` past the
    last row. -/
def rowDots1 (c : Dev nD) (n : Fin 8192) : ℕ → EReal := fun s =>
  if h : s < 8192 then ∑ d : Fin 768, lhsArr1 V c (ix2 n d) * rhsArr1 V c (ix2 ⟨s, h⟩ d) else ⊥

/-- One update at point `t = 8·i + j`, at row `r`: the larger of the previous entry and the maximum of the inner
    products of row `2048·i + r` of the left array with rows `1024·j, …, 1024·j + 1023` of the right array. -/
private theorem pay2_at1 (c : Dev nD) (t : Fin cfg1.N) (v : Vec Ideal S2048x1 .f32) (r : Fin 2048) (n : Fin 8192)
    (hn : n.val = 2048 * (t.val / 8) + r.val) :
    k1_pay2 (F := Ideal) (blk1 V c 0 t) (blk1 V c 1 t) v (ix2 r 0)
      = max (v (ix2 r 0)) (Finset.univ.fold max ⊥ (fun k : Fin 1024 => rowDots1 V c n (1024 * (t.val % 8) + k.val))) := by
  refine (pay2_apply1 (blk1 V c 0 t) (blk1 V c 1 t) v r).trans ?_
  refine congrArg (max (v (ix2 r 0))) ?_
  refine Finset.fold_congr fun k _ => ?_
  have hne : n = ⟨2048 * (t.val / 8) + r.val, lhsRow_lt1 t r⟩ := Fin.ext hn
  unfold rowDots1
  rw [dif_pos (rhsRow_lt1 t k), hne]
  refine Finset.sum_congr rfl fun d _ => ?_
  rw [blk1_lhs_apply, blk1_rhs_apply]

/-- After the point at position `m = 8·i + j` row `r` of the scratch column is the running maximum, over the first
    `j + 1` blocks of 1024 rows of the right array, of the inner products with row `2048·i + r` of the left array. -/
private theorem accAt1_closed_aux (c : Dev nD) : ∀ (m : ℕ) (hm : m < cfg1.N) (r : Fin 2048) (n : Fin 8192),
    n.val = 2048 * (m / 8) + r.val →
    accAt1 V c m hm (ix2 r 0) = Cert.MaxFold.runMax 1024 (rowDots1 V c n) (m % 8 + 1) := by
  intro m
  induction m with
  | zero =>
    intro hm r n hn
    refine (congrFun (accAt1_reset V c ⟨0, hm⟩ (Nat.zero_mod _)) (ix2 r 0)).trans ?_
    refine (pay2_at1 V c ⟨0, hm⟩ _ r n hn).trans ?_
    rw [pay1_apply1]
    rfl
  | succ m ih =>
    intro hm r n hn
    by_cases h0 : (m + 1) % 8 = 0
    · refine (congrFun (accAt1_reset V c ⟨m + 1, hm⟩ h0) (ix2 r 0)).trans ?_
      refine (pay2_at1 V c ⟨m + 1, hm⟩ _ r n hn).trans ?_
      rw [pay1_apply1]
      show max ⊥ (Finset.univ.fold max ⊥ (fun k : Fin 1024 => rowDots1 V c n (1024 * ((m + 1) % 8) + k.val))) = _
      rw [h0]
      rfl
    · refine (congrFun (accAt1_step V c ⟨m + 1, hm⟩ h0) (ix2 r 0)).trans ?_
      refine (pay2_at1 V c ⟨m + 1, hm⟩ _ r n hn).trans ?_
      have hprev : accAt1 V c ((⟨m + 1, hm⟩ : Fin cfg1.N).val - 1) (prev_lt1 ⟨m + 1, hm⟩) (ix2 r 0)
          = Cert.MaxFold.runMax 1024 (rowDots1 V c n) (m % 8 + 1) :=
        ih (Nat.lt_of_succ_lt hm) r n (by rw [hn]; show 2048 * ((m + 1) / 8) + r.val = 2048 * (m / 8) + r.val; omega)
      rw [hprev]
      show max (Cert.MaxFold.runMax 1024 (rowDots1 V c n) (m % 8 + 1))
          (Finset.univ.fold max ⊥ (fun k : Fin 1024 => rowDots1 V c n (1024 * ((m + 1) % 8) + k.val))) = _
      have hs : (m + 1) % 8 = m % 8 + 1 := by omega
      rw [hs]
      rfl

/-- After point `t = 8·i + j` row `r` of the scratch column is the running maximum over the first `j + 1` blocks of
    1024 rows of the right array of the inner products with row `2048·i + r` of the left array. -/
theorem accAt1_closed (c : Dev nD) (t : Fin cfg1.N) (r : Fin 2048) :
    accAt1 V c t.val t.isLt (ix2 r 0)
      = Cert.MaxFold.runMax 1024 (rowDots1 V c ⟨2048 * (t.val / 8) + r.val, lhsRow_lt1 t r⟩) (t.val % 8 + 1) :=
  accAt1_closed_aux V c t.val t.isLt r _ rfl

/-- Row `n` of the column of row maxima: the maximum over all 8192 rows `s` of the right array of the inner product
    of row `n` of the left array with row `s`. -/
theorem rowMaxArr1_closed (c : Dev nD) (n : Fin 8192) :
    rowMaxArr1 V c (ix2 n 0)
      = Finset.univ.fold max ⊥ (fun s : Fin 8192 => ∑ d : Fin 768, lhsArr1 V c (ix2 n d) * rhsArr1 V c (ix2 s d)) := by
  have hN : cfg1.N = 32 := N_1
  have hlt : 8 * (n.val / 2048) + 7 < cfg1.N := by have := n.isLt; omega
  refine (rowMaxArr1_apply V c (ix2 n 0) (8 * (n.val / 2048) + 7) hlt
    (ix2 ⟨n.val % 2048, Nat.mod_lt _ (by norm_num)⟩ 0) rfl rfl).trans ?_
  refine (accAt1_closed_aux V c (8 * (n.val / 2048) + 7) hlt ⟨n.val % 2048, Nat.mod_lt _ (by norm_num)⟩ n
    (by show n.val = 2048 * ((8 * (n.val / 2048) + 7) / 8) + n.val % 2048; omega)).trans ?_
  have h8 : (8 * (n.val / 2048) + 7) % 8 + 1 = 8 := by omega
  rw [h8, Cert.MaxFold.runMax_eq 1024 8]
  show Finset.univ.fold max ⊥ (fun s : Fin 8192 => rowDots1 V c n s.val) = _
  refine Finset.fold_congr fun s _ => ?_
  unfold rowDots1
  rw [dif_pos s.isLt]

end Closed

end Cert.KernelIdeal.RowMax

end
-- ==== Proof.HostSide.lean ====
/-
  The host side of the two programs, through two shared functions. Both programs normalise the rows of their two
  arguments (each row divided by the larger of a small constant and the row's Euclidean norm) before the similarity
  product, and both close with the same sum over a column C of row (or column) maxima: with
  z = k₀ − (1 + C)² / k₁, the result is −Σ (exp z / k₂) · z. The functions are stated once, over the shapes alone, the
  shape facts as hypotheses; each program's terms are then read as instances of them and never opened again.
-/
import proofs.«171457_j18339510354596_1_alg».proof.Proof.Fold
import proofs.«171457_j18339510354596_1_alg».proof.Proof.Gen.ReferenceIdeal.Run
import Idealize.ShloMosaic.Lib.StableHlo.Run

set_option maxRecDepth 16384

noncomputable section

namespace Cert.Shared

open Idealize.ShloMosaic

variable {F : FTy → Type} [FloatOps F]

abbrev S8192x768 : Shape := ⟨2, ![8192, 768]⟩
abbrev S8192x1 : Shape := ⟨2, ![8192, 1]⟩
abbrev S8192 : Shape := ⟨1, ![8192]⟩
abbrev S_ : Shape := ⟨0, ![]⟩

/-- Row normalisation: every row of x divided by max(ε, ‖row‖₂), ε the constant of the programs. -/
def normalize (h1 : S8192x768.ReducesTo [1] S8192) (h2 : 0 < S_.numel)
    (h3 : S8192.BroadcastsInDim S8192x1 (![0] : Fin 1 → Fin S8192x1.rank))
    (h4 : S_.BroadcastsInDim S8192x1 (![] : Fin 0 → Fin S8192x1.rank))
    (h5 : S8192x1.BroadcastsInDim S8192x768 (![0, 1] : Fin 2 → Fin S8192x768.rank))
    (x : FVec F S8192x768 .f32) : FVec F S8192x768 .f32 :=
  Host.divf x (broadcastInDim S8192x768 ![0, 1] h5 (maximumf (broadcastInDim S8192x1 ![] h4 (id (constant S_ .f32 0x322BCC77#32))) (Host.sqrt (broadcastInDim S8192x1 ![0] h3 (Host.reduceAdd (mulf x x) (constant S_ .f32 0x00000000#32) h1 h2)))))

/-- The closing sum over a column C of maxima: with z = (½·log k − log σ) − (1 + C)² / k′ elementwise,
    the result is −Σ (exp z / σ) · z. -/
def entropy (h2 : 0 < S_.numel) (h6 : S_.BroadcastsInDim S8192 (![] : Fin 0 → Fin S8192.rank))
    (h7 : S8192.ReducesTo [0] S_) (C : FVec F S8192 .f32) : FVec F S_ .f32 :=
  Host.negf (Host.reduceAdd (mulf (Host.divf (Host.exp (subf (broadcastInDim S8192 ![] h6 (id (subf (mulf (constant S_ .f32 0x3F000000#32) (Host.log (constant S_ .f32 0x3F22F983#32))) (Host.log (constant S_ .f32 0x3F4CCCCD#32))))) (Host.divf (mulf (addf (broadcastInDim S8192 ![] h6 (constant S_ .f32 0x3F800000#32)) C) (addf (broadcastInDim S8192 ![] h6 (constant S_ .f32 0x3F800000#32)) C)) (broadcastInDim S8192 ![] h6 (constant S_ .f32 0x3FA3D70A#32))))) (broadcastInDim S8192 ![] h6 (constant S_ .f32 0x3F4CCCCD#32))) (subf (broadcastInDim S8192 ![] h6 (id (subf (mulf (constant S_ .f32 0x3F000000#32) (Host.log (constant S_ .f32 0x3F22F983#32))) (Host.log (constant S_ .f32 0x3F4CCCCD#32))))) (Host.divf (mulf (addf (broadcastInDim S8192 ![] h6 (constant S_ .f32 0x3F800000#32)) C) (addf (broadcastInDim S8192 ![] h6 (constant S_ .f32 0x3F800000#32)) C)) (broadcastInDim S8192 ![] h6 (constant S_ .f32 0x3FA3D70A#32))))) (constant S_ .f32 0x00000000#32) h7 h2)

end Cert.Shared

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The reference's first result: the closing sum over the row maxima of the product of the normalised arguments. -/
theorem res0_eq (m : (ℓ : Loc nD τ sig) → Buf (Elt F) ℓ) (c : Dev nD) :
    Cert.ReferenceIdeal.Value.res_main_v40 (F := F) m c
      = Cert.Shared.entropy h_S_ bcast_S_S8192 reducesTo_S8192_S_d0
          (Host.reduce FloatOps.maximumf (Host.dotGeneral dot_S8192x768_S8192x768_S8192x8192_1_1_0_0_n_n none
            (Cert.Shared.normalize reducesTo_S8192x768_S8192_d1 h_S_ bcast_S8192_S8192x1_0 bcast_S_S8192x1 bcast_S8192x1_S8192x768_0_1 (m ((c.tc : Thread nD τ).loc main_arg0)))
            (Cert.Shared.normalize reducesTo_S8192x768_S8192_d1 h_S_ bcast_S8192_S8192x1_0 bcast_S_S8192x1 bcast_S8192x1_S8192x768_0_1 (m ((c.tc : Thread nD τ).loc main_arg1))))
            (constant S_ .f32 0xFF800000#32) reducesTo_S8192x8192_S8192_d1 h_S_) := by
  unfold Cert.ReferenceIdeal.Value.res_main_v40 Cert.Shared.entropy Cert.Shared.normalize
  rfl

/-- The reference's second result: the same over the column maxima. -/
theorem res1_eq (m : (ℓ : Loc nD τ sig) → Buf (Elt F) ℓ) (c : Dev nD) :
    Cert.ReferenceIdeal.Value.res_main_v46 (F := F) m c
      = Cert.Shared.entropy h_S_ bcast_S_S8192 reducesTo_S8192_S_d0
          (Host.reduce FloatOps.maximumf (Host.dotGeneral dot_S8192x768_S8192x768_S8192x8192_1_1_0_0_n_n none
            (Cert.Shared.normalize reducesTo_S8192x768_S8192_d1 h_S_ bcast_S8192_S8192x1_0 bcast_S_S8192x1 bcast_S8192x1_S8192x768_0_1 (m ((c.tc : Thread nD τ).loc main_arg0)))
            (Cert.Shared.normalize reducesTo_S8192x768_S8192_d1 h_S_ bcast_S8192_S8192x1_0 bcast_S_S8192x1 bcast_S8192x1_S8192x768_0_1 (m ((c.tc : Thread nD τ).loc main_arg1))))
            (constant S_ .f32 0xFF800000#32) reducesTo_S8192x8192_S8192_d0 h_S_) := by
  unfold Cert.ReferenceIdeal.Value.res_main_v46 Cert.Shared.entropy Cert.Shared.normalize
  rfl

end Cert.ReferenceIdeal.RefValue

namespace Cert.KernelIdeal.RowMax

open Cert.KernelIdeal
open Cert.KernelIdeal.Gen hiding V0 V1 V2 V3 V4 V5 V6 V7 V8 V9 V10 V11 V12 adm segs
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The second launch finds the two normalised arrays as the first did: the first launch only reads them, and the
    reshape between the launches writes neither. -/
theorem E1_lhs (c : Dev nD) : E1 m ρ c main_v9 = E0 m ρ c main_v9 := by
  show StableHlo.after hostOps1 (W9 m ρ c) (Proc.devRef .tc main_v9) = _
  rw [StableHlo.after_of_writes_sub hostOps1 _ hostOps1_writes (by decide)]
  refine (W9_arr m ρ c 1).trans ?_
  rw [(dat0 (E0 m ρ) c).arrAt_in 1 rfl _, A_eq0]

theorem E1_rhs (c : Dev nD) : E1 m ρ c main_v8 = E0 m ρ c main_v8 := by
  show StableHlo.after hostOps1 (W9 m ρ c) (Proc.devRef .tc main_v8) = _
  rw [StableHlo.after_of_writes_sub hostOps1 _ hostOps1_writes (by decide)]
  refine (W9_arr m ρ c 0).trans ?_
  rw [(dat0 (E0 m ρ) c).arrAt_in 0 rfl _, A_eq0]

/-- What the first launch finds in its two input arrays: the two arguments, rows normalised, cast to bf16. -/
theorem E0_lhs (c : Dev nD) :
    E0 m ρ c main_v8 = truncf .bf16 (Cert.Shared.normalize reducesTo_S8192x768_S8192_d1 h_S_ bcast_S8192_S8192x1_0 bcast_S_S8192x1 bcast_S8192x1_S8192x768_0_1 (m ((c : Thread nD τ).loc main_arg0))) bitsLt_bf16_f32 := by
  show StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 (W0 m ρ c)))))))) (Proc.devRef .tc main_v8) = _
  after_results_simp
  unfold Cert.Shared.normalize
  rfl

theorem E0_rhs (c : Dev nD) :
    E0 m ρ c main_v9 = truncf .bf16 (Cert.Shared.normalize reducesTo_S8192x768_S8192_d1 h_S_ bcast_S8192_S8192x1_0 bcast_S_S8192x1 bcast_S8192x1_S8192x768_0_1 (m ((c : Thread nD τ).loc main_arg1))) bitsLt_bf16_f32 := by
  show StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 (W0 m ρ c)))))))) (Proc.devRef .tc main_v9) = _
  after_results_simp
  unfold Cert.Shared.normalize
  rfl

/-- The first launch's output column, read as a vector, is what the closing stretch finds at its first operand. -/
theorem W11_main_v11 (c : Dev nD) :
    W11 m ρ c (Proc.devRef .tc main_v11)
      = shapeCast S8192 ((dat0 (E0 m ρ) c).arrAt 2 cfg0.N) shapeCasts_S8192x1_S8192 := by
  rw [W11_of_ne m ρ c main_v11 (by decide)]
  show StableHlo.after hostOps1 (W9 m ρ c) (Proc.devRef .tc main_v11) = _
  have e := W9_arr m ρ c 2
  generalize (dat0 (E0 m ρ) c).arrAt 2 cfg0.N = a at e ⊢
  generalize W9 m ρ c = V at e ⊢
  after_results
  rw [show V (Proc.devRef .tc main_v10) = a from e]
  rfl

/-- The program's first result: the closing sum over the first launch's output column. -/
theorem out0_eq (c : Dev nD) :
    W12 m ρ c (Proc.devRef .tc main_v43)
      = Cert.Shared.entropy h_S_ bcast_S_S8192 reducesTo_S8192_S_d0
          (shapeCast S8192 ((dat0 (E0 m ρ) c).arrAt 2 cfg0.N) shapeCasts_S8192x1_S8192) := by
  show StableHlo.after hostOps2 (W11 m ρ c) (Proc.devRef .tc main_v43) = _
  have e := W11_main_v11 m ρ c
  generalize shapeCast S8192 ((dat0 (E0 m ρ) c).arrAt 2 cfg0.N) shapeCasts_S8192x1_S8192 = C at e ⊢
  generalize W11 m ρ c = V at e ⊢
  after_results_simp
  rw [e]
  unfold Cert.Shared.entropy
  rfl

/-- The program's second result: the closing sum over the second launch's output column. -/
theorem out1_eq (c : Dev nD) :
    W12 m ρ c (Proc.devRef .tc main_v49)
      = Cert.Shared.entropy h_S_ bcast_S_S8192 reducesTo_S8192_S_d0
          (shapeCast S8192 ((dat1 (E1 m ρ) c).arrAt 2 cfg1.N) shapeCasts_S8192x1_S8192) := by
  show StableHlo.after hostOps2 (W11 m ρ c) (Proc.devRef .tc main_v49) = _
  have e := W11_arr m ρ c 2
  generalize (dat1 (E1 m ρ) c).arrAt 2 cfg1.N = a at e ⊢
  generalize W11 m ρ c = V at e ⊢
  after_results_simp
  rw [show V (Proc.devRef .tc main_v12) = a from e]
  unfold Cert.Shared.entropy
  rfl

end Cert.KernelIdeal.RowMax

end
-- ==== Proof.Bridge.lean ====
/-
  The kernel's result column and the reference's two maxima, on the extended reals.

  The reference forms the `8192 × 8192` array of products `P[n, s] = Σ_d l[n, d] · r[s, d]` and takes, from `-∞`, its
  maximum along the second axis (at `n`: the maximum over `s` of `P[n, s]`) and along the first (at `n`: the maximum
  over `s` of `P[s, n]`). A column `out : [8192, 1]` whose entry `n` is the maximum over `s` of
  `Σ_d a[n, d] · b[s, d]`, where `a` and `b` are the operands narrowed to sixteen bits (the identity on the extended
  reals), reshaped to `[8192]`, is the first when `(a, b) = (l, r)` (`bridge_rows`) and, the product commuting under the
  sum, the second when `(a, b) = (r, l)` (`bridge_cols`).
-/
import proofs.«171457_j18339510354596_1_alg».proof.Proof.MaxFold
import proofs.«171457_j18339510354596_1_alg».proof.Proof.LibMatmulTransposedRhs
import proofs.«171457_j18339510354596_1_alg».proof.Proof.Gen.ReferenceIdeal
import Idealize.ShloMosaic.Lib.Pipeline.Value
import Idealize.ShloMosaic.Lib.ValueIdx

noncomputable section

open scoped BigOperators

namespace Cert.ReferenceIdeal.RefValue

open Cert.ReferenceIdeal Cert.ReferenceIdeal.Gen Idealize.ShloMosaic Idealize.ShloMosaic.ValueIdx

/-- The reference's dimension numbers are those of an `[8192, 768]` by `[8192, 768]` product contracted on the last
    axis of both operands. -/
theorem dot_eq_transposedRhs :
    dot_S8192x768_S8192x768_S8192x8192_1_1_0_0_n_n = DotDims.transposedRhs 8192 768 8192 := rfl

/-- The reference's product at entry `(n, s)`: `Σ_d l[n, d] · r[s, d]`. -/
theorem dotGeneral_entry (l r : FVec Ideal S8192x768 .f32) (n s : Fin 8192) :
    Host.dotGeneral dot_S8192x768_S8192x768_S8192x8192_1_1_0_0_n_n none l r (ix2 n s)
      = ∑ d : Fin 768, l (ix2 n d) * r (ix2 s d) := by
  show FloatOps.dotGeneral dot_S8192x768_S8192x768_S8192x8192_1_1_0_0_n_n none .single l r (ix2 n s) = _
  rw [dot_eq_transposedRhs]
  exact Cert.MatmulTransposedRhs.dotGeneral_apply none .single l r n s

/-- An `[8192, 1]` column reshaped to `[8192]` reads, at `n`, the column at `(n, 0)`. -/
theorem shapeCast_column_apply (out : FVec Ideal S8192x1 .f32) (hc : S8192x1.ShapeCasts S8192) (n : Fin 8192) :
    shapeCast S8192 out hc (ix1 n) = out (ix2 n 0) :=
  shapeCast_apply out hc (ix1 n) (ix2 n 0) (by
    rw [Shape.rowMajor_val_two, Shape.rowMajor_val_one]
    show n.val * 1 + 0 = n.val
    rw [Nat.mul_one, Nat.add_zero])

theorem bridge_rows (l r : FVec Ideal S8192x768 .f32) (out : FVec Ideal S8192x1 .f32)
    (hb : FTy.bits .bf16 < FTy.bits .f32) (hc : S8192x1.ShapeCasts S8192)
    (hout : ∀ n : Fin 8192, out (ix2 n 0) = Finset.univ.fold max ⊥ (fun s : Fin 8192 =>
      ∑ d : Fin 768, (truncf .bf16 l hb) (ix2 n d) * (truncf .bf16 r hb) (ix2 s d))) :
    shapeCast S8192 out hc
      = Host.reduce FloatOps.maximumf (Host.dotGeneral dot_S8192x768_S8192x768_S8192x8192_1_1_0_0_n_n none l r)
          (constant S_ .f32 0xFF800000#32) reducesTo_S8192x8192_S8192_d1 h_S_ := by
  funext i
  obtain ⟨n, rfl⟩ : ∃ n : Fin 8192, i = ix1 n := ⟨i 0, eq_ix1 i⟩
  rw [shapeCast_column_apply out hc n, hout n]
  refine ((Cert.MaxFold.hostRowMax_apply _ _ _ n).trans ?_).symm
  exact Finset.fold_congr fun s _ => dotGeneral_entry l r n s

theorem bridge_cols (l r : FVec Ideal S8192x768 .f32) (out : FVec Ideal S8192x1 .f32)
    (hb : FTy.bits .bf16 < FTy.bits .f32) (hc : S8192x1.ShapeCasts S8192)
    (hout : ∀ n : Fin 8192, out (ix2 n 0) = Finset.univ.fold max ⊥ (fun s : Fin 8192 =>
      ∑ d : Fin 768, (truncf .bf16 r hb) (ix2 n d) * (truncf .bf16 l hb) (ix2 s d))) :
    shapeCast S8192 out hc
      = Host.reduce FloatOps.maximumf (Host.dotGeneral dot_S8192x768_S8192x768_S8192x8192_1_1_0_0_n_n none l r)
          (constant S_ .f32 0xFF800000#32) reducesTo_S8192x8192_S8192_d0 h_S_ := by
  funext i
  obtain ⟨n, rfl⟩ : ∃ n : Fin 8192, i = ix1 n := ⟨i 0, eq_ix1 i⟩
  rw [shapeCast_column_apply out hc n, hout n]
  refine ((Cert.MaxFold.hostColMax_apply _ _ _ n).trans ?_).symm
  refine Finset.fold_congr fun s _ => (dotGeneral_entry l r s n).trans ?_
  exact Finset.sum_congr rfl fun d _ => mul_comm _ _

end Cert.ReferenceIdeal.RefValue
-- ==== Proof.lean ====
/-
  The certificate's claims.

  The kernel's program normalises the rows of its two inputs on the host (x / max(1e-8, ‖x‖₂), narrowed to sixteen
  bits for the matrix unit: the identity on the extended reals), launches the row-maximum kernel twice — on (exn, eyn)
  and on (eyn, exn) —, and closes with the half-normal log-probability and the entropy-like sum of each column of
  maxima. The kernel walks a 4 × 8 grid: for row block i it folds, for j = 0 … 7, the row maxima of the product of row
  block i with column block j into a running maximum started from −∞, and writes the column back after j = 7. The
  reference forms the whole 8192 × 8192 product once and reduces it with the maximum along either axis.

  On the extended reals the two agree: a maximum over 8192 columns is the maximum of the maxima over eight blocks of
  1024 (the fold of `max` from −∞ is a least upper bound); the second launch's column is the reduction along the
  other axis because the product commutes under the sum; the host prefix and the host tail are the same operations on
  both sides and are carried as two opaque functions. No finiteness of the inputs is used.

  The three frames: each launch's region invariant carries the scratch column at the running maximum after the point
  before; the two launches are joined to the stretches of host operations between them over the contents of every
  buffer at each boundary. The reference's frame is its run with the results dropped.
-/
import proofs.«171457_j18339510354596_1_alg».proof.Defs
import proofs.«171457_j18339510354596_1_alg».proof.Proof.Gen.Kernel
import proofs.«171457_j18339510354596_1_alg».proof.Proof.Gen.KernelIdeal
import proofs.«171457_j18339510354596_1_alg».proof.Proof.Gen.ReferenceIdeal
import proofs.«171457_j18339510354596_1_alg».proof.Proof.Gen.Pre_finite_inputs
import proofs.«171457_j18339510354596_1_alg».proof.Proof.Gen.ReferenceIdeal.Run
import proofs.«171457_j18339510354596_1_alg».proof.Proof.BitsWhole
import proofs.«171457_j18339510354596_1_alg».proof.Proof.Whole
import proofs.«171457_j18339510354596_1_alg».proof.Proof.R0Ideal
import proofs.«171457_j18339510354596_1_alg».proof.Proof.R1Ideal
import proofs.«171457_j18339510354596_1_alg».proof.Proof.HostSide
import proofs.«171457_j18339510354596_1_alg».proof.Proof.Bridge
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel (hKernel := Cert.Kernel.Gen.facts) (hPre_finite_inputs := Cert.Pre_finite_inputs.Gen.facts) :=
  fun m ρ _ => Cert.Kernel.RowMax.frame (F := Bits) m ρ

theorem frame_ki : Cert.frame_KernelIdeal (hKernelIdeal := Cert.KernelIdeal.Gen.facts) (hPre_finite_inputs := Cert.Pre_finite_inputs.Gen.facts) :=
  fun m ρ _ => Cert.KernelIdeal.RowMax.frame (F := Ideal) m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => ⟨(h c).2.2.1, (h c).2.2.2⟩)
    (Cert.ReferenceIdeal.Value.run (F := Ideal) m ρ)

theorem preserves : Cert.preserves_Kernel_KernelIdeal := trivial

section Values

open Cert.KernelIdeal Cert.KernelIdeal.RowMax
open Cert.KernelIdeal.Gen hiding V0 V1 V2 V3 V4 V5 V6 V7 V8 V9 V10 V11 V12 adm segs

variable (m : (ℓ : Loc Cert.KernelIdeal.nD Cert.KernelIdeal.τ Cert.KernelIdeal.sig) → Buf (Elt Ideal) ℓ) (ρ : Dev Cert.KernelIdeal.nD → PrngReg)

/-- The columns the two launches leave, as vectors of extended reals. -/
abbrev column0 (c : Dev Cert.KernelIdeal.nD) : FVec Ideal S8192x1 .f32 := (dat0 (E0 m ρ) c).arrAt 2 cfg0.N
abbrev column1 (c : Dev Cert.KernelIdeal.nD) : FVec Ideal S8192x1 .f32 := (dat1 (E1 m ρ) c).arrAt 2 cfg1.N

/-- The first launch's column, reshaped, is the reference's maximum along the second axis of the product of the
    normalised inputs. -/
theorem firstColumn (c : Dev Cert.KernelIdeal.nD) :
    shapeCast S8192 (column0 m ρ c) shapeCasts_S8192x1_S8192
      = Host.reduce (FloatOps.maximumf (F := Ideal) (φ := .f32)) (Host.dotGeneral Cert.ReferenceIdeal.dot_S8192x768_S8192x768_S8192x8192_1_1_0_0_n_n none
          (Cert.Shared.normalize reducesTo_S8192x768_S8192_d1 h_S_ bcast_S8192_S8192x1_0 bcast_S_S8192x1 bcast_S8192x1_S8192x768_0_1 (m ((c : Thread nD τ).loc main_arg0)))
          (Cert.Shared.normalize reducesTo_S8192x768_S8192_d1 h_S_ bcast_S8192_S8192x1_0 bcast_S_S8192x1 bcast_S8192x1_S8192x768_0_1 (m ((c : Thread nD τ).loc main_arg1))))
          (constant Cert.ReferenceIdeal.S_ .f32 0xFF800000#32) Cert.ReferenceIdeal.Gen.reducesTo_S8192x8192_S8192_d1 Cert.ReferenceIdeal.Gen.h_S_ := by
  rw [show column0 m ρ c = rowMaxArr0 (E0 m ρ) c from final0 (E0 m ρ) c]
  refine Cert.ReferenceIdeal.RefValue.bridge_rows _ _ (rowMaxArr0 (E0 m ρ) c) bitsLt_bf16_f32 shapeCasts_S8192x1_S8192 fun n => ?_
  rw [rowMaxArr0_closed]
  unfold lhsArr0 rhsArr0
  rw [show E0 m ρ c (Pipeline.arrRef spec0 0) = _ from E0_lhs m ρ c, show E0 m ρ c (Pipeline.arrRef spec0 1) = _ from E0_rhs m ρ c]

/-- The second launch's column is the maximum along the first axis. -/
theorem secondColumn (c : Dev Cert.KernelIdeal.nD) :
    shapeCast S8192 (column1 m ρ c) shapeCasts_S8192x1_S8192
      = Host.reduce (FloatOps.maximumf (F := Ideal) (φ := .f32)) (Host.dotGeneral Cert.ReferenceIdeal.dot_S8192x768_S8192x768_S8192x8192_1_1_0_0_n_n none
          (Cert.Shared.normalize reducesTo_S8192x768_S8192_d1 h_S_ bcast_S8192_S8192x1_0 bcast_S_S8192x1 bcast_S8192x1_S8192x768_0_1 (m ((c : Thread nD τ).loc main_arg0)))
          (Cert.Shared.normalize reducesTo_S8192x768_S8192_d1 h_S_ bcast_S8192_S8192x1_0 bcast_S_S8192x1 bcast_S8192x1_S8192x768_0_1 (m ((c : Thread nD τ).loc main_arg1))))
          (constant Cert.ReferenceIdeal.S_ .f32 0xFF800000#32) Cert.ReferenceIdeal.Gen.reducesTo_S8192x8192_S8192_d0 Cert.ReferenceIdeal.Gen.h_S_ := by
  rw [show column1 m ρ c = rowMaxArr1 (E1 m ρ) c from final1 (E1 m ρ) c]
  refine Cert.ReferenceIdeal.RefValue.bridge_cols _ _ (rowMaxArr1 (E1 m ρ) c) bitsLt_bf16_f32 shapeCasts_S8192x1_S8192 fun n => ?_
  rw [rowMaxArr1_closed]
  unfold lhsArr1 rhsArr1
  rw [show E1 m ρ c (Pipeline.arrRef spec1 0) = _ from (E1_lhs m ρ c).trans (E0_rhs m ρ c),
    show E1 m ρ c (Pipeline.arrRef spec1 1) = _ from (E1_rhs m ρ c).trans (E0_lhs m ρ c)]

end Values

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.RowMax.W12 m ρ c (Proc.devRef .tc Cert.KernelIdeal.main_v43),
    fun c => Cert.KernelIdeal.RowMax.W12 m ρ c (Proc.devRef .tc Cert.KernelIdeal.main_v49), ?_, ?_⟩
  · exact (θ_run Cert.KernelIdeal.defs _ _).mono (fun _ h c =>
      ⟨h c _ (Cert.KernelIdeal.RowMax.mem_uc Cert.KernelIdeal.main_v43 (by decide)),
       h c _ (Cert.KernelIdeal.RowMax.mem_uc Cert.KernelIdeal.main_v49 (by decide)),
       (h c _ (Cert.KernelIdeal.RowMax.mem_uc Cert.KernelIdeal.main_arg0 (by decide))).trans (Cert.KernelIdeal.RowMax.W12_main_arg0 m ρ c),
       (h c _ (Cert.KernelIdeal.RowMax.mem_uc Cert.KernelIdeal.main_arg1 (by decide))).trans (Cert.KernelIdeal.RowMax.W12_main_arg1 m ρ c)⟩)
      (Cert.KernelIdeal.RowMax.run_all (F := Ideal) m ρ)
  · refine (θ_run Cert.ReferenceIdeal.defs _ _).mono (fun _ h c => ⟨(h c).1.trans ?_, (h c).2.1.trans ?_, (h c).2.2.1, (h c).2.2.2⟩)
      (Cert.ReferenceIdeal.Value.run (F := Ideal) m' ρ')
    · rw [Cert.ReferenceIdeal.RefValue.res0_eq, (hagree c).1, (hagree c).2]
      refine Eq.trans ?_ (Cert.KernelIdeal.RowMax.out0_eq m ρ c).symm
      exact congrArg _ (firstColumn m ρ c).symm
    · rw [Cert.ReferenceIdeal.RefValue.res1_eq, (hagree c).1, (hagree c).2]
      refine Eq.trans ?_ (Cert.KernelIdeal.RowMax.out1_eq m ρ c).symm
      exact congrArg _ (secondColumn m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
